-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S100000x256 : Shape := ⟨2, ![100000, 256]⟩
abbrev S100000 : Shape := ⟨1, ![100000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S200000x256 .f32) (main_arg1 : IVec S200000 32) (main_arg2 : FVec F S100000x256 .f32) (main_arg3 : FVec F S100000 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S200000x256 : Shape := ⟨2, ![200000, 256]⟩
abbrev S200000 : Shape := ⟨1, ![200000]⟩
abbrev S100000x256 : Shape := ⟨2, ![100000, 256]⟩
abbrev S100000 : Shape := ⟨1, ![100000]⟩
abbrev S10x1x20000 : Shape := ⟨3, ![10, 1, 20000]⟩
abbrev S2x10x256 : Shape := ⟨3, ![2, 10, 256]⟩
abbrev S2x10x1 : Shape := ⟨3, ![2, 10, 1]⟩
abbrev S20000x256 : Shape := ⟨2, ![20000, 256]⟩
abbrev S1x1x20000 : Shape := ⟨3, ![1, 1, 20000]⟩
abbrev S1x10x256 : Shape := ⟨3, ![1, 10, 256]⟩
abbrev S1x10x1 : Shape := ⟨3, ![1, 10, 1]⟩
abbrev S10x256 : Shape := ⟨2, ![10, 256]⟩
abbrev S10x1 : Shape := ⟨2, ![10, 1]⟩
abbrev S1x20000 : Shape := ⟨2, ![1, 20000]⟩
abbrev S10x20000 : Shape := ⟨2, ![10, 20000]⟩
abbrev S10 : Shape := ⟨1, ![10]⟩
abbrev S100000x1 : Shape := ⟨2, ![100000, 1]⟩
abbrev S2x1x1 : Shape := ⟨3, ![2, 1, 1]⟩
abbrev S10000x256 : Shape := ⟨2, ![10000, 256]⟩
abbrev S10000x1 : Shape := ⟨2, ![10000, 1]⟩
abbrev S1x1x1 : Shape := ⟨3, ![1, 1, 1]⟩
abbrev S1x1 : Shape := ⟨2, ![1, 1]⟩
abbrev S10000x10 : Shape := ⟨2, ![10000, 10]⟩
abbrev S10000 : Shape := ⟨1, ![10000]⟩
abbrev S1x10000x1 : Shape := ⟨3, ![1, 10000, 1]⟩
abbrev S1 : Shape := ⟨1, ![1]⟩
abbrev S_ : Shape := ⟨0, ![]⟩

abbrev nBuf : Space → Nat
  | .hbm => 13
  | .vmem => 20
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S100000x256, .f32⟩
  | .hbm, ⟨3, _⟩ => ⟨S100000, .f32⟩
  | .hbm, ⟨4, _⟩ => ⟨S10x1x20000, .i32⟩
  | .hbm, ⟨5, _⟩ => ⟨S2x10x256, .f32⟩
  | .hbm, ⟨6, _⟩ => ⟨S2x10x1, .f32⟩
  | .hbm, ⟨7, _⟩ => ⟨S100000x1, .f32⟩
  | .hbm, ⟨8, _⟩ => ⟨S2x1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S20000x256, .f32⟩
  | .local _ .vmem, ⟨1, _⟩ => ⟨S20000x256, .f32⟩
  | .local _ .vmem, ⟨2, _⟩ => ⟨S1x1x20000, .i32⟩
  | .local _ .vmem, ⟨3, _⟩ => ⟨S1x1x20000, .i32⟩
  | .local _ .vmem, ⟨4, _⟩ => ⟨S1x10x256, .f32⟩
  | .local _ .vmem, ⟨5, _⟩ => ⟨S1x10x256, .f32⟩
  | .local _ .vmem, ⟨6, _⟩ => ⟨S1x10x1, .f32⟩
  | .local _ .vmem, ⟨7, _⟩ => ⟨S1x10x1, .f32⟩
  | .local _ .vmem, ⟨8, _⟩ => ⟨S10x256, .f32⟩
  | .local _ .vmem, ⟨9, _⟩ => ⟨S10x1, .f32⟩
  | .local _ .vmem, ⟨10, _⟩ => ⟨S2x10x256, .f32⟩
  | .local _ .vmem, ⟨11, _⟩ => ⟨S2x10x1, .f32⟩
  | .local _ .vmem, ⟨12, _⟩ => ⟨S10000x256, .f32⟩
  | .local _ .vmem, ⟨13, _⟩ => ⟨S10000x256, .f32⟩
  | .local _ .vmem, ⟨14, _⟩ => ⟨S10000x1, .f32⟩
  | .local _ .vmem, ⟨15, _⟩ => ⟨S10000x1, .f32⟩
  | .local _ .vmem, ⟨16, _⟩ => ⟨S1x1x1, .f32⟩
  | .local _ .vmem, ⟨17, _⟩ => ⟨S1x1x1, .f32⟩
  | .local _ .vmem, ⟨18, _⟩ => ⟨S10x256, .f32⟩
  | .local _ .vmem, ⟨19, _⟩ => ⟨S1x1, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v24 : BitVec 1 := Scalar.cmpi .eq arg1 c4_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x20000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x10x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 5], ![false, false]⟩

def k1_cond2 (i : grid1.Coords) : BitVec 1 :=
  let arg1 : BitVec 32 := BitVec.ofNat 32 (i 1).val
  let c4_i32 : BitVec 32 := 4#32
  let v38 : BitVec 1 := Scalar.cmpi .eq arg1 c4_i32
  let v39 : BitVec 32 := Scalar.extui v38
  let c0_i32_15 : BitVec 32 := 0#32
  let v40 : BitVec 1 := Scalar.cmpi .ne v39 c0_i32_15
  v40

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2x10x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S2x10x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S10000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S200000_S10x1x20000 : S200000.ShapeCasts S10x1x20000
  inb_S10x256_S10x256_0_0 : ∀ a, (![0, 0] : Fin 2 → Nat) a + S10x256.size a ≤ S10x256.size a
  h_S10x256 : 0 < S10x256.numel
  shapeCasts_S10x256_S10x256 : S10x256.ShapeCasts S10x256
  inb_S10x1_S10x1_0_0 : ∀ a, (![0, 0] : Fin 2 → Nat) a + S10x1.size a ≤ S10x1.size a
  h_S10x1 : 0 < S10x1.numel
  shapeCasts_S10x1_S10x1 : S10x1.ShapeCasts S10x1
  inb_S1x1x20000_S1x1x20000_0_0_0 : ∀ a, (![0, 0, 0] : Fin 3 → Nat) a + S1x1x20000.size a ≤ S1x1x20000.size a
  h_S1x1x20000 : 0 < S1x1x20000.numel
  shapeCasts_S1x1x20000_S1x20000 : S1x1x20000.ShapeCasts S1x20000
  iota_S10x20000_d0_w32 : S10x20000.Iotas .tc 32 [0]
  broadcasts_S1x20000_S10x20000 : S1x20000.Broadcasts S10x20000
  natLt_1_32 : 1 < 32
  inb_S20000x256_S20000x256_0_0 : ∀ a, (![0, 0] : Fin 2 → Nat) a + S20000x256.size a ≤ S20000x256.size a
  h_S20000x256 : 0 < S20000x256.numel
  reduces_S10x20000_S10 : S10x20000.Reduces [1] S10
  shapeCasts_S10_S10x1 : S10.ShapeCasts S10x1
  inb_S1x10x256_S1x10x256_0_0_0 : ∀ a, (![0, 0, 0] : Fin 3 → Nat) a + S1x10x256.size a ≤ S1x10x256.size a
  h_S1x10x256 : 0 < S1x10x256.numel
  shapeCasts_S1x10x256_S10x256 : S1x10x256.ShapeCasts S10x256
  shapeCasts_S10x256_S1x10x256 : S10x256.ShapeCasts S1x10x256
  inb_S1x10x1_S1x10x1_0_0_0 : ∀ a, (![0, 0, 0] : Fin 3 → Nat) a + S1x10x1.size a ≤ S1x10x1.size a
  h_S1x10x1 : 0 < S1x10x1.numel
  shapeCasts_S1x10x1_S10x1 : S1x10x1.ShapeCasts S10x1
  shapeCasts_S10x1_S1x10x1 : S10x1.ShapeCasts S1x10x1
  shapeCasts_S100000_S100000x1 : S100000.ShapeCasts S100000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2x10x256_S2x10x256_0_0_0 : ∀ a, (![0, 0, 0] : Fin 3 → Nat) a + S2x10x256.size a ≤ S2x10x256.size a
  h_S2x10x256 : 0 < S2x10x256.numel
  shapeCasts_S2x10x256_S2x10x256 : S2x10x256.ShapeCasts S2x10x256
  reduces_S2x10x256_S10x256 : S2x10x256.Reduces [0] S10x256
  inb_S2x10x1_S2x10x1_0_0_0 : ∀ a, (![0, 0, 0] : Fin 3 → Nat) a + S2x10x1.size a ≤ S2x10x1.size a
  h_S2x10x1 : 0 < S2x10x1.numel
  shapeCasts_S2x10x1_S2x10x1 : S2x10x1.ShapeCasts S2x10x1
  reduces_S2x10x1_S10x1 : S2x10x1.Reduces [0] S10x1
  broadcasts_S10x1_S10x256 : S10x1.Broadcasts S10x256
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x10_d1_w32 : S10000x10.Iotas .tc 32 [1]
  broadcasts_S10000x1_S10000x10 : S10000x1.Broadcasts S10000x10
  inb_S10000x256_S10000x256_0_0 : ∀ a, (![0, 0] : Fin 2 → Nat) a + S10000x256.size a ≤ S10000x256.size a
  h_S10000x256 : 0 < S10000x256.numel
  reduces_S10000x256_S10000 : S10000x256.Reduces [1] S10000
  shapeCasts_S10000_S10000x1 : S10000.ShapeCasts S10000x1
  shapeCasts_S10000x1_S1x10000x1 : S10000x1.ShapeCasts S1x10000x1
  reduces_S1x10000x1_S1 : S1x10000x1.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  dot_S10x20000_S20000x256_S10x256_1_0_0_1_n_n_wf : DotDims.WF S10x20000 S20000x256 S10x256 [1] [0] [0] [1] [] []
  dot_S10000x10_S10x256_S10000x256_1_0_0_1_n_n_wf : DotDims.WF S10000x10 S10x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x256.size a ≤ S200000x256.size a
  hwx0_0 : ∀ i : grid0.Coords, EltTy.bits .f32 = 32 ∨ (Rect.block (s := S200000x256) S20000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x20000.size a ≤ S10x1x20000.size a
  hwx0_1 : ∀ i : grid0.Coords, EltTy.bits .i32 = 32 ∨ (Rect.block (s := S10x1x20000) S1x1x20000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10x256.size a ≤ S2x10x256.size a
  hwx0_2 : ∀ i : grid0.Coords, EltTy.bits .f32 = 32 ∨ (Rect.block (s := S2x10x256) S1x10x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10x1.size a ≤ S2x10x1.size a
  hwx0_3 : ∀ i : grid0.Coords, EltTy.bits .f32 = 32 ∨ (Rect.block (s := S2x10x1) S1x10x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x10x256.size a ≤ S2x10x256.size a
  hwx1_0 : ∀ i : grid1.Coords, EltTy.bits .f32 = 32 ∨ (Rect.block (s := S2x10x256) S2x10x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x10x1.size a ≤ S2x10x1.size a
  hwx1_1 : ∀ i : grid1.Coords, EltTy.bits .f32 = 32 ∨ (Rect.block (s := S2x10x1) S2x10x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S100000x256.size a
  hwx1_2 : ∀ i : grid1.Coords, EltTy.bits .f32 = 32 ∨ (Rect.block (s := S100000x256) S10000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S2x1x1.size a
  hwx1_4 : ∀ i : grid1.Coords, EltTy.bits .f32 = 32 ∨ (Rect.block (s := S2x1x1) S1x1x1.size (cc1_transform_4 i) (hinb1_4 i)).WholeWords (EltTy.packing .f32)

variable [Facts₀]

def dot_S10x20000_S20000x256_S10x256_1_0_0_1_n_n : DotDims S10x20000 S20000x256 S10x256 where
  lhsContracting := [1]
  rhsContracting := [0]
  lhsNonContracting := [0]
  rhsNonContracting := [1]
  lhsBatch := []
  rhsBatch := []
  wf := dot_S10x20000_S20000x256_S10x256_1_0_0_1_n_n_wf
def dot_S10000x10_S10x256_S10000x256_1_0_0_1_n_n : DotDims S10000x10 S10x256 S10000x256 where
  lhsContracting := [1]
  rhsContracting := [0]
  lhsNonContracting := [0]
  rhsNonContracting := [1]
  lhsBatch := []
  rhsBatch := []
  wf := dot_S10000x10_S10x256_S10000x256_1_0_0_1_n_n_wf

abbrev win0_0 : Pipeline.Window sig grid0 :=
  Pipeline.Window.ofSpec (Memref.whole main_arg0) S20000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x20000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x10x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x10x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1_0) S2x10x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S2x10x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S10000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S200000x256 : Shape := ⟨2, ![200000, 256]⟩
abbrev S200000 : Shape := ⟨1, ![200000]⟩
abbrev S100000x256 : Shape := ⟨2, ![100000, 256]⟩
abbrev S100000 : Shape := ⟨1, ![100000]⟩
abbrev S_ : Shape := ⟨0, ![]⟩
abbrev S10x256 : Shape := ⟨2, ![10, 256]⟩
abbrev S200000x1 : Shape := ⟨2, ![200000, 1]⟩
abbrev S10 : Shape := ⟨1, ![10]⟩
abbrev S10x1 : Shape := ⟨2, ![10, 1]⟩
abbrev S100000x1 : Shape := ⟨2, ![100000, 1]⟩

abbrev nBuf : Space → Nat
  | .hbm => 51
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S100000x256, .f32⟩
  | .hbm, ⟨3, _⟩ => ⟨S100000, .f32⟩
  | .hbm, ⟨4, _⟩ => ⟨S_, .f32⟩
  | .hbm, ⟨5, _⟩ => ⟨S10x256, .f32⟩
  | .hbm, ⟨6, _⟩ => ⟨S200000x1, .i32⟩
  | .hbm, ⟨7, _⟩ => ⟨S10x256, .f32⟩
  | .hbm, ⟨8, _⟩ => ⟨S_, .f32⟩
  | .hbm, ⟨9, _⟩ => ⟨S200000, .f32⟩
  | .hbm, ⟨10, _⟩ => ⟨S_, .f32⟩
  | .hbm, ⟨11, _⟩ => ⟨S10, .f32⟩
  | .hbm, ⟨12, _⟩ => ⟨S200000x1, .i32⟩
  | .hbm, ⟨13, _⟩ => ⟨S10, .f32⟩
  | .hbm, ⟨14, _⟩ => ⟨S10x1, .f32⟩
  | .hbm, ⟨15, _⟩ => ⟨S10x256, .f32⟩
  | .hbm, ⟨16, _⟩ => ⟨S10x256, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000x256, .f32⟩
  | .hbm, ⟨39, _⟩ => ⟨S100000x256, .f32⟩
  | .hbm, ⟨40, _⟩ => ⟨S_, .f32⟩
  | .hbm, ⟨41, _⟩ => ⟨S100000x256, .f32⟩
  | .hbm, ⟨42, _⟩ => ⟨S100000x256, .f32⟩
  | .hbm, ⟨43, _⟩ => ⟨S100000x256, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩

abbrev nD : Nat := 1
abbrev τ : Topo := Topo.v7x

variable {F : FTy → Type} [FloatOps F]

class Facts₀ : Prop where
  bcast_S_S10x256 : S_.BroadcastsInDim S10x256 (![] : Fin 0 → Fin S10x256.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S10 : S_.BroadcastsInDim S10 (![] : Fin 0 → Fin S10.rank)
  bcast_S10_S10x1_0 : S10.BroadcastsInDim S10x1 (![0] : Fin 1 → Fin S10x1.rank)
  bcast_S10x1_S10x256_0_1 : S10x1.BroadcastsInDim S10x256 (![0, 1] : Fin 2 → Fin S10x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x256 : S_.BroadcastsInDim S100000x256 (![] : Fin 0 → Fin S100000x256.rank)
  reducesTo_S100000x256_S100000_d1 : S100000x256.ReducesTo [1] S100000
  h_S_ : 0 < S_.numel
  reducesTo_S100000_S_d0 : S100000.ReducesTo [0] S_
  scatter_S10x256_S200000x1_S200000x256_1_0_0_1_wf : ScatterDims.WF S10x256 S200000x1 S200000x256 [1] [0] [0] 1
  scatter_S10_S200000x1_S200000_n_0_0_1_wf : ScatterDims.WF S10 S200000x1 S200000 [] [0] [0] 1
  gather_S10x256_S100000x1_S100000x256_1_0_n_n_0_1_1256_wf : GatherDims.WF S10x256 S100000x1 S100000x256 [1] [0] [] [0] [] 1 ![1, 256]

variable [Facts₀]

def scatter_S10x256_S200000x1_S200000x256_1_0_0_1 : ScatterDims S10x256 S200000x1 S200000x256 where
  updateWindowDims := [1]
  insertedWindowDims := [0]
  scatterDimsToOperandDims := [0]
  indexVectorDim := 1
  wf := scatter_S10x256_S200000x1_S200000x256_1_0_0_1_wf
def scatter_S10_S200000x1_S200000_n_0_0_1 : ScatterDims S10 S200000x1 S200000 where
  updateWindowDims := []
  insertedWindowDims := [0]
  scatterDimsToOperandDims := [0]
  indexVectorDim := 1
  wf := scatter_S10_S200000x1_S200000_n_0_0_1_wf
def gather_S10x256_S100000x1_S100000x256_1_0_n_n_0_1_1256 : GatherDims S10x256 S100000x1 S100000x256 where
  offsetDims := [1]
  collapsedSliceDims := [0]
  operandBatchingDims := []
  startIndicesBatchingDims := []
  startIndexMap := [0]
  indexVectorDim := 1
  sliceSizes := ![1, 256]
  wf := gather_S10x256_S100000x1_S100000x256_1_0_n_n_0_1_1256_wf

class Facts : Prop extends Facts₀ where

variable [Facts]
-- ==== Proof.K.Conds.lean ====
/-
  What both kernels' runs are stated over: the two branch conditions of each body (the first tile of a half of the
  sweep resets the running sums; the last tile of a half stores them to the output block), decided over the ten
  grid points in closed form, and the scratch buffers as memrefs.
-/
import proofs.«409938_j78271484002324_3_alg».proof.Proof.Gen.Kernel.Launch
import proofs.«409938_j78271484002324_3_alg».proof.Proof.Gen.Kernel.Skeleton
import proofs.«409938_j78271484002324_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's conditions -/

/-- The first kernel's reset condition: the second grid coordinate is 0. -/
abbrev cond0_0 (i : grid0.Coords) : Prop := (Scalar.cmpi .ne (Scalar.extui (Scalar.cmpi .eq (BitVec.ofNat 32 (i 1).val) 0#32)) 0#32) = 1#1
/-- It holds at the points 0 and 5. -/
theorem hcond0_0 : ∀ t : Fin cfg0.N, cond0_0 (grid0.coords t) ↔ t.val % 5 = 0 :=
  (by decide +kernel : ∀ t : Fin grid0.N, cond0_0 (grid0.coords t) ↔ t.val % 5 = 0)
/-- The first kernel's store condition: the second grid coordinate is 4. -/
abbrev cond0_1 (i : grid0.Coords) : Prop := k0_cond2 i = 1#1
/-- It holds at the points 4 and 9. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## The second kernel's conditions -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## The scratch buffers -/

/-- The first kernel's running sums [10, 256] and running counts [10, 1]. -/
abbrev scM0_0 : Memref sig .tc .vmem S10x256 .f32 := Memref.whole cc0_scratch0
abbrev scM0_1 : Memref sig .tc .vmem S10x1 .f32 := Memref.whole cc0_scratch1
/-- The second kernel's centres [10, 256] and running sum of norms [1, 1]. -/
abbrev scM1_0 : Memref sig .tc .vmem S10x256 .f32 := Memref.whole cc1_scratch0
abbrev scM1_1 : Memref sig .tc .vmem S1x1 .f32 := Memref.whole cc1_scratch1

/-- A whole-buffer rectangle starts at the origin. -/
theorem hz2 : (![0, 0] : Fin 2 → Nat) = fun _ => 0 := by funext a; fin_cases a <;> rfl
theorem hz3 : (![0, 0, 0] : Fin 3 → Nat) = fun _ => 0 := by funext a; fin_cases a <;> rfl

/-- A list of stores whose last one fills the whole buffer covers every index. -/
theorem cover_last {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self, View.mem_set_unit_zero h inb y⟩

end Cert.Kernel.Hand

end
-- ==== Proof.K.Run0.lean ====
/-
  The first kernel's body on whole staging buffers, in its three cases. A tile's body adds the tile's one-hot product
  to the running sums [10, 256] and the tile's one-hot lane sums to the running counts [10, 1]; at the first tile of a
  half both are first reset to zero; at the last tile of a half both are then copied to the output blocks. Each case is
  stated with what every buffer holds afterwards as the body's payload terms of what it held before.
-/
import proofs.«409938_j78271484002324_3_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first tile of a half: the sums and counts restart from zero. -/
theorem kernelRun0_A (c : Dev nD) (i : grid0.Coords) (arg2 : Memref sig .tc .vmem S20000x256 .f32) (harg2 : arg2.IsWhole) (arg3 : Memref sig .tc .vmem S1x1x20000 .i32) (harg3 : arg3.IsWhole) (arg4 : Memref sig .tc .vmem S1x10x256 .f32) (harg4 : arg4.IsWhole) (arg5 : Memref sig .tc .vmem S1x10x1 .f32) (harg5 : arg5.IsWhole) (arg6 : Memref sig .tc .vmem S10x256 .f32) (harg6 : arg6.IsWhole) (arg7 : Memref sig .tc .vmem S10x1 .f32) (harg7 : arg7.IsWhole) (hc0 : cond0_0 i) (hc1 : ¬cond0_1 i)
    (x0 : Vec F S20000x256 .f32) (x1 : Vec F S1x1x20000 .i32) (xi2 : Vec F S1x10x256 .f32) (xi3 : Vec F S1x10x1 .f32)
    (xs0 : Vec F S10x256 .f32) (xs1 : Vec F S10x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare xi2
            ∗ owns (c : Thread nD τ) arg5 fullShare xi3 ∗ owns (c : Thread nD τ) arg6 fullShare (k0_pay4 x1 x0 k0_pay1)
            ∗ owns (c : Thread nD τ) arg7 fullShare (k0_pay5 x1 k0_pay2)) -∗ K ⟨⟩))
      ⊢ wp frame (wpE (defs₀ (F := F)) Variants.none c none) E (cc0__cluster_kernel i arg2 harg2 arg3 harg3 arg4 harg4 arg5 harg5 arg6 harg6 arg7 harg7) K := by
  simp only [cc0__cluster_kernel_eq_skeleton]; unfold cc0__cluster_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    sl_unfold_words
    rw [View.read_writes_eq_canon, View.canon_cons_unit_zero hz2]
    · simp only [View.readAt_eq_ld, harg2.read_unread, harg3.read_unread,
        View.ld_unit_zero (S := S20000x256) hz2, View.ld_unit_zero (S := S1x1x20000) hz3,
        View.readCov_unit_zero (S := S10x256) _ hz2]
    · exact cover_last hz2 _ _ _
  · iexists _; isplitr
    swap; · iexact HS1
    ipureintro
    sl_unfold_words
    rw [View.read_writes_eq_canon, View.canon_cons_unit_zero hz2]
    · simp only [View.readAt_eq_ld, harg3.read_unread,
        View.ld_unit_zero (S := S1x1x20000) hz3, View.readCov_unit_zero (S := S10x1) _ hz2]
    · exact cover_last hz2 _ _ _

set_option maxHeartbeats 1000000 in
/-- A tile that is neither first nor last in its half. -/
theorem kernelRun0_B (c : Dev nD) (i : grid0.Coords) (arg2 : Memref sig .tc .vmem S20000x256 .f32) (harg2 : arg2.IsWhole) (arg3 : Memref sig .tc .vmem S1x1x20000 .i32) (harg3 : arg3.IsWhole) (arg4 : Memref sig .tc .vmem S1x10x256 .f32) (harg4 : arg4.IsWhole) (arg5 : Memref sig .tc .vmem S1x10x1 .f32) (harg5 : arg5.IsWhole) (arg6 : Memref sig .tc .vmem S10x256 .f32) (harg6 : arg6.IsWhole) (arg7 : Memref sig .tc .vmem S10x1 .f32) (harg7 : arg7.IsWhole) (hc0 : ¬cond0_0 i) (hc1 : ¬cond0_1 i)
    (x0 : Vec F S20000x256 .f32) (x1 : Vec F S1x1x20000 .i32) (xi2 : Vec F S1x10x256 .f32) (xi3 : Vec F S1x10x1 .f32)
    (xs0 : Vec F S10x256 .f32) (xs1 : Vec F S10x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare xi2
            ∗ owns (c : Thread nD τ) arg5 fullShare xi3 ∗ owns (c : Thread nD τ) arg6 fullShare (k0_pay4 x1 x0 xs0)
            ∗ owns (c : Thread nD τ) arg7 fullShare (k0_pay5 x1 xs1)) -∗ K ⟨⟩))
      ⊢ wp frame (wpE (defs₀ (F := F)) Variants.none c none) E (cc0__cluster_kernel i arg2 harg2 arg3 harg3 arg4 harg4 arg5 harg5 arg6 harg6 arg7 harg7) K := by
  simp only [cc0__cluster_kernel_eq_skeleton]; unfold cc0__cluster_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    rw [View.read_writes_eq_canon, View.canon_unit_zero hz2]
    · simp only [View.readAt_eq_ld, harg2.read_unread, harg3.read_unread, harg6.read_unread,
        View.ld_unit_zero (S := S20000x256) hz2, View.ld_unit_zero (S := S1x1x20000) hz3, View.ld_unit_zero (S := S10x256) hz2]
    · exact cover_last hz2 _ _ _
  · iexists _; isplitr
    swap; · iexact HS1
    ipureintro
    rw [View.read_writes_eq_canon, View.canon_unit_zero hz2]
    · simp only [View.readAt_eq_ld, harg3.read_unread, harg7.read_unread,
        View.ld_unit_zero (S := S1x1x20000) hz3, View.ld_unit_zero (S := S10x1) hz2]
    · exact cover_last hz2 _ _ _

set_option maxHeartbeats 1000000 in
/-- The last tile of a half: the updated sums and counts are copied to the output blocks. -/
theorem kernelRun0_C (c : Dev nD) (i : grid0.Coords) (arg2 : Memref sig .tc .vmem S20000x256 .f32) (harg2 : arg2.IsWhole) (arg3 : Memref sig .tc .vmem S1x1x20000 .i32) (harg3 : arg3.IsWhole) (arg4 : Memref sig .tc .vmem S1x10x256 .f32) (harg4 : arg4.IsWhole) (arg5 : Memref sig .tc .vmem S1x10x1 .f32) (harg5 : arg5.IsWhole) (arg6 : Memref sig .tc .vmem S10x256 .f32) (harg6 : arg6.IsWhole) (arg7 : Memref sig .tc .vmem S10x1 .f32) (harg7 : arg7.IsWhole) (hc0 : ¬cond0_0 i) (hc1 : cond0_1 i)
    (x0 : Vec F S20000x256 .f32) (x1 : Vec F S1x1x20000 .i32) (xi2 : Vec F S1x10x256 .f32) (xi3 : Vec F S1x10x1 .f32)
    (xs0 : Vec F S10x256 .f32) (xs1 : Vec F S10x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare (k0_pay6 (k0_pay4 x1 x0 xs0))
            ∗ owns (c : Thread nD τ) arg5 fullShare (k0_pay7 (k0_pay5 x1 xs1)) ∗ owns (c : Thread nD τ) arg6 fullShare (k0_pay4 x1 x0 xs0)
            ∗ owns (c : Thread nD τ) arg7 fullShare (k0_pay5 x1 xs1)) -∗ K ⟨⟩))
      ⊢ wp frame (wpE (defs₀ (F := F)) Variants.none c none) E (cc0__cluster_kernel i arg2 harg2 arg3 harg3 arg4 harg4 arg5 harg5 arg6 harg6 arg7 harg7) K := by
  simp only [cc0__cluster_kernel_eq_skeleton]; unfold cc0__cluster_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon, View.canon_unit_zero hz3]
    · simp only [View.readAt_eq_ld, harg2.read_unread, harg3.read_unread, harg6.read_unread,
        View.ld_unit_zero (S := S20000x256) hz2, View.ld_unit_zero (S := S1x1x20000) hz3, View.ld_unit_zero (S := S10x256) hz2,
        View.readCov_unit_zero (S := S10x256) _ hz2]
    · exact cover_last hz3 _ _ _
  isplitl [H3]
  · iexists _; isplitr
    swap; · iexact H3
    ipureintro
    sl_unfold_words
    rw [View.read_writes_eq_canon, View.canon_unit_zero hz3]
    · simp only [View.readAt_eq_ld, harg3.read_unread, harg7.read_unread,
        View.ld_unit_zero (S := S1x1x20000) hz3, View.ld_unit_zero (S := S10x1) hz2,
        View.readCov_unit_zero (S := S10x1) _ hz2]
    · exact cover_last hz3 _ _ _
  isplitl [HS0]
  · iexists _; isplitr
    swap; · iexact HS0
    ipureintro
    sl_unfold_words
    rw [View.read_writes_eq_canon, View.canon_unit_zero hz2]
    · simp only [View.readAt_eq_ld, harg2.read_unread, harg3.read_unread, harg6.read_unread,
        View.ld_unit_zero (S := S20000x256) hz2, View.ld_unit_zero (S := S1x1x20000) hz3, View.ld_unit_zero (S := S10x256) hz2]
    · exact cover_last hz2 _ _ _
  · iexists _; isplitr
    swap; · iexact HS1
    ipureintro
    sl_unfold_words
    rw [View.read_writes_eq_canon, View.canon_unit_zero hz2]
    · simp only [View.readAt_eq_ld, harg3.read_unread, harg7.read_unread,
        View.ld_unit_zero (S := S1x1x20000) hz3, View.ld_unit_zero (S := S10x1) hz2]
    · exact cover_last hz2 _ _ _

end Cert.Kernel.Hand

end
-- ==== Proof.K.Region0.lean ====
/-
  The first pallas_call as a region of the program, at a parameter V: the buffer contents when the region is entered.
  Its grid has ten points, two halves of five tiles. Each point's body finds the tile's 20000 source rows and their
  sector words in the input windows; the running sums [10, 256] and counts [10, 1] live in two scratch buffers that the
  region invariant carries from point to point, named by recursion on the point (scr0); the two output windows are
  stored only at the last tile of a half and are left alone elsewhere.
-/
import proofs.«409938_j78271484002324_3_alg».proof.Proof.K.Run0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The staging memrefs at a point -/

abbrev ms0_0 (t : Fin cfg0.N) : Memref sig .tc .vmem S20000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x20000 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x10x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x10x1 .f32 := win0_3.stage (cfg0.slots t 3)
abbrev hs0_3 (t : Fin cfg0.N) : (ms0_3 t).IsWhole := hstage0_3 ((cfg0.slots t 3).cast nbuf0_3)

/-! ## The scoped buffers the region does not stage -/

/-- The scoped buffers other than this kernel's two scratch buffers, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant with the two scratch buffers as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-! ## The running sums and counts, point by point -/

/-- What the two scratch buffers hold after the body at point n: the tile's contribution added to zero at the first
    tile of a half, to what the point before left otherwise. -/
def scr0 (c : Dev nD) : (n : ℕ) → n < cfg0.N → Vec F S10x256 .f32 × Vec F S10x1 .f32
  | 0, hn => (k0_pay4 (iblk0 V c 1 ⟨0, hn⟩) (iblk0 V c 0 ⟨0, hn⟩) k0_pay1, k0_pay5 (iblk0 V c 1 ⟨0, hn⟩) k0_pay2)
  | n + 1, hn =>
    if (n + 1) % 5 = 0 then
      (k0_pay4 (iblk0 V c 1 ⟨n + 1, hn⟩) (iblk0 V c 0 ⟨n + 1, hn⟩) k0_pay1, k0_pay5 (iblk0 V c 1 ⟨n + 1, hn⟩) k0_pay2)
    else
      (k0_pay4 (iblk0 V c 1 ⟨n + 1, hn⟩) (iblk0 V c 0 ⟨n + 1, hn⟩) (scr0 c n (Nat.lt_of_succ_lt hn)).1,
        k0_pay5 (iblk0 V c 1 ⟨n + 1, hn⟩) (scr0 c n (Nat.lt_of_succ_lt hn)).2)

theorem scr0_first (c : Dev nD) (t : Fin cfg0.N) (h : t.val % 5 = 0) :
    scr0 V c t.val t.isLt = (k0_pay4 (iblk0 V c 1 t) (iblk0 V c 0 t) k0_pay1, k0_pay5 (iblk0 V c 1 t) k0_pay2) := by
  obtain ⟨n, hn⟩ := t
  cases n with
  | zero => rfl
  | succ n => exact if_pos h

theorem scr0_next (c : Dev nD) (t : Fin cfg0.N) (h : ¬t.val % 5 = 0) :
    scr0 V c t.val t.isLt = (k0_pay4 (iblk0 V c 1 t) (iblk0 V c 0 t) (scr0 V c (t.val - 1) (Nat.lt_of_le_of_lt (Nat.sub_le _ _) t.isLt)).1,
      k0_pay5 (iblk0 V c 1 t) (scr0 V c (t.val - 1) (Nat.lt_of_le_of_lt (Nat.sub_le _ _) t.isLt)).2) := by
  obtain ⟨n, hn⟩ := t
  cases n with
  | zero => exact absurd (Nat.zero_mod _) h
  | succ n => exact if_neg h

/-- The region invariant before position n: the class's before the first point; afterwards the two scratch buffers at
    what the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0_0 fullShare (scr0 V c n hn).1 ∗ owns (c : Thread nD τ) scM0_1 fullShare (scr0 V c n hn).2 ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0_0 fullShare (scr0 V c n hn).1 ∗ owns (c : Thread nD τ) scM0_1 fullShare (scr0 V c n hn).2 ∗ rest0 c) ∗ (∃ r, prngReg c r)) := rfl
theorem PhiS0_pos (c : Dev nD) (n : ℕ) (h : n ≤ cfg0.N) (hz : n ≠ 0) :
    PhiS0 V c n h = iprop((owns (c : Thread nD τ) scM0_0 fullShare (scr0 V c (n - 1) (by omega)).1 ∗ owns (c : Thread nD τ) scM0_1 fullShare (scr0 V c (n - 1) (by omega)).2 ∗ rest0 c) ∗ (∃ r, prngReg c r)) := by
  cases n with
  | zero => exact absurd rfl hz
  | succ n => rfl

/-! ## The proof data -/

/-- The pipeline's proof data on core c: the arrays as the region finds them; after the body each input's buffer at its
    block, each output's at the copy of the running sums or counts; the invariant carrying the scratch buffers. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (scr0 V c t.val t.isLt).1
    | ⟨3, _⟩ => k0_pay7 (scr0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (scr0 V c t.val t.isLt).1 := by dsimp only [dat0]
theorem after0_3 (c : Dev nD) (t : Fin cfg0.N) : (dat0 V c).after 3 t = k0_pay7 (scr0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's place in its half of the sweep says which
    case the body is in; the invariant hands the body the scratch buffers at what the point before left (at anything
    at the first point) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 5 = 4
  · -- the last tile of a half
    have h0 : ¬t.val % 5 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [show (dat0 V c).leavesExact 3 t = owns (c : Thread nD τ) (ms0_3 t) fullShare ((dat0 V c).after 3 t) from by
      unfold Dat.leavesExact; rw [liveAt0_3 t ((hcond0_1 t).mpr h1)], after0_3]
    rw [scr0_next V c t h0]
    rw [PhiS0_castSucc V c t, PhiS0_pos V c _ _ hz]
    iintro ⟨⟨⟨HS0, HS1, Hrest⟩, Hg⟩, Ho, ⟨%d0, H0⟩, ⟨%d1, H1⟩, ⟨%d2, H2⟩, ⟨%d3, H3⟩⟩
    iapply (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _)
      (fun h => h0 ((hcond0_0 t).mp h)) ((hcond0_1 t).mpr h1) (iblk0 V c 0 t) (iblk0 V c 1 t) _ _ _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitr [Hg]
      · isplitl [HS0]; · iexact HS0
        isplitl [HS1]; · iexact HS1
        iexact Hrest
      iexact Hg
    isplitl [Ho]; · iexact Ho
    isplitl [H0]; · iexact H0
    isplitl [H1]; · iexact H1
    isplitl [H2]; · iexact H2
    iexact H3
  · rw [Dat.leavesExact_idle (dat0 V c) 2 t (idleAt0_2 t (fun h => h1 ((hcond0_1 t).mp h))) (noFlush0_2 t (fun h => h1 ((hcond0_1 t).mp h)))]
    rw [Dat.leavesExact_idle (dat0 V c) 3 t (idleAt0_3 t (fun h => h1 ((hcond0_1 t).mp h))) (noFlush0_3 t (fun h => h1 ((hcond0_1 t).mp h)))]
    by_cases h0 : t.val % 5 = 0
    · -- the first tile of a half
      rw [scr0_first V c t h0]
      by_cases hz : t.val = 0
      · rw [PhiS0_castSucc V c t, PhiS0_zero V c _ _ hz, PhiA0_eq]
        iintro ⟨⟨⟨⟨%s0, HS0⟩, ⟨%s1, HS1⟩, Hrest⟩, Hg⟩, Ho, ⟨%d0, H0⟩, ⟨%d1, H1⟩, ⟨%d2, H2⟩, ⟨%d3, H3⟩⟩
        iapply (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _)
          ((hcond0_0 t).mpr h0) (fun h => h1 ((hcond0_1 t).mp h)) (iblk0 V c 0 t) (iblk0 V c 1 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hrest Hg]
        · isplitr [Hg]
          · isplitl [HS0]; · iexact HS0
            isplitl [HS1]; · iexact HS1
            iexact Hrest
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩⟩
        iapply (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _)
          ((hcond0_0 t).mpr h0) (fun h => h1 ((hcond0_1 t).mp h)) (iblk0 V c 0 t) (iblk0 V c 1 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hrest Hg]
        · isplitr [Hg]
          · isplitl [HS0]; · iexact HS0
            isplitl [HS1]; · iexact HS1
            iexact Hrest
          iexact Hg
        isplitl [Ho]; · iexact Ho
        isplitl [H0]; · iexact H0
        isplitl [H1]; · iexact H1
        isplitl [H2]; · iexists _; iexact H2
        iexists _; iexact H3
    · -- a tile inside a half
      have hz : t.val ≠ 0 := by omega
      rw [scr0_next V c t h0]
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩⟩
      iapply (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _)
        (fun h => h0 ((hcond0_0 t).mp h)) (fun h => h1 ((hcond0_1 t).mp h)) (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch buffers' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 10 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS0, HS1, Hrest⟩, Hg⟩
  isplitr [Hg]
  · isplitl [HS0]; · iexists _; iexact HS0
    isplitl [HS1]; · iexists _; iexact HS1
    iexact Hrest
  iexact Hg

end Region

end Cert.Kernel.Hand

end
-- ==== Proof.K.Run1.lean ====
/-
  The second kernel's body on whole staging buffers, in its three cases. At the first tile of a half the centres
  [10, 256] are computed from the two halves' sums and counts and kept, and the running sum of norms [1, 1] restarts
  from zero; every tile adds its rows' norms to the running sum; at the last tile of a half the running sum is copied
  to the output block. Each case is stated with what every buffer holds afterwards as the body's payload terms of what
  it held before.
-/
import proofs.«409938_j78271484002324_3_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first tile of a half: the centres are computed, the running sum restarts. -/
theorem kernelRun1_A (c : Dev nD) (i : grid1.Coords) (arg2 : Memref sig .tc .vmem S2x10x256 .f32) (harg2 : arg2.IsWhole) (arg3 : Memref sig .tc .vmem S2x10x1 .f32) (harg3 : arg3.IsWhole) (arg4 : Memref sig .tc .vmem S10000x256 .f32) (harg4 : arg4.IsWhole) (arg5 : Memref sig .tc .vmem S10000x1 .f32) (harg5 : arg5.IsWhole) (arg6 : Memref sig .tc .vmem S1x1x1 .f32) (harg6 : arg6.IsWhole) (arg7 : Memref sig .tc .vmem S10x256 .f32) (harg7 : arg7.IsWhole) (arg8 : Memref sig .tc .vmem S1x1 .f32) (harg8 : arg8.IsWhole) (hc0 : cond1_0 i) (hc1 : ¬cond1_1 i)
    (x2 : Vec F S2x10x256 .f32) (x3 : Vec F S2x10x1 .f32) (x4 : Vec F S10000x256 .f32) (x5 : Vec F S10000x1 .f32) (xi6 : Vec F S1x1x1 .f32)
    (xs0 : Vec F S10x256 .f32) (xs1 : Vec F S1x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs0 ∗ owns (c : Thread nD τ) arg8 fullShare xs1
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare (k1_pay3 x2 x3) ∗ owns (c : Thread nD τ) arg8 fullShare (k1_pay4 x5 (k1_pay3 x2 x3) x4 k1_pay2)) -∗ K ⟨⟩))
      ⊢ wp frame (wpE (defs₀ (F := F)) Variants.none c none) E (cc1__dist_kernel i arg2 harg2 arg3 harg3 arg4 harg4 arg5 harg5 arg6 harg6 arg7 harg7 arg8 harg8) K := by
  simp only [cc1__dist_kernel_eq_skeleton]; unfold cc1__dist_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hfs0
  obtain rfl := harg8.eq_unread hfs1
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [HS0]
  · iexists _; isplitr
    swap; · iexact HS0
    ipureintro
    sl_unfold_words
    rw [View.read_writes_eq_canon, View.canon_unit_zero hz2]
    · simp only [View.readAt_eq_ld, harg2.read_unread, harg3.read_unread,
        View.ld_unit_zero (S := S2x10x256) hz3, View.ld_unit_zero (S := S2x10x1) hz3]
    · exact cover_last hz2 _ _ _
  · iexists _; isplitr
    swap; · iexact HS1
    ipureintro
    sl_unfold_words
    rw [View.read_writes_eq_canon, View.canon_cons_unit_zero hz2]
    · simp only [View.readAt_eq_ld, harg2.read_unread, harg3.read_unread, harg4.read_unread, harg5.read_unread,
        View.ld_unit_zero (S := S2x10x256) hz3, View.ld_unit_zero (S := S2x10x1) hz3,
        View.ld_unit_zero (S := S10000x256) hz2, View.ld_unit_zero (S := S10000x1) hz2,
        View.readCov_unit_zero (S := S10x256) _ hz2, View.readCov_unit_zero (S := S1x1) _ hz2]
    · exact cover_last hz2 _ _ _

set_option maxHeartbeats 1000000 in
/-- A tile that is neither first nor last in its half. -/
theorem kernelRun1_B (c : Dev nD) (i : grid1.Coords) (arg2 : Memref sig .tc .vmem S2x10x256 .f32) (harg2 : arg2.IsWhole) (arg3 : Memref sig .tc .vmem S2x10x1 .f32) (harg3 : arg3.IsWhole) (arg4 : Memref sig .tc .vmem S10000x256 .f32) (harg4 : arg4.IsWhole) (arg5 : Memref sig .tc .vmem S10000x1 .f32) (harg5 : arg5.IsWhole) (arg6 : Memref sig .tc .vmem S1x1x1 .f32) (harg6 : arg6.IsWhole) (arg7 : Memref sig .tc .vmem S10x256 .f32) (harg7 : arg7.IsWhole) (arg8 : Memref sig .tc .vmem S1x1 .f32) (harg8 : arg8.IsWhole) (hc0 : ¬cond1_0 i) (hc1 : ¬cond1_1 i)
    (x2 : Vec F S2x10x256 .f32) (x3 : Vec F S2x10x1 .f32) (x4 : Vec F S10000x256 .f32) (x5 : Vec F S10000x1 .f32) (xi6 : Vec F S1x1x1 .f32)
    (xs0 : Vec F S10x256 .f32) (xs1 : Vec F S1x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs0 ∗ owns (c : Thread nD τ) arg8 fullShare xs1
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs0 ∗ owns (c : Thread nD τ) arg8 fullShare (k1_pay4 x5 xs0 x4 xs1)) -∗ K ⟨⟩))
      ⊢ wp frame (wpE (defs₀ (F := F)) Variants.none c none) E (cc1__dist_kernel i arg2 harg2 arg3 harg3 arg4 harg4 arg5 harg5 arg6 harg6 arg7 harg7 arg8 harg8) K := by
  simp only [cc1__dist_kernel_eq_skeleton]; unfold cc1__dist_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hfs0
  obtain rfl := harg8.eq_unread hfs1
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [HS0]
  · iexists _; isplitr; · ipureintro; exact harg7.read_unread _
    iexact HS0
  · iexists _; isplitr
    swap; · iexact HS1
    ipureintro
    sl_unfold_words
    rw [View.read_writes_eq_canon, View.canon_unit_zero hz2]
    · simp only [View.readAt_eq_ld, harg4.read_unread, harg5.read_unread, harg7.read_unread, harg8.read_unread,
        View.ld_unit_zero (S := S10000x256) hz2, View.ld_unit_zero (S := S10000x1) hz2, View.ld_unit_zero (S := S10x256) hz2,
        View.ld_unit_zero (S := S1x1) hz2]
    · exact cover_last hz2 _ _ _

set_option maxHeartbeats 1000000 in
/-- The last tile of a half: the updated running sum is copied to the output block. -/
theorem kernelRun1_C (c : Dev nD) (i : grid1.Coords) (arg2 : Memref sig .tc .vmem S2x10x256 .f32) (harg2 : arg2.IsWhole) (arg3 : Memref sig .tc .vmem S2x10x1 .f32) (harg3 : arg3.IsWhole) (arg4 : Memref sig .tc .vmem S10000x256 .f32) (harg4 : arg4.IsWhole) (arg5 : Memref sig .tc .vmem S10000x1 .f32) (harg5 : arg5.IsWhole) (arg6 : Memref sig .tc .vmem S1x1x1 .f32) (harg6 : arg6.IsWhole) (arg7 : Memref sig .tc .vmem S10x256 .f32) (harg7 : arg7.IsWhole) (arg8 : Memref sig .tc .vmem S1x1 .f32) (harg8 : arg8.IsWhole) (hc0 : ¬cond1_0 i) (hc1 : cond1_1 i)
    (x2 : Vec F S2x10x256 .f32) (x3 : Vec F S2x10x1 .f32) (x4 : Vec F S10000x256 .f32) (x5 : Vec F S10000x1 .f32) (xi6 : Vec F S1x1x1 .f32)
    (xs0 : Vec F S10x256 .f32) (xs1 : Vec F S1x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs0 ∗ owns (c : Thread nD τ) arg8 fullShare xs1
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k1_pay1 (k1_pay4 x5 xs0 x4 xs1)) ∗ owns (c : Thread nD τ) arg7 fullShare xs0 ∗ owns (c : Thread nD τ) arg8 fullShare (k1_pay4 x5 xs0 x4 xs1)) -∗ K ⟨⟩))
      ⊢ wp frame (wpE (defs₀ (F := F)) Variants.none c none) E (cc1__dist_kernel i arg2 harg2 arg3 harg3 arg4 harg4 arg5 harg5 arg6 harg6 arg7 harg7 arg8 harg8) K := by
  simp only [cc1__dist_kernel_eq_skeleton]; unfold cc1__dist_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hfs0
  obtain rfl := harg8.eq_unread hfs1
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon, View.canon_unit_zero hz3]
    · simp only [View.readAt_eq_ld, harg4.read_unread, harg5.read_unread, harg7.read_unread, harg8.read_unread,
        View.ld_unit_zero (S := S10000x256) hz2, View.ld_unit_zero (S := S10000x1) hz2, View.ld_unit_zero (S := S10x256) hz2,
        View.ld_unit_zero (S := S1x1) hz2, View.readCov_unit_zero (S := S1x1) _ hz2]
    · exact cover_last hz3 _ _ _
  isplitl [HS0]
  · iexists _; isplitr; · ipureintro; exact harg7.read_unread _
    iexact HS0
  · iexists _; isplitr
    swap; · iexact HS1
    ipureintro
    sl_unfold_words
    rw [View.read_writes_eq_canon, View.canon_unit_zero hz2]
    · simp only [View.readAt_eq_ld, harg4.read_unread, harg5.read_unread, harg7.read_unread, harg8.read_unread,
        View.ld_unit_zero (S := S10000x256) hz2, View.ld_unit_zero (S := S10000x1) hz2, View.ld_unit_zero (S := S10x256) hz2,
        View.ld_unit_zero (S := S1x1) hz2]
    · exact cover_last hz2 _ _ _

end Cert.Kernel.Hand

end
-- ==== Proof.K.Region1.lean ====
/-
  The second pallas_call as a region of the program, at a parameter V: the buffer contents when the region is entered.
  Its grid has ten points, two halves of five tiles. Each point's body finds the two halves' sector sums and counts
  whole in its first two windows and the tile's 10000 target rows and positions in the next two; the centres [10, 256]
  and the running sum of norms [1, 1] live in two scratch buffers that the region invariant carries from point to
  point, named by recursion on the point (scr1); the output window is stored only at the last tile of a half.
-/
import proofs.«409938_j78271484002324_3_alg».proof.Proof.K.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The staging memrefs at a point -/

abbrev ms1_0 (t : Fin cfg1.N) : Memref sig .tc .vmem S2x10x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x10x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S10000x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)

/-! ## The scoped buffers -/

/-- The class invariant with the two scratch buffers as memrefs owned at some contents (the other scoped buffers at
    some contents each, before them). -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The centres and the running sum of norms, point by point -/

/-- What the two scratch buffers hold after the body at point n: at the first tile of a half the centres are computed
    from the halves' sums and counts and the running sum restarts from zero; otherwise the centres stay and the tile's
    norms are added to what the point before left. -/
def scr1 (c : Dev nD) : (n : ℕ) → n < cfg1.N → Vec F S10x256 .f32 × Vec F S1x1 .f32
  | 0, hn => (k1_pay3 (iblk1 V c 0 ⟨0, hn⟩) (iblk1 V c 1 ⟨0, hn⟩), k1_pay4 (iblk1 V c 3 ⟨0, hn⟩) (k1_pay3 (iblk1 V c 0 ⟨0, hn⟩) (iblk1 V c 1 ⟨0, hn⟩)) (iblk1 V c 2 ⟨0, hn⟩) k1_pay2)
  | n + 1, hn =>
    if (n + 1) % 5 = 0 then
      (k1_pay3 (iblk1 V c 0 ⟨n + 1, hn⟩) (iblk1 V c 1 ⟨n + 1, hn⟩), k1_pay4 (iblk1 V c 3 ⟨n + 1, hn⟩) (k1_pay3 (iblk1 V c 0 ⟨n + 1, hn⟩) (iblk1 V c 1 ⟨n + 1, hn⟩)) (iblk1 V c 2 ⟨n + 1, hn⟩) k1_pay2)
    else
      ((scr1 c n (Nat.lt_of_succ_lt hn)).1, k1_pay4 (iblk1 V c 3 ⟨n + 1, hn⟩) (scr1 c n (Nat.lt_of_succ_lt hn)).1 (iblk1 V c 2 ⟨n + 1, hn⟩) (scr1 c n (Nat.lt_of_succ_lt hn)).2)

theorem scr1_first (c : Dev nD) (t : Fin cfg1.N) (h : t.val % 5 = 0) :
    scr1 V c t.val t.isLt = (k1_pay3 (iblk1 V c 0 t) (iblk1 V c 1 t), k1_pay4 (iblk1 V c 3 t) (k1_pay3 (iblk1 V c 0 t) (iblk1 V c 1 t)) (iblk1 V c 2 t) k1_pay2) := by
  obtain ⟨n, hn⟩ := t
  cases n with
  | zero => rfl
  | succ n => exact if_pos h

theorem scr1_next (c : Dev nD) (t : Fin cfg1.N) (h : ¬t.val % 5 = 0) :
    scr1 V c t.val t.isLt = ((scr1 V c (t.val - 1) (Nat.lt_of_le_of_lt (Nat.sub_le _ _) t.isLt)).1, k1_pay4 (iblk1 V c 3 t) (scr1 V c (t.val - 1) (Nat.lt_of_le_of_lt (Nat.sub_le _ _) t.isLt)).1 (iblk1 V c 2 t) (scr1 V c (t.val - 1) (Nat.lt_of_le_of_lt (Nat.sub_le _ _) t.isLt)).2) := by
  obtain ⟨n, hn⟩ := t
  cases n with
  | zero => exact absurd (Nat.zero_mod _) h
  | succ n => exact if_neg h

/-- The region invariant before position n: the class's before the first point; afterwards the two scratch buffers at
    what the point before left, the other scoped buffers at anything, the generator register at some state. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (scr1 V c n hn).1 ∗ owns (c : Thread nD τ) scM1_1 fullShare (scr1 V c n hn).2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (scr1 V c n hn).1 ∗ owns (c : Thread nD τ) scM1_1 fullShare (scr1 V c n hn).2) ∗ (∃ r, prngReg c r)) := rfl
theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (scr1 V c (n - 1) (by omega)).1 ∗ owns (c : Thread nD τ) scM1_1 fullShare (scr1 V c (n - 1) (by omega)).2) ∗ (∃ r, prngReg c r)) := by
  cases n with
  | zero => exact absurd rfl hz
  | succ n => rfl

/-! ## The proof data -/

/-- The pipeline's proof data on core c: the arrays as the region finds them; after the body each input's buffer at its
    block, the output's at the copy of the running sum; the invariant carrying the scratch buffers. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (scr1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (scr1 V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's place in its half of the sweep says which
    case the body is in; the invariant hands the body the scratch buffers at what the point before left (at anything
    at the first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 5 = 4
  · -- the last tile of a half
    have h0 : ¬t.val % 5 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [scr1_next V c t h0]
    rw [PhiS1_castSucc V c t, PhiS1_pos V c _ _ hz]
    iintro ⟨⟨⟨Ha0, Ha1, Ha2, Ha3, Ha4, Ha5, Ha6, Ha7, Ha8, Ha9, HS0, HS1⟩, Hg⟩, Ho, ⟨%d0, H0⟩, ⟨%d1, H1⟩, ⟨%d2, H2⟩, ⟨%d3, H3⟩, ⟨%d4, H4⟩⟩
    iapply (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _)
      (fun h => h0 ((hcond1_0 t).mp h)) ((hcond1_1 t).mpr h1) (iblk1 V c 0 t) (iblk1 V c 1 t) (iblk1 V c 2 t) (iblk1 V c 3 t) _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [Ha0 Ha1 Ha2 Ha3 Ha4 Ha5 Ha6 Ha7 Ha8 Ha9 HS0 HS1 Hg]
    · isplitr [Hg]
      · isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        isplitl [Ha8]; · iexact Ha8
        isplitl [Ha9]; · iexact Ha9
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 5 = 0
    · -- the first tile of a half
      rw [scr1_first V c t h0]
      by_cases hz : t.val = 0
      · rw [PhiS1_castSucc V c t, PhiS1_zero V c _ _ hz, PhiA1_eq]
        iintro ⟨⟨⟨Ha0, Ha1, Ha2, Ha3, Ha4, Ha5, Ha6, Ha7, Ha8, Ha9, ⟨%s0, HS0⟩, ⟨%s1, HS1⟩⟩, Hg⟩, Ho, ⟨%d0, H0⟩, ⟨%d1, H1⟩, ⟨%d2, H2⟩, ⟨%d3, H3⟩, ⟨%d4, H4⟩⟩
        iapply (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _)
          ((hcond1_0 t).mpr h0) (fun h => h1 ((hcond1_1 t).mp h)) (iblk1 V c 0 t) (iblk1 V c 1 t) (iblk1 V c 2 t) (iblk1 V c 3 t) _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [Ha0 Ha1 Ha2 Ha3 Ha4 Ha5 Ha6 Ha7 Ha8 Ha9 HS0 HS1 Hg]
        · isplitr [Hg]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            isplitl [Ha8]; · iexact Ha8
            isplitl [Ha9]; · iexact Ha9
            isplitl [HS0]; · iexact HS0
            iexact HS1
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨Ha0, Ha1, Ha2, Ha3, Ha4, Ha5, Ha6, Ha7, Ha8, Ha9, HS0, HS1⟩, Hg⟩, Ho, ⟨%d0, H0⟩, ⟨%d1, H1⟩, ⟨%d2, H2⟩, ⟨%d3, H3⟩, ⟨%d4, H4⟩⟩
        iapply (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _)
          ((hcond1_0 t).mpr h0) (fun h => h1 ((hcond1_1 t).mp h)) (iblk1 V c 0 t) (iblk1 V c 1 t) (iblk1 V c 2 t) (iblk1 V c 3 t) _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [Ha0 Ha1 Ha2 Ha3 Ha4 Ha5 Ha6 Ha7 Ha8 Ha9 HS0 HS1 Hg]
        · isplitr [Hg]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            isplitl [Ha8]; · iexact Ha8
            isplitl [Ha9]; · iexact Ha9
            isplitl [HS0]; · iexact HS0
            iexact HS1
          iexact Hg
        isplitl [Ho]; · iexact Ho
        isplitl [H0]; · iexact H0
        isplitl [H1]; · iexact H1
        isplitl [H2]; · iexact H2
        isplitl [H3]; · iexact H3
        iexists _; iexact H4
    · -- a tile inside a half
      have hz : t.val ≠ 0 := by omega
      rw [scr1_next V c t h0]
      rw [PhiS1_castSucc V c t, PhiS1_pos V c _ _ hz]
      iintro ⟨⟨⟨Ha0, Ha1, Ha2, Ha3, Ha4, Ha5, Ha6, Ha7, Ha8, Ha9, HS0, HS1⟩, Hg⟩, Ho, ⟨%d0, H0⟩, ⟨%d1, H1⟩, ⟨%d2, H2⟩, ⟨%d3, H3⟩, ⟨%d4, H4⟩⟩
      iapply (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _)
        (fun h => h0 ((hcond1_0 t).mp h)) (fun h => h1 ((hcond1_1 t).mp h)) (iblk1 V c 0 t) (iblk1 V c 1 t) (iblk1 V c 2 t) (iblk1 V c 3 t) _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [Ha0 Ha1 Ha2 Ha3 Ha4 Ha5 Ha6 Ha7 Ha8 Ha9 HS0 HS1 Hg]
      · isplitr [Hg]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 10 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨Ha0, Ha1, Ha2, Ha3, Ha4, Ha5, Ha6, Ha7, Ha8, Ha9, HS0, HS1⟩, Hg⟩
  isplitr [Hg]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [HS0]; · iexists _; iexact HS0
    iexists _; iexact HS1
  iexact Hg

end Region

end Cert.Kernel.Hand

end
-- ==== Proof.K.Launch.lean ====
/-
  The whole program as five segments: the reshape of the sector words into ten rows of 20000; the first pallas_call;
  the reshape of the positions into a column; the second pallas_call; the sum of its two outputs divided by 100000.
  The buffer contents at each boundary are a fold from the launch memory (W0 … W5); each region leaves its output
  arrays at what its pipeline's write-backs leave and every other buffer as it found it. The run: every weakly fair
  execution terminates and every unscoped buffer ends at W5.
-/
import proofs.«409938_j78271484002324_3_alg».proof.Proof.K.Region0
import proofs.«409938_j78271484002324_3_alg».proof.Proof.K.Region1
import proofs.«409938_j78271484002324_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the reshape of the sector words (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the positions (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the closing sum and quotient: the end of the program. -/
abbrev W5 : Dev nD → Valuation τ sig (Elt F) := fun c => StableHlo.after hostOps2 (W4 m ρ c)

/-! ## The arguments end as launched -/

theorem W5_of (c : Dev nD) (r : Ref sig .tc) (h : r ∉ hostOps2_W) : W5 m ρ c r = W4 m ρ c r :=
  StableHlo.after_of_writes_sub hostOps2 _ hostOps2_writes h
theorem W3_of (c : Dev nD) (r : Ref sig .tc) (h : r ∉ hostOps1_W) : W3 m ρ c r = W2 m ρ c r :=
  StableHlo.after_of_writes_sub hostOps1 _ hostOps1_writes h
theorem W1_of (c : Dev nD) (r : Ref sig .tc) (h : r ∉ hostOps0_W) : W1 m ρ c r = W0 m ρ c r :=
  StableHlo.after_of_writes_sub hostOps0 _ hostOps0_writes h

/-- The source rows: read by the first region through an input window, touched by nothing else. -/
theorem W5_main_arg0 (c : Dev nD) : W5 m ρ c main_arg0 = m ((c : Thread nD τ).loc main_arg0) :=
  (W5_of m ρ c main_arg0 (by decide)).trans <| (W4_of_ne m ρ c main_arg0 (by decide)).trans <| (W3_of m ρ c main_arg0 (by decide)).trans <|
    ((W2_arr m ρ c 0).trans (((dat0 (V1 m ρ) c).arrAt_in 0 rfl _).trans (A_eq0 (V1 m ρ) c 0))).trans <| (W1_of m ρ c main_arg0 (by decide)).trans rfl
/-- The sector words: only their reshaped copy is a window's array. -/
theorem W5_main_arg1 (c : Dev nD) : W5 m ρ c main_arg1 = m ((c : Thread nD τ).loc main_arg1) :=
  (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
/-- The target rows: read by the second region through an input window. -/
theorem W5_main_arg2 (c : Dev nD) : W5 m ρ c main_arg2 = m ((c : Thread nD τ).loc main_arg2) :=
  (W5_of m ρ c main_arg2 (by decide)).trans <|
    ((W4_arr m ρ c 2).trans (((dat1 (V3 m ρ) c).arrAt_in 2 rfl _).trans (A_eq1 (V3 m ρ) c 2))).trans <| (W3_of m ρ c main_arg2 (by decide)).trans <|
    (W2_of_ne m ρ c main_arg2 (by decide)).trans <| (W1_of m ρ c main_arg2 (by decide)).trans rfl
/-- The positions: only their reshaped copy is a window's array. -/
theorem W5_main_arg3 (c : Dev nD) : W5 m ρ c main_arg3 = m ((c : Thread nD τ).loc main_arg3) :=
  (W5_of m ρ c main_arg3 (by decide)).trans <| (W4_of_ne m ρ c main_arg3 (by decide)).trans <| (W3_of m ρ c main_arg3 (by decide)).trans <|
    (W2_of_ne m ρ c main_arg3 (by decide)).trans <| (W1_of m ρ c main_arg3 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the end contents. -/
abbrev Tₙ (c : Dev nD) : sProp 𝕄 := StableHlo.held (c : Thread nD τ) (Pipeline.ucRefs τ sig) (W5 m ρ c)

/-! ## The regions as segments -/

-- unification with the pinned configuration may unfold plain definitions in a metavariable's type
set_option backward.isDefEq.respectTransparency.types false in
/-- Region 0 over the thread state: entered from every unscoped buffer at the contents before it, left at the
    contents after it. Its arrays are split out of the unscoped buffers and put back at the exit contents; the generator
    register goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine .trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 1 over the thread state: entered from every unscoped buffer at the contents before it, left at the
    contents after it. Its arrays are split out of the unscoped buffers and put back at the exit contents; the generator
    register goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine .trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every unscoped buffer ends at the fold's last contents W5. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show (iprop(StableHlo.held (c : Thread nD τ) (Pipeline.ucRefs τ sig) (W5 m ρ c) ∗ R c) : sProp 𝕄)
          ⊢ iprop(Tₙ m ρ c ∗ ∃ W, owes (c : Thread nD τ) (0 : CellTallies nD τ sig Unit) W) from by
        iintro ⟨Hh, -, HO⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      show (iprop(StableHlo.held (c : Thread nD τ) (Pipeline.ucRefs τ sig) (W5 m ρ c) ∗ SI s') : sProp 𝕄) ⊢ _
      unfold StableHlo.held
      iintro ⟨Hh, HSI⟩
      imodintro
      iapply (pointsTo_read_all (Pipeline.ucRefs τ sig) (fun b => (((c : Thread nD τ)).1, b)) (W5 m ρ c) s')
      isplitl [Hh] <;> iassumption)
    (hQ := fun s h c => h c)

/-- THE FRAME: every weakly fair execution terminates, nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_main m ρ)

end Cert.Kernel.Hand

end
-- ==== Proof.KI.Conds.lean ====
/-
  What both kernels' runs are stated over: the two branch conditions of each body (the first tile of a half of the
  sweep resets the running sums; the last tile of a half stores them to the output block), decided over the ten
  grid points in closed form, and the scratch buffers as memrefs.
-/
import proofs.«409938_j78271484002324_3_alg».proof.Proof.Gen.KernelIdeal.Launch
import proofs.«409938_j78271484002324_3_alg».proof.Proof.Gen.KernelIdeal.Skeleton
import proofs.«409938_j78271484002324_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's conditions -/

/-- The first kernel's reset condition: the second grid coordinate is 0. -/
abbrev cond0_0 (i : grid0.Coords) : Prop := (Scalar.cmpi .ne (Scalar.extui (Scalar.cmpi .eq (BitVec.ofNat 32 (i 1).val) 0#32)) 0#32) = 1#1
/-- It holds at the points 0 and 5. -/
theorem hcond0_0 : ∀ t : Fin cfg0.N, cond0_0 (grid0.coords t) ↔ t.val % 5 = 0 :=
  (by decide +kernel : ∀ t : Fin grid0.N, cond0_0 (grid0.coords t) ↔ t.val % 5 = 0)
/-- The first kernel's store condition: the second grid coordinate is 4. -/
abbrev cond0_1 (i : grid0.Coords) : Prop := k0_cond2 i = 1#1
/-- It holds at the points 4 and 9. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## The second kernel's conditions -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## The scratch buffers -/

/-- The first kernel's running sums [10, 256] and running counts [10, 1]. -/
abbrev scM0_0 : Memref sig .tc .vmem S10x256 .f32 := Memref.whole cc0_scratch0
abbrev scM0_1 : Memref sig .tc .vmem S10x1 .f32 := Memref.whole cc0_scratch1
/-- The second kernel's centres [10, 256] and running sum of norms [1, 1]. -/
abbrev scM1_0 : Memref sig .tc .vmem S10x256 .f32 := Memref.whole cc1_scratch0
abbrev scM1_1 : Memref sig .tc .vmem S1x1 .f32 := Memref.whole cc1_scratch1

/-- A whole-buffer rectangle starts at the origin. -/
theorem hz2 : (![0, 0] : Fin 2 → Nat) = fun _ => 0 := by funext a; fin_cases a <;> rfl
theorem hz3 : (![0, 0, 0] : Fin 3 → Nat) = fun _ => 0 := by funext a; fin_cases a <;> rfl

/-- A list of stores whose last one fills the whole buffer covers every index. -/
theorem cover_last {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self, View.mem_set_unit_zero h inb y⟩

end Cert.KernelIdeal.Hand

end
-- ==== Proof.KI.Run0.lean ====
/-
  The first kernel's body on whole staging buffers, in its three cases. A tile's body adds the tile's one-hot product
  to the running sums [10, 256] and the tile's one-hot lane sums to the running counts [10, 1]; at the first tile of a
  half both are first reset to zero; at the last tile of a half both are then copied to the output blocks. Each case is
  stated with what every buffer holds afterwards as the body's payload terms of what it held before.
-/
import proofs.«409938_j78271484002324_3_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first tile of a half: the sums and counts restart from zero. -/
theorem kernelRun0_A (c : Dev nD) (i : grid0.Coords) (arg2 : Memref sig .tc .vmem S20000x256 .f32) (harg2 : arg2.IsWhole) (arg3 : Memref sig .tc .vmem S1x1x20000 .i32) (harg3 : arg3.IsWhole) (arg4 : Memref sig .tc .vmem S1x10x256 .f32) (harg4 : arg4.IsWhole) (arg5 : Memref sig .tc .vmem S1x10x1 .f32) (harg5 : arg5.IsWhole) (arg6 : Memref sig .tc .vmem S10x256 .f32) (harg6 : arg6.IsWhole) (arg7 : Memref sig .tc .vmem S10x1 .f32) (harg7 : arg7.IsWhole) (hc0 : cond0_0 i) (hc1 : ¬cond0_1 i)
    (x0 : Vec F S20000x256 .f32) (x1 : Vec F S1x1x20000 .i32) (xi2 : Vec F S1x10x256 .f32) (xi3 : Vec F S1x10x1 .f32)
    (xs0 : Vec F S10x256 .f32) (xs1 : Vec F S10x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare xi2
            ∗ owns (c : Thread nD τ) arg5 fullShare xi3 ∗ owns (c : Thread nD τ) arg6 fullShare (k0_pay4 x1 x0 k0_pay1)
            ∗ owns (c : Thread nD τ) arg7 fullShare (k0_pay5 x1 k0_pay2)) -∗ K ⟨⟩))
      ⊢ wp frame (wpE (defs₀ (F := F)) Variants.none c none) E (cc0__cluster_kernel i arg2 harg2 arg3 harg3 arg4 harg4 arg5 harg5 arg6 harg6 arg7 harg7) K := by
  simp only [cc0__cluster_kernel_eq_skeleton]; unfold cc0__cluster_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    sl_unfold_words
    rw [View.read_writes_eq_canon, View.canon_cons_unit_zero hz2]
    · simp only [View.readAt_eq_ld, harg2.read_unread, harg3.read_unread,
        View.ld_unit_zero (S := S20000x256) hz2, View.ld_unit_zero (S := S1x1x20000) hz3,
        View.readCov_unit_zero (S := S10x256) _ hz2]
    · exact cover_last hz2 _ _ _
  · iexists _; isplitr
    swap; · iexact HS1
    ipureintro
    sl_unfold_words
    rw [View.read_writes_eq_canon, View.canon_cons_unit_zero hz2]
    · simp only [View.readAt_eq_ld, harg3.read_unread,
        View.ld_unit_zero (S := S1x1x20000) hz3, View.readCov_unit_zero (S := S10x1) _ hz2]
    · exact cover_last hz2 _ _ _

set_option maxHeartbeats 1000000 in
/-- A tile that is neither first nor last in its half. -/
theorem kernelRun0_B (c : Dev nD) (i : grid0.Coords) (arg2 : Memref sig .tc .vmem S20000x256 .f32) (harg2 : arg2.IsWhole) (arg3 : Memref sig .tc .vmem S1x1x20000 .i32) (harg3 : arg3.IsWhole) (arg4 : Memref sig .tc .vmem S1x10x256 .f32) (harg4 : arg4.IsWhole) (arg5 : Memref sig .tc .vmem S1x10x1 .f32) (harg5 : arg5.IsWhole) (arg6 : Memref sig .tc .vmem S10x256 .f32) (harg6 : arg6.IsWhole) (arg7 : Memref sig .tc .vmem S10x1 .f32) (harg7 : arg7.IsWhole) (hc0 : ¬cond0_0 i) (hc1 : ¬cond0_1 i)
    (x0 : Vec F S20000x256 .f32) (x1 : Vec F S1x1x20000 .i32) (xi2 : Vec F S1x10x256 .f32) (xi3 : Vec F S1x10x1 .f32)
    (xs0 : Vec F S10x256 .f32) (xs1 : Vec F S10x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare xi2
            ∗ owns (c : Thread nD τ) arg5 fullShare xi3 ∗ owns (c : Thread nD τ) arg6 fullShare (k0_pay4 x1 x0 xs0)
            ∗ owns (c : Thread nD τ) arg7 fullShare (k0_pay5 x1 xs1)) -∗ K ⟨⟩))
      ⊢ wp frame (wpE (defs₀ (F := F)) Variants.none c none) E (cc0__cluster_kernel i arg2 harg2 arg3 harg3 arg4 harg4 arg5 harg5 arg6 harg6 arg7 harg7) K := by
  simp only [cc0__cluster_kernel_eq_skeleton]; unfold cc0__cluster_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    rw [View.read_writes_eq_canon, View.canon_unit_zero hz2]
    · simp only [View.readAt_eq_ld, harg2.read_unread, harg3.read_unread, harg6.read_unread,
        View.ld_unit_zero (S := S20000x256) hz2, View.ld_unit_zero (S := S1x1x20000) hz3, View.ld_unit_zero (S := S10x256) hz2]
    · exact cover_last hz2 _ _ _
  · iexists _; isplitr
    swap; · iexact HS1
    ipureintro
    rw [View.read_writes_eq_canon, View.canon_unit_zero hz2]
    · simp only [View.readAt_eq_ld, harg3.read_unread, harg7.read_unread,
        View.ld_unit_zero (S := S1x1x20000) hz3, View.ld_unit_zero (S := S10x1) hz2]
    · exact cover_last hz2 _ _ _

set_option maxHeartbeats 1000000 in
/-- The last tile of a half: the updated sums and counts are copied to the output blocks. -/
theorem kernelRun0_C (c : Dev nD) (i : grid0.Coords) (arg2 : Memref sig .tc .vmem S20000x256 .f32) (harg2 : arg2.IsWhole) (arg3 : Memref sig .tc .vmem S1x1x20000 .i32) (harg3 : arg3.IsWhole) (arg4 : Memref sig .tc .vmem S1x10x256 .f32) (harg4 : arg4.IsWhole) (arg5 : Memref sig .tc .vmem S1x10x1 .f32) (harg5 : arg5.IsWhole) (arg6 : Memref sig .tc .vmem S10x256 .f32) (harg6 : arg6.IsWhole) (arg7 : Memref sig .tc .vmem S10x1 .f32) (harg7 : arg7.IsWhole) (hc0 : ¬cond0_0 i) (hc1 : cond0_1 i)
    (x0 : Vec F S20000x256 .f32) (x1 : Vec F S1x1x20000 .i32) (xi2 : Vec F S1x10x256 .f32) (xi3 : Vec F S1x10x1 .f32)
    (xs0 : Vec F S10x256 .f32) (xs1 : Vec F S10x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare (k0_pay6 (k0_pay4 x1 x0 xs0))
            ∗ owns (c : Thread nD τ) arg5 fullShare (k0_pay7 (k0_pay5 x1 xs1)) ∗ owns (c : Thread nD τ) arg6 fullShare (k0_pay4 x1 x0 xs0)
            ∗ owns (c : Thread nD τ) arg7 fullShare (k0_pay5 x1 xs1)) -∗ K ⟨⟩))
      ⊢ wp frame (wpE (defs₀ (F := F)) Variants.none c none) E (cc0__cluster_kernel i arg2 harg2 arg3 harg3 arg4 harg4 arg5 harg5 arg6 harg6 arg7 harg7) K := by
  simp only [cc0__cluster_kernel_eq_skeleton]; unfold cc0__cluster_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon, View.canon_unit_zero hz3]
    · simp only [View.readAt_eq_ld, harg2.read_unread, harg3.read_unread, harg6.read_unread,
        View.ld_unit_zero (S := S20000x256) hz2, View.ld_unit_zero (S := S1x1x20000) hz3, View.ld_unit_zero (S := S10x256) hz2,
        View.readCov_unit_zero (S := S10x256) _ hz2]
    · exact cover_last hz3 _ _ _
  isplitl [H3]
  · iexists _; isplitr
    swap; · iexact H3
    ipureintro
    sl_unfold_words
    rw [View.read_writes_eq_canon, View.canon_unit_zero hz3]
    · simp only [View.readAt_eq_ld, harg3.read_unread, harg7.read_unread,
        View.ld_unit_zero (S := S1x1x20000) hz3, View.ld_unit_zero (S := S10x1) hz2,
        View.readCov_unit_zero (S := S10x1) _ hz2]
    · exact cover_last hz3 _ _ _
  isplitl [HS0]
  · iexists _; isplitr
    swap; · iexact HS0
    ipureintro
    sl_unfold_words
    rw [View.read_writes_eq_canon, View.canon_unit_zero hz2]
    · simp only [View.readAt_eq_ld, harg2.read_unread, harg3.read_unread, harg6.read_unread,
        View.ld_unit_zero (S := S20000x256) hz2, View.ld_unit_zero (S := S1x1x20000) hz3, View.ld_unit_zero (S := S10x256) hz2]
    · exact cover_last hz2 _ _ _
  · iexists _; isplitr
    swap; · iexact HS1
    ipureintro
    sl_unfold_words
    rw [View.read_writes_eq_canon, View.canon_unit_zero hz2]
    · simp only [View.readAt_eq_ld, harg3.read_unread, harg7.read_unread,
        View.ld_unit_zero (S := S1x1x20000) hz3, View.ld_unit_zero (S := S10x1) hz2]
    · exact cover_last hz2 _ _ _

end Cert.KernelIdeal.Hand

end
-- ==== Proof.KI.Region0.lean ====
/-
  The first pallas_call as a region of the program, at a parameter V: the buffer contents when the region is entered.
  Its grid has ten points, two halves of five tiles. Each point's body finds the tile's 20000 source rows and their
  sector words in the input windows; the running sums [10, 256] and counts [10, 1] live in two scratch buffers that the
  region invariant carries from point to point, named by recursion on the point (scr0); the two output windows are
  stored only at the last tile of a half and are left alone elsewhere.
-/
import proofs.«409938_j78271484002324_3_alg».proof.Proof.KI.Run0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The staging memrefs at a point -/

abbrev ms0_0 (t : Fin cfg0.N) : Memref sig .tc .vmem S20000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x20000 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x10x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x10x1 .f32 := win0_3.stage (cfg0.slots t 3)
abbrev hs0_3 (t : Fin cfg0.N) : (ms0_3 t).IsWhole := hstage0_3 ((cfg0.slots t 3).cast nbuf0_3)

/-! ## The scoped buffers the region does not stage -/

/-- The scoped buffers other than this kernel's two scratch buffers, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant with the two scratch buffers as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-! ## The running sums and counts, point by point -/

/-- What the two scratch buffers hold after the body at point n: the tile's contribution added to zero at the first
    tile of a half, to what the point before left otherwise. -/
def scr0 (c : Dev nD) : (n : ℕ) → n < cfg0.N → Vec F S10x256 .f32 × Vec F S10x1 .f32
  | 0, hn => (k0_pay4 (iblk0 V c 1 ⟨0, hn⟩) (iblk0 V c 0 ⟨0, hn⟩) k0_pay1, k0_pay5 (iblk0 V c 1 ⟨0, hn⟩) k0_pay2)
  | n + 1, hn =>
    if (n + 1) % 5 = 0 then
      (k0_pay4 (iblk0 V c 1 ⟨n + 1, hn⟩) (iblk0 V c 0 ⟨n + 1, hn⟩) k0_pay1, k0_pay5 (iblk0 V c 1 ⟨n + 1, hn⟩) k0_pay2)
    else
      (k0_pay4 (iblk0 V c 1 ⟨n + 1, hn⟩) (iblk0 V c 0 ⟨n + 1, hn⟩) (scr0 c n (Nat.lt_of_succ_lt hn)).1,
        k0_pay5 (iblk0 V c 1 ⟨n + 1, hn⟩) (scr0 c n (Nat.lt_of_succ_lt hn)).2)

theorem scr0_first (c : Dev nD) (t : Fin cfg0.N) (h : t.val % 5 = 0) :
    scr0 V c t.val t.isLt = (k0_pay4 (iblk0 V c 1 t) (iblk0 V c 0 t) k0_pay1, k0_pay5 (iblk0 V c 1 t) k0_pay2) := by
  obtain ⟨n, hn⟩ := t
  cases n with
  | zero => rfl
  | succ n => exact if_pos h

theorem scr0_next (c : Dev nD) (t : Fin cfg0.N) (h : ¬t.val % 5 = 0) :
    scr0 V c t.val t.isLt = (k0_pay4 (iblk0 V c 1 t) (iblk0 V c 0 t) (scr0 V c (t.val - 1) (Nat.lt_of_le_of_lt (Nat.sub_le _ _) t.isLt)).1,
      k0_pay5 (iblk0 V c 1 t) (scr0 V c (t.val - 1) (Nat.lt_of_le_of_lt (Nat.sub_le _ _) t.isLt)).2) := by
  obtain ⟨n, hn⟩ := t
  cases n with
  | zero => exact absurd (Nat.zero_mod _) h
  | succ n => exact if_neg h

/-- The region invariant before position n: the class's before the first point; afterwards the two scratch buffers at
    what the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0_0 fullShare (scr0 V c n hn).1 ∗ owns (c : Thread nD τ) scM0_1 fullShare (scr0 V c n hn).2 ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0_0 fullShare (scr0 V c n hn).1 ∗ owns (c : Thread nD τ) scM0_1 fullShare (scr0 V c n hn).2 ∗ rest0 c) ∗ (∃ r, prngReg c r)) := rfl
theorem PhiS0_pos (c : Dev nD) (n : ℕ) (h : n ≤ cfg0.N) (hz : n ≠ 0) :
    PhiS0 V c n h = iprop((owns (c : Thread nD τ) scM0_0 fullShare (scr0 V c (n - 1) (by omega)).1 ∗ owns (c : Thread nD τ) scM0_1 fullShare (scr0 V c (n - 1) (by omega)).2 ∗ rest0 c) ∗ (∃ r, prngReg c r)) := by
  cases n with
  | zero => exact absurd rfl hz
  | succ n => rfl

/-! ## The proof data -/

/-- The pipeline's proof data on core c: the arrays as the region finds them; after the body each input's buffer at its
    block, each output's at the copy of the running sums or counts; the invariant carrying the scratch buffers. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (scr0 V c t.val t.isLt).1
    | ⟨3, _⟩ => k0_pay7 (scr0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (scr0 V c t.val t.isLt).1 := by dsimp only [dat0]
theorem after0_3 (c : Dev nD) (t : Fin cfg0.N) : (dat0 V c).after 3 t = k0_pay7 (scr0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's place in its half of the sweep says which
    case the body is in; the invariant hands the body the scratch buffers at what the point before left (at anything
    at the first point) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 5 = 4
  · -- the last tile of a half
    have h0 : ¬t.val % 5 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [show (dat0 V c).leavesExact 3 t = owns (c : Thread nD τ) (ms0_3 t) fullShare ((dat0 V c).after 3 t) from by
      unfold Dat.leavesExact; rw [liveAt0_3 t ((hcond0_1 t).mpr h1)], after0_3]
    rw [scr0_next V c t h0]
    rw [PhiS0_castSucc V c t, PhiS0_pos V c _ _ hz]
    iintro ⟨⟨⟨HS0, HS1, Hrest⟩, Hg⟩, Ho, ⟨%d0, H0⟩, ⟨%d1, H1⟩, ⟨%d2, H2⟩, ⟨%d3, H3⟩⟩
    iapply (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _)
      (fun h => h0 ((hcond0_0 t).mp h)) ((hcond0_1 t).mpr h1) (iblk0 V c 0 t) (iblk0 V c 1 t) _ _ _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitr [Hg]
      · isplitl [HS0]; · iexact HS0
        isplitl [HS1]; · iexact HS1
        iexact Hrest
      iexact Hg
    isplitl [Ho]; · iexact Ho
    isplitl [H0]; · iexact H0
    isplitl [H1]; · iexact H1
    isplitl [H2]; · iexact H2
    iexact H3
  · rw [Dat.leavesExact_idle (dat0 V c) 2 t (idleAt0_2 t (fun h => h1 ((hcond0_1 t).mp h))) (noFlush0_2 t (fun h => h1 ((hcond0_1 t).mp h)))]
    rw [Dat.leavesExact_idle (dat0 V c) 3 t (idleAt0_3 t (fun h => h1 ((hcond0_1 t).mp h))) (noFlush0_3 t (fun h => h1 ((hcond0_1 t).mp h)))]
    by_cases h0 : t.val % 5 = 0
    · -- the first tile of a half
      rw [scr0_first V c t h0]
      by_cases hz : t.val = 0
      · rw [PhiS0_castSucc V c t, PhiS0_zero V c _ _ hz, PhiA0_eq]
        iintro ⟨⟨⟨⟨%s0, HS0⟩, ⟨%s1, HS1⟩, Hrest⟩, Hg⟩, Ho, ⟨%d0, H0⟩, ⟨%d1, H1⟩, ⟨%d2, H2⟩, ⟨%d3, H3⟩⟩
        iapply (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _)
          ((hcond0_0 t).mpr h0) (fun h => h1 ((hcond0_1 t).mp h)) (iblk0 V c 0 t) (iblk0 V c 1 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hrest Hg]
        · isplitr [Hg]
          · isplitl [HS0]; · iexact HS0
            isplitl [HS1]; · iexact HS1
            iexact Hrest
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩⟩
        iapply (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _)
          ((hcond0_0 t).mpr h0) (fun h => h1 ((hcond0_1 t).mp h)) (iblk0 V c 0 t) (iblk0 V c 1 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hrest Hg]
        · isplitr [Hg]
          · isplitl [HS0]; · iexact HS0
            isplitl [HS1]; · iexact HS1
            iexact Hrest
          iexact Hg
        isplitl [Ho]; · iexact Ho
        isplitl [H0]; · iexact H0
        isplitl [H1]; · iexact H1
        isplitl [H2]; · iexists _; iexact H2
        iexists _; iexact H3
    · -- a tile inside a half
      have hz : t.val ≠ 0 := by omega
      rw [scr0_next V c t h0]
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩⟩
      iapply (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _)
        (fun h => h0 ((hcond0_0 t).mp h)) (fun h => h1 ((hcond0_1 t).mp h)) (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch buffers' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 10 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS0, HS1, Hrest⟩, Hg⟩
  isplitr [Hg]
  · isplitl [HS0]; · iexists _; iexact HS0
    isplitl [HS1]; · iexists _; iexact HS1
    iexact Hrest
  iexact Hg

end Region

end Cert.KernelIdeal.Hand

end
-- ==== Proof.KI.Run1.lean ====
/-
  The second kernel's body on whole staging buffers, in its three cases. At the first tile of a half the centres
  [10, 256] are computed from the two halves' sums and counts and kept, and the running sum of norms [1, 1] restarts
  from zero; every tile adds its rows' norms to the running sum; at the last tile of a half the running sum is copied
  to the output block. Each case is stated with what every buffer holds afterwards as the body's payload terms of what
  it held before.
-/
import proofs.«409938_j78271484002324_3_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first tile of a half: the centres are computed, the running sum restarts. -/
theorem kernelRun1_A (c : Dev nD) (i : grid1.Coords) (arg2 : Memref sig .tc .vmem S2x10x256 .f32) (harg2 : arg2.IsWhole) (arg3 : Memref sig .tc .vmem S2x10x1 .f32) (harg3 : arg3.IsWhole) (arg4 : Memref sig .tc .vmem S10000x256 .f32) (harg4 : arg4.IsWhole) (arg5 : Memref sig .tc .vmem S10000x1 .f32) (harg5 : arg5.IsWhole) (arg6 : Memref sig .tc .vmem S1x1x1 .f32) (harg6 : arg6.IsWhole) (arg7 : Memref sig .tc .vmem S10x256 .f32) (harg7 : arg7.IsWhole) (arg8 : Memref sig .tc .vmem S1x1 .f32) (harg8 : arg8.IsWhole) (hc0 : cond1_0 i) (hc1 : ¬cond1_1 i)
    (x2 : Vec F S2x10x256 .f32) (x3 : Vec F S2x10x1 .f32) (x4 : Vec F S10000x256 .f32) (x5 : Vec F S10000x1 .f32) (xi6 : Vec F S1x1x1 .f32)
    (xs0 : Vec F S10x256 .f32) (xs1 : Vec F S1x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs0 ∗ owns (c : Thread nD τ) arg8 fullShare xs1
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare (k1_pay3 x2 x3) ∗ owns (c : Thread nD τ) arg8 fullShare (k1_pay4 x5 (k1_pay3 x2 x3) x4 k1_pay2)) -∗ K ⟨⟩))
      ⊢ wp frame (wpE (defs₀ (F := F)) Variants.none c none) E (cc1__dist_kernel i arg2 harg2 arg3 harg3 arg4 harg4 arg5 harg5 arg6 harg6 arg7 harg7 arg8 harg8) K := by
  simp only [cc1__dist_kernel_eq_skeleton]; unfold cc1__dist_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hfs0
  obtain rfl := harg8.eq_unread hfs1
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [HS0]
  · iexists _; isplitr
    swap; · iexact HS0
    ipureintro
    sl_unfold_words
    rw [View.read_writes_eq_canon, View.canon_unit_zero hz2]
    · simp only [View.readAt_eq_ld, harg2.read_unread, harg3.read_unread,
        View.ld_unit_zero (S := S2x10x256) hz3, View.ld_unit_zero (S := S2x10x1) hz3]
    · exact cover_last hz2 _ _ _
  · iexists _; isplitr
    swap; · iexact HS1
    ipureintro
    sl_unfold_words
    rw [View.read_writes_eq_canon, View.canon_cons_unit_zero hz2]
    · simp only [View.readAt_eq_ld, harg2.read_unread, harg3.read_unread, harg4.read_unread, harg5.read_unread,
        View.ld_unit_zero (S := S2x10x256) hz3, View.ld_unit_zero (S := S2x10x1) hz3,
        View.ld_unit_zero (S := S10000x256) hz2, View.ld_unit_zero (S := S10000x1) hz2,
        View.readCov_unit_zero (S := S10x256) _ hz2, View.readCov_unit_zero (S := S1x1) _ hz2]
    · exact cover_last hz2 _ _ _

set_option maxHeartbeats 1000000 in
/-- A tile that is neither first nor last in its half. -/
theorem kernelRun1_B (c : Dev nD) (i : grid1.Coords) (arg2 : Memref sig .tc .vmem S2x10x256 .f32) (harg2 : arg2.IsWhole) (arg3 : Memref sig .tc .vmem S2x10x1 .f32) (harg3 : arg3.IsWhole) (arg4 : Memref sig .tc .vmem S10000x256 .f32) (harg4 : arg4.IsWhole) (arg5 : Memref sig .tc .vmem S10000x1 .f32) (harg5 : arg5.IsWhole) (arg6 : Memref sig .tc .vmem S1x1x1 .f32) (harg6 : arg6.IsWhole) (arg7 : Memref sig .tc .vmem S10x256 .f32) (harg7 : arg7.IsWhole) (arg8 : Memref sig .tc .vmem S1x1 .f32) (harg8 : arg8.IsWhole) (hc0 : ¬cond1_0 i) (hc1 : ¬cond1_1 i)
    (x2 : Vec F S2x10x256 .f32) (x3 : Vec F S2x10x1 .f32) (x4 : Vec F S10000x256 .f32) (x5 : Vec F S10000x1 .f32) (xi6 : Vec F S1x1x1 .f32)
    (xs0 : Vec F S10x256 .f32) (xs1 : Vec F S1x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs0 ∗ owns (c : Thread nD τ) arg8 fullShare xs1
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs0 ∗ owns (c : Thread nD τ) arg8 fullShare (k1_pay4 x5 xs0 x4 xs1)) -∗ K ⟨⟩))
      ⊢ wp frame (wpE (defs₀ (F := F)) Variants.none c none) E (cc1__dist_kernel i arg2 harg2 arg3 harg3 arg4 harg4 arg5 harg5 arg6 harg6 arg7 harg7 arg8 harg8) K := by
  simp only [cc1__dist_kernel_eq_skeleton]; unfold cc1__dist_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hfs0
  obtain rfl := harg8.eq_unread hfs1
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [HS0]
  · iexists _; isplitr; · ipureintro; exact harg7.read_unread _
    iexact HS0
  · iexists _; isplitr
    swap; · iexact HS1
    ipureintro
    sl_unfold_words
    rw [View.read_writes_eq_canon, View.canon_unit_zero hz2]
    · simp only [View.readAt_eq_ld, harg4.read_unread, harg5.read_unread, harg7.read_unread, harg8.read_unread,
        View.ld_unit_zero (S := S10000x256) hz2, View.ld_unit_zero (S := S10000x1) hz2, View.ld_unit_zero (S := S10x256) hz2,
        View.ld_unit_zero (S := S1x1) hz2]
    · exact cover_last hz2 _ _ _

set_option maxHeartbeats 1000000 in
/-- The last tile of a half: the updated running sum is copied to the output block. -/
theorem kernelRun1_C (c : Dev nD) (i : grid1.Coords) (arg2 : Memref sig .tc .vmem S2x10x256 .f32) (harg2 : arg2.IsWhole) (arg3 : Memref sig .tc .vmem S2x10x1 .f32) (harg3 : arg3.IsWhole) (arg4 : Memref sig .tc .vmem S10000x256 .f32) (harg4 : arg4.IsWhole) (arg5 : Memref sig .tc .vmem S10000x1 .f32) (harg5 : arg5.IsWhole) (arg6 : Memref sig .tc .vmem S1x1x1 .f32) (harg6 : arg6.IsWhole) (arg7 : Memref sig .tc .vmem S10x256 .f32) (harg7 : arg7.IsWhole) (arg8 : Memref sig .tc .vmem S1x1 .f32) (harg8 : arg8.IsWhole) (hc0 : ¬cond1_0 i) (hc1 : cond1_1 i)
    (x2 : Vec F S2x10x256 .f32) (x3 : Vec F S2x10x1 .f32) (x4 : Vec F S10000x256 .f32) (x5 : Vec F S10000x1 .f32) (xi6 : Vec F S1x1x1 .f32)
    (xs0 : Vec F S10x256 .f32) (xs1 : Vec F S1x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs0 ∗ owns (c : Thread nD τ) arg8 fullShare xs1
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k1_pay1 (k1_pay4 x5 xs0 x4 xs1)) ∗ owns (c : Thread nD τ) arg7 fullShare xs0 ∗ owns (c : Thread nD τ) arg8 fullShare (k1_pay4 x5 xs0 x4 xs1)) -∗ K ⟨⟩))
      ⊢ wp frame (wpE (defs₀ (F := F)) Variants.none c none) E (cc1__dist_kernel i arg2 harg2 arg3 harg3 arg4 harg4 arg5 harg5 arg6 harg6 arg7 harg7 arg8 harg8) K := by
  simp only [cc1__dist_kernel_eq_skeleton]; unfold cc1__dist_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hfs0
  obtain rfl := harg8.eq_unread hfs1
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon, View.canon_unit_zero hz3]
    · simp only [View.readAt_eq_ld, harg4.read_unread, harg5.read_unread, harg7.read_unread, harg8.read_unread,
        View.ld_unit_zero (S := S10000x256) hz2, View.ld_unit_zero (S := S10000x1) hz2, View.ld_unit_zero (S := S10x256) hz2,
        View.ld_unit_zero (S := S1x1) hz2, View.readCov_unit_zero (S := S1x1) _ hz2]
    · exact cover_last hz3 _ _ _
  isplitl [HS0]
  · iexists _; isplitr; · ipureintro; exact harg7.read_unread _
    iexact HS0
  · iexists _; isplitr
    swap; · iexact HS1
    ipureintro
    sl_unfold_words
    rw [View.read_writes_eq_canon, View.canon_unit_zero hz2]
    · simp only [View.readAt_eq_ld, harg4.read_unread, harg5.read_unread, harg7.read_unread, harg8.read_unread,
        View.ld_unit_zero (S := S10000x256) hz2, View.ld_unit_zero (S := S10000x1) hz2, View.ld_unit_zero (S := S10x256) hz2,
        View.ld_unit_zero (S := S1x1) hz2]
    · exact cover_last hz2 _ _ _

end Cert.KernelIdeal.Hand

end
-- ==== Proof.KI.Region1.lean ====
/-
  The second pallas_call as a region of the program, at a parameter V: the buffer contents when the region is entered.
  Its grid has ten points, two halves of five tiles. Each point's body finds the two halves' sector sums and counts
  whole in its first two windows and the tile's 10000 target rows and positions in the next two; the centres [10, 256]
  and the running sum of norms [1, 1] live in two scratch buffers that the region invariant carries from point to
  point, named by recursion on the point (scr1); the output window is stored only at the last tile of a half.
-/
import proofs.«409938_j78271484002324_3_alg».proof.Proof.KI.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The staging memrefs at a point -/

abbrev ms1_0 (t : Fin cfg1.N) : Memref sig .tc .vmem S2x10x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x10x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S10000x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)

/-! ## The scoped buffers -/

/-- The class invariant with the two scratch buffers as memrefs owned at some contents (the other scoped buffers at
    some contents each, before them). -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The centres and the running sum of norms, point by point -/

/-- What the two scratch buffers hold after the body at point n: at the first tile of a half the centres are computed
    from the halves' sums and counts and the running sum restarts from zero; otherwise the centres stay and the tile's
    norms are added to what the point before left. -/
def scr1 (c : Dev nD) : (n : ℕ) → n < cfg1.N → Vec F S10x256 .f32 × Vec F S1x1 .f32
  | 0, hn => (k1_pay3 (iblk1 V c 0 ⟨0, hn⟩) (iblk1 V c 1 ⟨0, hn⟩), k1_pay4 (iblk1 V c 3 ⟨0, hn⟩) (k1_pay3 (iblk1 V c 0 ⟨0, hn⟩) (iblk1 V c 1 ⟨0, hn⟩)) (iblk1 V c 2 ⟨0, hn⟩) k1_pay2)
  | n + 1, hn =>
    if (n + 1) % 5 = 0 then
      (k1_pay3 (iblk1 V c 0 ⟨n + 1, hn⟩) (iblk1 V c 1 ⟨n + 1, hn⟩), k1_pay4 (iblk1 V c 3 ⟨n + 1, hn⟩) (k1_pay3 (iblk1 V c 0 ⟨n + 1, hn⟩) (iblk1 V c 1 ⟨n + 1, hn⟩)) (iblk1 V c 2 ⟨n + 1, hn⟩) k1_pay2)
    else
      ((scr1 c n (Nat.lt_of_succ_lt hn)).1, k1_pay4 (iblk1 V c 3 ⟨n + 1, hn⟩) (scr1 c n (Nat.lt_of_succ_lt hn)).1 (iblk1 V c 2 ⟨n + 1, hn⟩) (scr1 c n (Nat.lt_of_succ_lt hn)).2)

theorem scr1_first (c : Dev nD) (t : Fin cfg1.N) (h : t.val % 5 = 0) :
    scr1 V c t.val t.isLt = (k1_pay3 (iblk1 V c 0 t) (iblk1 V c 1 t), k1_pay4 (iblk1 V c 3 t) (k1_pay3 (iblk1 V c 0 t) (iblk1 V c 1 t)) (iblk1 V c 2 t) k1_pay2) := by
  obtain ⟨n, hn⟩ := t
  cases n with
  | zero => rfl
  | succ n => exact if_pos h

theorem scr1_next (c : Dev nD) (t : Fin cfg1.N) (h : ¬t.val % 5 = 0) :
    scr1 V c t.val t.isLt = ((scr1 V c (t.val - 1) (Nat.lt_of_le_of_lt (Nat.sub_le _ _) t.isLt)).1, k1_pay4 (iblk1 V c 3 t) (scr1 V c (t.val - 1) (Nat.lt_of_le_of_lt (Nat.sub_le _ _) t.isLt)).1 (iblk1 V c 2 t) (scr1 V c (t.val - 1) (Nat.lt_of_le_of_lt (Nat.sub_le _ _) t.isLt)).2) := by
  obtain ⟨n, hn⟩ := t
  cases n with
  | zero => exact absurd (Nat.zero_mod _) h
  | succ n => exact if_neg h

/-- The region invariant before position n: the class's before the first point; afterwards the two scratch buffers at
    what the point before left, the other scoped buffers at anything, the generator register at some state. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (scr1 V c n hn).1 ∗ owns (c : Thread nD τ) scM1_1 fullShare (scr1 V c n hn).2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (scr1 V c n hn).1 ∗ owns (c : Thread nD τ) scM1_1 fullShare (scr1 V c n hn).2) ∗ (∃ r, prngReg c r)) := rfl
theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (scr1 V c (n - 1) (by omega)).1 ∗ owns (c : Thread nD τ) scM1_1 fullShare (scr1 V c (n - 1) (by omega)).2) ∗ (∃ r, prngReg c r)) := by
  cases n with
  | zero => exact absurd rfl hz
  | succ n => rfl

/-! ## The proof data -/

/-- The pipeline's proof data on core c: the arrays as the region finds them; after the body each input's buffer at its
    block, the output's at the copy of the running sum; the invariant carrying the scratch buffers. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (scr1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (scr1 V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's place in its half of the sweep says which
    case the body is in; the invariant hands the body the scratch buffers at what the point before left (at anything
    at the first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 5 = 4
  · -- the last tile of a half
    have h0 : ¬t.val % 5 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [scr1_next V c t h0]
    rw [PhiS1_castSucc V c t, PhiS1_pos V c _ _ hz]
    iintro ⟨⟨⟨Ha0, Ha1, Ha2, Ha3, Ha4, Ha5, Ha6, Ha7, Ha8, Ha9, HS0, HS1⟩, Hg⟩, Ho, ⟨%d0, H0⟩, ⟨%d1, H1⟩, ⟨%d2, H2⟩, ⟨%d3, H3⟩, ⟨%d4, H4⟩⟩
    iapply (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _)
      (fun h => h0 ((hcond1_0 t).mp h)) ((hcond1_1 t).mpr h1) (iblk1 V c 0 t) (iblk1 V c 1 t) (iblk1 V c 2 t) (iblk1 V c 3 t) _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [Ha0 Ha1 Ha2 Ha3 Ha4 Ha5 Ha6 Ha7 Ha8 Ha9 HS0 HS1 Hg]
    · isplitr [Hg]
      · isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        isplitl [Ha8]; · iexact Ha8
        isplitl [Ha9]; · iexact Ha9
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 5 = 0
    · -- the first tile of a half
      rw [scr1_first V c t h0]
      by_cases hz : t.val = 0
      · rw [PhiS1_castSucc V c t, PhiS1_zero V c _ _ hz, PhiA1_eq]
        iintro ⟨⟨⟨Ha0, Ha1, Ha2, Ha3, Ha4, Ha5, Ha6, Ha7, Ha8, Ha9, ⟨%s0, HS0⟩, ⟨%s1, HS1⟩⟩, Hg⟩, Ho, ⟨%d0, H0⟩, ⟨%d1, H1⟩, ⟨%d2, H2⟩, ⟨%d3, H3⟩, ⟨%d4, H4⟩⟩
        iapply (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _)
          ((hcond1_0 t).mpr h0) (fun h => h1 ((hcond1_1 t).mp h)) (iblk1 V c 0 t) (iblk1 V c 1 t) (iblk1 V c 2 t) (iblk1 V c 3 t) _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [Ha0 Ha1 Ha2 Ha3 Ha4 Ha5 Ha6 Ha7 Ha8 Ha9 HS0 HS1 Hg]
        · isplitr [Hg]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            isplitl [Ha8]; · iexact Ha8
            isplitl [Ha9]; · iexact Ha9
            isplitl [HS0]; · iexact HS0
            iexact HS1
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨Ha0, Ha1, Ha2, Ha3, Ha4, Ha5, Ha6, Ha7, Ha8, Ha9, HS0, HS1⟩, Hg⟩, Ho, ⟨%d0, H0⟩, ⟨%d1, H1⟩, ⟨%d2, H2⟩, ⟨%d3, H3⟩, ⟨%d4, H4⟩⟩
        iapply (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _)
          ((hcond1_0 t).mpr h0) (fun h => h1 ((hcond1_1 t).mp h)) (iblk1 V c 0 t) (iblk1 V c 1 t) (iblk1 V c 2 t) (iblk1 V c 3 t) _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [Ha0 Ha1 Ha2 Ha3 Ha4 Ha5 Ha6 Ha7 Ha8 Ha9 HS0 HS1 Hg]
        · isplitr [Hg]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            isplitl [Ha8]; · iexact Ha8
            isplitl [Ha9]; · iexact Ha9
            isplitl [HS0]; · iexact HS0
            iexact HS1
          iexact Hg
        isplitl [Ho]; · iexact Ho
        isplitl [H0]; · iexact H0
        isplitl [H1]; · iexact H1
        isplitl [H2]; · iexact H2
        isplitl [H3]; · iexact H3
        iexists _; iexact H4
    · -- a tile inside a half
      have hz : t.val ≠ 0 := by omega
      rw [scr1_next V c t h0]
      rw [PhiS1_castSucc V c t, PhiS1_pos V c _ _ hz]
      iintro ⟨⟨⟨Ha0, Ha1, Ha2, Ha3, Ha4, Ha5, Ha6, Ha7, Ha8, Ha9, HS0, HS1⟩, Hg⟩, Ho, ⟨%d0, H0⟩, ⟨%d1, H1⟩, ⟨%d2, H2⟩, ⟨%d3, H3⟩, ⟨%d4, H4⟩⟩
      iapply (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _)
        (fun h => h0 ((hcond1_0 t).mp h)) (fun h => h1 ((hcond1_1 t).mp h)) (iblk1 V c 0 t) (iblk1 V c 1 t) (iblk1 V c 2 t) (iblk1 V c 3 t) _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [Ha0 Ha1 Ha2 Ha3 Ha4 Ha5 Ha6 Ha7 Ha8 Ha9 HS0 HS1 Hg]
      · isplitr [Hg]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 10 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨Ha0, Ha1, Ha2, Ha3, Ha4, Ha5, Ha6, Ha7, Ha8, Ha9, HS0, HS1⟩, Hg⟩
  isplitr [Hg]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [HS0]; · iexists _; iexact HS0
    iexists _; iexact HS1
  iexact Hg

end Region

end Cert.KernelIdeal.Hand

end
-- ==== Proof.KI.Launch.lean ====
/-
  The whole program as five segments: the reshape of the sector words into ten rows of 20000; the first pallas_call;
  the reshape of the positions into a column; the second pallas_call; the sum of its two outputs divided by 100000.
  The buffer contents at each boundary are a fold from the launch memory (W0 … W5); each region leaves its output
  arrays at what its pipeline's write-backs leave and every other buffer as it found it. The run: every weakly fair
  execution terminates and every unscoped buffer ends at W5.
-/
import proofs.«409938_j78271484002324_3_alg».proof.Proof.KI.Region0
import proofs.«409938_j78271484002324_3_alg».proof.Proof.KI.Region1
import proofs.«409938_j78271484002324_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the reshape of the sector words (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the positions (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the closing sum and quotient: the end of the program. -/
abbrev W5 : Dev nD → Valuation τ sig (Elt F) := fun c => StableHlo.after hostOps2 (W4 m ρ c)

/-! ## The arguments end as launched -/

theorem W5_of (c : Dev nD) (r : Ref sig .tc) (h : r ∉ hostOps2_W) : W5 m ρ c r = W4 m ρ c r :=
  StableHlo.after_of_writes_sub hostOps2 _ hostOps2_writes h
theorem W3_of (c : Dev nD) (r : Ref sig .tc) (h : r ∉ hostOps1_W) : W3 m ρ c r = W2 m ρ c r :=
  StableHlo.after_of_writes_sub hostOps1 _ hostOps1_writes h
theorem W1_of (c : Dev nD) (r : Ref sig .tc) (h : r ∉ hostOps0_W) : W1 m ρ c r = W0 m ρ c r :=
  StableHlo.after_of_writes_sub hostOps0 _ hostOps0_writes h

/-- The source rows: read by the first region through an input window, touched by nothing else. -/
theorem W5_main_arg0 (c : Dev nD) : W5 m ρ c main_arg0 = m ((c : Thread nD τ).loc main_arg0) :=
  (W5_of m ρ c main_arg0 (by decide)).trans <| (W4_of_ne m ρ c main_arg0 (by decide)).trans <| (W3_of m ρ c main_arg0 (by decide)).trans <|
    ((W2_arr m ρ c 0).trans (((dat0 (V1 m ρ) c).arrAt_in 0 rfl _).trans (A_eq0 (V1 m ρ) c 0))).trans <| (W1_of m ρ c main_arg0 (by decide)).trans rfl
/-- The sector words: only their reshaped copy is a window's array. -/
theorem W5_main_arg1 (c : Dev nD) : W5 m ρ c main_arg1 = m ((c : Thread nD τ).loc main_arg1) :=
  (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
/-- The target rows: read by the second region through an input window. -/
theorem W5_main_arg2 (c : Dev nD) : W5 m ρ c main_arg2 = m ((c : Thread nD τ).loc main_arg2) :=
  (W5_of m ρ c main_arg2 (by decide)).trans <|
    ((W4_arr m ρ c 2).trans (((dat1 (V3 m ρ) c).arrAt_in 2 rfl _).trans (A_eq1 (V3 m ρ) c 2))).trans <| (W3_of m ρ c main_arg2 (by decide)).trans <|
    (W2_of_ne m ρ c main_arg2 (by decide)).trans <| (W1_of m ρ c main_arg2 (by decide)).trans rfl
/-- The positions: only their reshaped copy is a window's array. -/
theorem W5_main_arg3 (c : Dev nD) : W5 m ρ c main_arg3 = m ((c : Thread nD τ).loc main_arg3) :=
  (W5_of m ρ c main_arg3 (by decide)).trans <| (W4_of_ne m ρ c main_arg3 (by decide)).trans <| (W3_of m ρ c main_arg3 (by decide)).trans <|
    (W2_of_ne m ρ c main_arg3 (by decide)).trans <| (W1_of m ρ c main_arg3 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the end contents. -/
abbrev Tₙ (c : Dev nD) : sProp 𝕄 := StableHlo.held (c : Thread nD τ) (Pipeline.ucRefs τ sig) (W5 m ρ c)

/-! ## The regions as segments -/

-- unification with the pinned configuration may unfold plain definitions in a metavariable's type
set_option backward.isDefEq.respectTransparency.types false in
/-- Region 0 over the thread state: entered from every unscoped buffer at the contents before it, left at the
    contents after it. Its arrays are split out of the unscoped buffers and put back at the exit contents; the generator
    register goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine .trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 1 over the thread state: entered from every unscoped buffer at the contents before it, left at the
    contents after it. Its arrays are split out of the unscoped buffers and put back at the exit contents; the generator
    register goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine .trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every unscoped buffer ends at the fold's last contents W5. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show (iprop(StableHlo.held (c : Thread nD τ) (Pipeline.ucRefs τ sig) (W5 m ρ c) ∗ R c) : sProp 𝕄)
          ⊢ iprop(Tₙ m ρ c ∗ ∃ W, owes (c : Thread nD τ) (0 : CellTallies nD τ sig Unit) W) from by
        iintro ⟨Hh, -, HO⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      show (iprop(StableHlo.held (c : Thread nD τ) (Pipeline.ucRefs τ sig) (W5 m ρ c) ∗ SI s') : sProp 𝕄) ⊢ _
      unfold StableHlo.held
      iintro ⟨Hh, HSI⟩
      imodintro
      iapply (pointsTo_read_all (Pipeline.ucRefs τ sig) (fun b => (((c : Thread nD τ)).1, b)) (W5 m ρ c) s')
      isplitl [Hh] <;> iassumption)
    (hQ := fun s h c => h c)

/-- THE FRAME: every weakly fair execution terminates, nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_main m ρ)

end Cert.KernelIdeal.Hand

end
-- ==== Proof.Spec.lean ====
/-
  The mathematics of the sector-mean distance loss, on the extended reals.

  Source rows x[i, :] (200000 of them, 256 columns) carry a sector word sec[i]; the centre of sector s is the sum of
  the rows whose word is s divided by their number. A target row y[n, :] (100000 of them) carries a position t[n];
  its bucket is floor(t / 0.1) converted to a 32-bit integer and clamped into [0, 9]. The loss is the mean over the
  target rows of the Euclidean norm of y[n, :] - centre(bucket n) + eps.

  Two spellings are stated here. The closed one sums over all rows at once. The tiled one follows a sweep over ten
  tiles of rows in two halves of five: a running sum is reset at the first tile of a half and read at its last, and
  the two halves' sums are added.
-/
import Idealize.ShloMosaic.PureOps.Ideal
import Idealize.ShloMosaic.Lib.ValueIdx

noncomputable section

namespace Cert.Spec

open Idealize.ShloMosaic Idealize.ShloMosaic.ValueIdx

abbrev SX : Shape := ⟨2, ![200000, 256]⟩
abbrev SSec : Shape := ⟨1, ![200000]⟩
abbrev SY : Shape := ⟨2, ![100000, 256]⟩
abbrev ST : Shape := ⟨1, ![100000]⟩

/-- The indicator of two words being equal, as an extended real. -/
def hit (a b : BitVec 32) : EReal := if a = b then 1 else 0

/-- The word of sector number s. -/
abbrev sw (s : Fin 10) : BitVec 32 := BitVec.ofNat 32 s.val

/-- The offset 1e-6 added to every difference, the width 0.1 of a bucket, and the number of target rows, as the
    binary32 words the programs spell. -/
abbrev epsW : EReal := Ideal.ofBits .f32 0x358637BD#32
abbrev widthW : EReal := Ideal.ofBits .f32 0x3DCCCCCD#32
abbrev countW : EReal := Ideal.ofBits .f32 0x47C35000#32

/-- The bucket of a position: floor(t / 0.1) as a signed 32-bit integer, clamped into [0, 9]. -/
def bucket (t : EReal) : BitVec 32 :=
  IntOp.minsi 9#32 (IntOp.maxsi 0#32 (Ideal.fptosi 32 (Ideal.liftRound Int.floor (Ideal.div t widthW))))

/-! ## The closed spelling -/

/-- The sum of the rows of sector s, column d. -/
def sums (x : SX.Idx → EReal) (sec : SSec.Idx → BitVec 32) (s : Fin 10) (d : Fin 256) : EReal :=
  ∑ i : Fin 200000, hit (sw s) (sec (ix1 i)) * x (ix2 i d)

/-- The number of rows of sector s. -/
def counts (sec : SSec.Idx → BitVec 32) (s : Fin 10) : EReal :=
  ∑ i : Fin 200000, hit (sw s) (sec (ix1 i))

/-- The centre of sector s, column d. -/
def center (x : SX.Idx → EReal) (sec : SSec.Idx → BitVec 32) (s : Fin 10) (d : Fin 256) : EReal :=
  Ideal.div (sums x sec s d) (counts sec s)

/-- The centre of the bucket of position t, column d, picked by the indicator over the ten sectors. -/
def pick (cen : Fin 10 → Fin 256 → EReal) (t : EReal) (d : Fin 256) : EReal :=
  ∑ s : Fin 10, hit (bucket t) (sw s) * cen s d

/-- The norm of a target row's offset difference from the centre of its bucket. -/
def norm (cen : Fin 10 → Fin 256 → EReal) (y : SY.Idx → EReal) (tt : ST.Idx → EReal) (n : Fin 100000) : EReal :=
  Ideal.sqrt (∑ d : Fin 256, (y (ix2 n d) - pick cen (tt (ix1 n)) d + epsW) * (y (ix2 n d) - pick cen (tt (ix1 n)) d + epsW))

/-- The loss: the mean of the norms. -/
def loss (x : SX.Idx → EReal) (sec : SSec.Idx → BitVec 32) (y : SY.Idx → EReal) (tt : ST.Idx → EReal) : EReal :=
  Ideal.div (∑ n : Fin 100000, norm (center x sec) y tt n) countW

/-! ## The tiled spelling -/

theorem srow_lt (p : ℕ) (j : Fin 20000) : (p % 10) * 20000 + j.val < 200000 := by
  have := Nat.mod_lt p (show 0 < 10 by decide); have := j.isLt; omega

theorem trow_lt (p : ℕ) (r : Fin 10000) : (p % 10) * 10000 + r.val < 100000 := by
  have := Nat.mod_lt p (show 0 < 10 by decide); have := r.isLt; omega

/-- Row j of source tile p (tiles of 20000 rows; p taken modulo ten). -/
def srow (p : ℕ) (j : Fin 20000) : Fin 200000 := ⟨(p % 10) * 20000 + j.val, srow_lt p j⟩

/-- Row r of target tile p (tiles of 10000 rows; p taken modulo ten). -/
def trow (p : ℕ) (r : Fin 10000) : Fin 100000 := ⟨(p % 10) * 10000 + r.val, trow_lt p r⟩

/-- The running sum of a sweep in halves of five tiles: reset to zero at the first tile of a half. -/
def runAcc (tile : ℕ → EReal) : ℕ → EReal
  | 0 => 0 + tile 0
  | n + 1 => (if (n + 1) % 5 = 0 then 0 else runAcc tile n) + tile (n + 1)

/-- Source tile p's share of the sum of sector s, column d. -/
def tileSum (x : SX.Idx → EReal) (sec : SSec.Idx → BitVec 32) (s : Fin 10) (d : Fin 256) (p : ℕ) : EReal :=
  ∑ j : Fin 20000, hit (sw s) (sec (ix1 (srow p j))) * x (ix2 (srow p j) d)

/-- Source tile p's share of the number of rows of sector s. -/
def tileCnt (sec : SSec.Idx → BitVec 32) (s : Fin 10) (p : ℕ) : EReal :=
  ∑ j : Fin 20000, hit (sw s) (sec (ix1 (srow p j)))

/-- Half k's sum of sector s, column d: the running sum at the half's last tile. -/
def halfSum (x : SX.Idx → EReal) (sec : SSec.Idx → BitVec 32) (k : Fin 2) (s : Fin 10) (d : Fin 256) : EReal :=
  runAcc (tileSum x sec s d) (5 * k.val + 4)

/-- Half k's number of rows of sector s. -/
def halfCnt (sec : SSec.Idx → BitVec 32) (k : Fin 2) (s : Fin 10) : EReal :=
  runAcc (tileCnt sec s) (5 * k.val + 4)

/-- The centre from the two halves' sums and counts. -/
def centerT (hs : Fin 2 → Fin 10 → Fin 256 → EReal) (hc : Fin 2 → Fin 10 → EReal) (s : Fin 10) (d : Fin 256) : EReal :=
  Ideal.div (∑ k : Fin 2, hs k s d) (∑ k : Fin 2, hc k s)

/-- Target tile p's sum of norms. -/
def tileNorm (cen : Fin 10 → Fin 256 → EReal) (y : SY.Idx → EReal) (tt : ST.Idx → EReal) (p : ℕ) : EReal :=
  ∑ r : Fin 10000, norm cen y tt (trow p r)

/-- Half k's sum of norms. -/
def halfNorm (cen : Fin 10 → Fin 256 → EReal) (y : SY.Idx → EReal) (tt : ST.Idx → EReal) (k : Fin 2) : EReal :=
  runAcc (tileNorm cen y tt) (5 * k.val + 4)

/-- The loss from the tiled sums. -/
def lossT (x : SX.Idx → EReal) (sec : SSec.Idx → BitVec 32) (y : SY.Idx → EReal) (tt : ST.Idx → EReal) : EReal :=
  Ideal.div (0 + ∑ k : Fin 2, halfNorm (centerT (halfSum x sec) (halfCnt sec)) y tt k) countW

end Cert.Spec

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Pay0.lean ====
/-
  The pure payload terms of the first kernel (the sector sums), read at an index on the extended reals.

  The kernel's grid point holds one tile of 20000 source rows with their sector words. It forms the 10 × 20000
  indicator matrix whose entry (s, j) is 1 when row j's word is the word of sector s and 0 otherwise, and adds to its
  two running arrays the indicator matrix times the tile (the sums, 10 × 256) and the indicator matrix's row sums
  (the counts, 10 × 1). At the first tile of a half the running arrays are set to zero; at the last they are copied
  out under a leading unit axis. Each theorem below reads one of those stored values at one index.
-/
import proofs.«409938_j78271484002324_3_alg».proof.Proof.Gen.KernelIdeal.Skeleton
import proofs.«409938_j78271484002324_3_alg».proof.Proof.Spec
import proofs.«409938_j78271484002324_3_alg».proof.Proof.LibContract
import Idealize.ShloMosaic.Lib.Pipeline.Value
import Idealize.ShloMosaic.PureOps.Ideal.Laws
import Idealize.ShloMosaic.Lib.ValueIdx

noncomputable section

namespace Cert.Pay0

open Cert.KernelIdeal Cert.KernelIdeal.Gen Idealize.ShloMosaic Idealize.ShloMosaic.ValueIdx

/-! ## The reset values -/

/-- The value the sums are reset to: the zero splat, cast to its own shape. -/
theorem pay1_apply (i : S10x256.Idx) : k0_pay1 (F := Ideal) i = 0 := by
  unfold k0_pay1
  rw [shapeCast_self]
  exact Ideal.ofBits_zero_f32

/-- The value the counts are reset to: the zero splat, cast to its own shape. -/
theorem pay2_apply (i : S10x1.Idx) : k0_pay2 (F := Ideal) i = 0 := by
  unfold k0_pay2
  rw [shapeCast_self]
  exact Ideal.ofBits_zero_f32

/-! ## The indicator matrix -/

/-- One entry's word arithmetic: the one-bit comparison of two words, widened to 32 bits with zeros and read as a
    signed integer, is 1 when the words are equal and 0 otherwise. -/
theorem onehot_word (a b : BitVec 32) :
    FloatOps.sitofp (F := Ideal) .f32 ((IntOp.cmpi .eq a b).setWidth 32) = Cert.Spec.hit a b := by
  unfold Cert.Spec.hit IntOp.cmpi
  by_cases h : a = b
  · have e : (a == b) = true := by simp [h]
    rw [if_pos h]
    show (((((BitVec.ofBool (a == b)).setWidth 32).toInt : ℤ) : ℝ) : EReal) = 1
    rw [e]
    have t : ((BitVec.ofBool true).setWidth 32).toInt = 1 := by decide
    rw [t]; simp
  · have e : (a == b) = false := by simp [h]
    rw [if_neg h]
    show (((((BitVec.ofBool (a == b)).setWidth 32).toInt : ℤ) : ℝ) : EReal) = 0
    rw [e]
    have t : ((BitVec.ofBool false).setWidth 32).toInt = 0 := by decide
    rw [t]; simp

/-- Entry (s, j) of the indicator matrix. The row counter along axis 0 reads the word of s; the tile's sector words,
    a [1, 1, 20000] block viewed as [1, 20000] and repeated down the ten rows, read the word of row j (both views keep
    the row-major position j). -/
theorem pay3_apply (v3 : Vec Ideal S1x1x20000 .i32) (s : Fin 10) (j : Fin 20000) :
    k0_pay3 (F := Ideal) v3 (ix2 s j) = Cert.Spec.hit (Cert.Spec.sw s) (v3 (ix3 (0 : Fin 1) (0 : Fin 1) j)) := by
  unfold k0_pay3
  show FloatOps.sitofp (F := Ideal) .f32 ((IntOp.cmpi .eq (iota .tc S10x20000 32 [0] iota_S10x20000_d0_w32 (ix2 s j))
      (broadcastTo S10x20000 (shapeCast S1x20000 v3 shapeCasts_S1x1x20000_S1x20000) broadcasts_S1x20000_S10x20000 (ix2 s j))).setWidth 32) = _
  rw [iota_single_apply]
  rw [broadcastTo_apply _ _ (ix2 s j) (ix2 (0 : Fin 1) j) (fun a => by
    match a with
    | ⟨0, _⟩ => rfl
    | ⟨1, _⟩ => rfl)]
  rw [shapeCast_apply _ _ (ix2 (0 : Fin 1) j) (ix3 (0 : Fin 1) (0 : Fin 1) j) (by
    rw [Shape.rowMajor_val_three, Shape.rowMajor_val_two]; simp)]
  exact onehot_word _ _

/-! ## The accumulated values -/

/-- The new sums at (s, d): the old sum plus the indicator matrix's row s times the tile's column d, a contraction
    over the 20000 rows accumulated into zero. -/
theorem pay4_apply (v3 : Vec Ideal S1x1x20000 .i32) (v10 : Vec Ideal S20000x256 .f32) (v11 : Vec Ideal S10x256 .f32)
    (s : Fin 10) (d : Fin 256) :
    k0_pay4 (F := Ideal) v3 v10 v11 (ix2 s d)
      = v11 (ix2 s d) + ∑ j : Fin 20000, Cert.Spec.hit (Cert.Spec.sw s) (v3 (ix3 (0 : Fin 1) (0 : Fin 1) j)) * v10 (ix2 j d) := by
  unfold k0_pay4
  rw [shapeCast_self]
  rw [addf_apply]
  refine congrArg (v11 (ix2 s d) + ·) ?_
  refine (Cert.LibDense.matmul_plain_zero_apply 10 20000 256 (some .fp32) (k0_pay3 (F := Ideal) v3) v10 s d).trans ?_
  exact Finset.sum_congr rfl fun j _ => by rw [pay3_apply]

/-- The new counts at (s, 0): the old count plus the sum of the indicator matrix's row s over its 20000 lanes (the
    lane sum is a [10] vector viewed as a [10, 1] column; the lane index inserted at axis 1 of the reduced index s is
    (s, j)). -/
theorem pay5_apply (v3 : Vec Ideal S1x1x20000 .i32) (v17 : Vec Ideal S10x1 .f32) (s : Fin 10) :
    k0_pay5 (F := Ideal) v3 v17 (ix2 s (0 : Fin 1))
      = v17 (ix2 s (0 : Fin 1)) + ∑ j : Fin 20000, Cert.Spec.hit (Cert.Spec.sw s) (v3 (ix3 (0 : Fin 1) (0 : Fin 1) j)) := by
  unfold k0_pay5
  rw [shapeCast_self]
  rw [addf_apply]
  refine congrArg (v17 (ix2 s (0 : Fin 1)) + ·) ?_
  rw [shapeCast_apply _ _ (ix2 s (0 : Fin 1)) (ix1 s) (by
    rw [Shape.rowMajor_val_one, Shape.rowMajor_val_two]; simp)]
  refine (Ideal.multiReduction_add_single (k0_pay3 (F := Ideal) v3) 0x00000000#32 reduces_S10x20000_S10 (.inl rfl) rfl (ix1 s)).trans ?_
  refine Finset.sum_congr rfl fun j _ => ?_
  have e : reduces_S10x20000_S10.lift (ix1 s) j = ix2 s j := by
    funext a
    match a with
    | ⟨0, _⟩ => rfl
    | ⟨1, _⟩ => rfl
  rw [e]
  exact pay3_apply v3 s j

/-! ## The values copied out -/

/-- The sums copied out under a leading unit axis: entry (0, s, d) is entry (s, d) (the same row-major position). -/
theorem pay6_apply (v27 : Vec Ideal S10x256 .f32) (s : Fin 10) (d : Fin 256) :
    k0_pay6 (F := Ideal) v27 (ix3 (0 : Fin 1) s d) = v27 (ix2 s d) := by
  unfold k0_pay6
  exact shapeCast_apply _ _ (ix3 (0 : Fin 1) s d) (ix2 s d) (by
    rw [Shape.rowMajor_val_three, Shape.rowMajor_val_two]; simp)

/-- The counts copied out under a leading unit axis: entry (0, s, 0) is entry (s, 0). -/
theorem pay7_apply (v31 : Vec Ideal S10x1 .f32) (s : Fin 10) :
    k0_pay7 (F := Ideal) v31 (ix3 (0 : Fin 1) s (0 : Fin 1)) = v31 (ix2 s (0 : Fin 1)) := by
  unfold k0_pay7
  exact shapeCast_apply _ _ (ix3 (0 : Fin 1) s (0 : Fin 1)) (ix2 s (0 : Fin 1)) (by
    rw [Shape.rowMajor_val_three, Shape.rowMajor_val_two]; simp)

end Cert.Pay0

end
-- ==== Proof.KI.Value0.lean ====
/-
  The values of the first kernel's two output arrays after its run, on the extended reals.

  The grid has ten points, two halves of five tiles. At point t the first input window's block is rows
  t · 20000, …, t · 20000 + 19999 of the [200000, 256] source array, and the second's is row t of the [10, 1, 20000]
  array of sector words: a block's coordinate is the block index times the block size plus the coordinate inside the
  block, and the index maps are decided once over the ten points. Hence the body's contraction over the tile's rows
  is tile t's share of the sector sums, and its lane sum tile t's share of the sector counts, both as sums over the
  region's entry contents.

  The two scratch buffers follow the running sum of a sweep in halves: zero plus the tile at the first tile of a
  half, the previous value plus the tile elsewhere. By induction on the point they hold, entry by entry, the running
  sums of the tiles' shares.

  The output windows are written back only at the last tile of a half, the points 4 and 9, as the scratch buffers
  under a leading unit axis, at row t / 5 of the [2, 10, 256] and [2, 10, 1] output arrays. So what such a point writes
  back is its block of one function of the whole array, row k ↦ the running sum read at point 5 k + 4, and since the
  point 5 k + 4 covers row k the arrays end holding that function.
-/
import proofs.«409938_j78271484002324_3_alg».proof.Proof.KI.Region0
import proofs.«409938_j78271484002324_3_alg».proof.Proof.Pay0
import proofs.«409938_j78271484002324_3_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The row of the [10, 1, 20000] sector-word array that holds tile p (p modulo ten). -/
def secRow (p : ℕ) : Fin 10 := ⟨p % 10, Nat.mod_lt _ (by decide)⟩

/-- Tile p's share of the sum of sector s, column d, read off the region's entry contents. -/
def tileSum0 (c : Dev nD) (s : Fin 10) (d : Fin 256) (p : ℕ) : EReal :=
  ∑ j : Fin 20000, Cert.Spec.hit (Cert.Spec.sw s) (V c main_v0 (ix3 (secRow p) (0 : Fin 1) j)) * V c main_arg0 (ix2 (Cert.Spec.srow p j) d)

/-- Tile p's share of the number of rows of sector s, read off the region's entry contents. -/
def tileCnt0 (c : Dev nD) (s : Fin 10) (p : ℕ) : EReal :=
  ∑ j : Fin 20000, Cert.Spec.hit (Cert.Spec.sw s) (V c main_v0 (ix3 (secRow p) (0 : Fin 1) j))

/-! ## The index maps over the ten points -/

/-- The source window's block index at point t is (t, 0). -/
theorem idx0_0 : ∀ t : Fin cfg0.N, win0_0.index t (0 : Fin 2) = t.val ∧ win0_0.index t (1 : Fin 2) = 0 :=
  (by decide +kernel : ∀ t : Fin grid0.N, _)
/-- The sector words' block index at point t is (t, 0, 0). -/
theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, _)
/-- The sums' output block index at point t is (t / 5, 0, 0). -/
theorem idx0_2 : ∀ t : Fin cfg0.N, win0_2.index t (0 : Fin 3) = t.val / 5 ∧ win0_2.index t (1 : Fin 3) = 0 ∧ win0_2.index t (2 : Fin 3) = 0 :=
  (by decide +kernel : ∀ t : Fin grid0.N, _)
/-- The counts' output block index at point t is (t / 5, 0, 0). -/
theorem idx0_3 : ∀ t : Fin cfg0.N, win0_3.index t (0 : Fin 3) = t.val / 5 ∧ win0_3.index t (1 : Fin 3) = 0 ∧ win0_3.index t (2 : Fin 3) = 0 :=
  (by decide +kernel : ∀ t : Fin grid0.N, _)

/-! ## The input blocks at an index -/

/-- The source tile at point t. -/
abbrev xblk0 (c : Dev nD) (t : Fin cfg0.N) : Vec Ideal S20000x256 .f32 := iblk0 V c 0 t
/-- The sector words of the tile at point t. -/
abbrev wblk0 (c : Dev nD) (t : Fin cfg0.N) : Vec Ideal S1x1x20000 .i32 := iblk0 V c 1 t

/-- Row j, column d of the source tile at point t is row t · 20000 + j, column d of the source array. -/
theorem xblk0_apply (c : Dev nD) (t : Fin cfg0.N) (j : Fin 20000) (d : Fin 256) :
    xblk0 V c t (ix2 j d) = V c main_arg0 (ix2 (Cert.Spec.srow t.val j) d) := by
  obtain ⟨e0, e1⟩ := idx0_0 t
  have hN : t.val < 10 := lt_of_lt_of_eq t.isLt (show cfg0.N = 10 from N_0)
  unfold xblk0 iblk0
  rw [View.read_apply]
  show V c main_arg0 _ = V c main_arg0 _
  congr 1
  funext a
  apply Fin.ext
  match a with
  | ⟨0, _⟩ =>
    show win0_0.index t (0 : Fin 2) * 20000 + 1 * j.val = (t.val % 10) * 20000 + j.val
    rw [e0, Nat.mod_eq_of_lt hN]; omega
  | ⟨1, _⟩ =>
    show win0_0.index t (1 : Fin 2) * 256 + 1 * d.val = d.val
    rw [e1]; omega

/-- Word j of the tile at point t is word j of row t of the sector-word array. -/
theorem wblk0_apply (c : Dev nD) (t : Fin cfg0.N) (j : Fin 20000) :
    wblk0 V c t (ix3 (0 : Fin 1) (0 : Fin 1) j) = V c main_v0 (ix3 (secRow t.val) (0 : Fin 1) j) := by
  obtain ⟨e0, e1, e2⟩ := idx0_1 t
  have hN : t.val < 10 := lt_of_lt_of_eq t.isLt (show cfg0.N = 10 from N_0)
  unfold wblk0 iblk0
  rw [View.read_apply]
  show V c main_v0 _ = V c main_v0 _
  congr 1
  funext a
  apply Fin.ext
  match a with
  | ⟨0, _⟩ =>
    show win0_1.index t (0 : Fin 3) * 1 + 1 * 0 = t.val % 10
    rw [e0, Nat.mod_eq_of_lt hN]; omega
  | ⟨1, _⟩ =>
    show win0_1.index t (1 : Fin 3) * 1 + 1 * 0 = 0
    rw [e1]
  | ⟨2, _⟩ =>
    show win0_1.index t (2 : Fin 3) * 20000 + 1 * j.val = j.val
    rw [e2]; omega

/-! ## The running sums and counts at an index -/

/-- The tile's share of the sums, from the blocks at point t. -/
theorem tile0_sum (c : Dev nD) (t : Fin cfg0.N) (s : Fin 10) (d : Fin 256) :
    ∑ j : Fin 20000, Cert.Spec.hit (Cert.Spec.sw s) (wblk0 V c t (ix3 (0 : Fin 1) (0 : Fin 1) j)) * xblk0 V c t (ix2 j d)
      = tileSum0 V c s d t.val := by
  unfold tileSum0
  exact Finset.sum_congr rfl fun j _ => by rw [wblk0_apply, xblk0_apply]

/-- The tile's share of the counts, from the block of sector words at point t. -/
theorem tile0_cnt (c : Dev nD) (t : Fin cfg0.N) (s : Fin 10) :
    ∑ j : Fin 20000, Cert.Spec.hit (Cert.Spec.sw s) (wblk0 V c t (ix3 (0 : Fin 1) (0 : Fin 1) j))
      = tileCnt0 V c s t.val := by
  unfold tileCnt0
  exact Finset.sum_congr rfl fun j _ => by rw [wblk0_apply]

/-- One point's update of the sums at (s, d): the previous value plus tile t's share. -/
theorem sum_step (c : Dev nD) (t : Fin cfg0.N) (prev : Vec Ideal S10x256 .f32) (s : Fin 10) (d : Fin 256) :
    k0_pay4 (wblk0 V c t) (xblk0 V c t) prev (ix2 s d) = prev (ix2 s d) + tileSum0 V c s d t.val :=
  (Cert.Pay0.pay4_apply (wblk0 V c t) (xblk0 V c t) prev s d).trans (congrArg (prev (ix2 s d) + ·) (tile0_sum V c t s d))

/-- One point's update of the counts at (s, 0): the previous value plus tile t's share. -/
theorem cnt_step (c : Dev nD) (t : Fin cfg0.N) (prev : Vec Ideal S10x1 .f32) (s : Fin 10) :
    k0_pay5 (wblk0 V c t) prev (ix2 s (0 : Fin 1)) = prev (ix2 s (0 : Fin 1)) + tileCnt0 V c s t.val :=
  (Cert.Pay0.pay5_apply (wblk0 V c t) prev s).trans (congrArg (prev (ix2 s (0 : Fin 1)) + ·) (tile0_cnt V c t s))

/-- After point n the sums' scratch buffer holds at (s, d) the running sum of the tiles' shares: by induction on the
    point, the reset at the first tile of a half being the running sum's own. -/
theorem scr0_sum_apply (c : Dev nD) : ∀ (n : ℕ) (hn : n < cfg0.N) (s : Fin 10) (d : Fin 256),
    (scr0 V c n hn).1 (ix2 s d) = Cert.Spec.runAcc (tileSum0 V c s d) n
  | 0, hn, s, d => by
    show k0_pay4 (wblk0 V c ⟨0, hn⟩) (xblk0 V c ⟨0, hn⟩) (k0_pay1 (F := Ideal)) (ix2 s d) = 0 + tileSum0 V c s d 0
    rw [sum_step, Cert.Pay0.pay1_apply]
  | n + 1, hn, s, d => by
    have ih := scr0_sum_apply c n (Nat.lt_of_succ_lt hn) s d
    show _ = (if (n + 1) % 5 = 0 then 0 else Cert.Spec.runAcc (tileSum0 V c s d) n) + tileSum0 V c s d (n + 1)
    by_cases h : (n + 1) % 5 = 0
    · rw [if_pos h]
      have e : scr0 V c (n + 1) hn = (k0_pay4 (iblk0 V c 1 ⟨n + 1, hn⟩) (iblk0 V c 0 ⟨n + 1, hn⟩) (k0_pay1 (F := Ideal)), k0_pay5 (iblk0 V c 1 ⟨n + 1, hn⟩) (k0_pay2 (F := Ideal))) := if_pos h
      rw [e]
      show k0_pay4 (wblk0 V c ⟨n + 1, hn⟩) (xblk0 V c ⟨n + 1, hn⟩) (k0_pay1 (F := Ideal)) (ix2 s d) = _
      rw [sum_step, Cert.Pay0.pay1_apply]
    · rw [if_neg h]
      have e : scr0 V c (n + 1) hn = (k0_pay4 (iblk0 V c 1 ⟨n + 1, hn⟩) (iblk0 V c 0 ⟨n + 1, hn⟩) (scr0 V c n (Nat.lt_of_succ_lt hn)).1,
          k0_pay5 (iblk0 V c 1 ⟨n + 1, hn⟩) (scr0 V c n (Nat.lt_of_succ_lt hn)).2) := if_neg h
      rw [e]
      show k0_pay4 (wblk0 V c ⟨n + 1, hn⟩) (xblk0 V c ⟨n + 1, hn⟩) (scr0 V c n (Nat.lt_of_succ_lt hn)).1 (ix2 s d) = _
      rw [sum_step, ih]

/-- After point n the counts' scratch buffer holds at (s, 0) the running sum of the tiles' shares. -/
theorem scr0_cnt_apply (c : Dev nD) : ∀ (n : ℕ) (hn : n < cfg0.N) (s : Fin 10),
    (scr0 V c n hn).2 (ix2 s (0 : Fin 1)) = Cert.Spec.runAcc (tileCnt0 V c s) n
  | 0, hn, s => by
    show k0_pay5 (wblk0 V c ⟨0, hn⟩) (k0_pay2 (F := Ideal)) (ix2 s (0 : Fin 1)) = 0 + tileCnt0 V c s 0
    rw [cnt_step, Cert.Pay0.pay2_apply]
  | n + 1, hn, s => by
    have ih := scr0_cnt_apply c n (Nat.lt_of_succ_lt hn) s
    show _ = (if (n + 1) % 5 = 0 then 0 else Cert.Spec.runAcc (tileCnt0 V c s) n) + tileCnt0 V c s (n + 1)
    by_cases h : (n + 1) % 5 = 0
    · rw [if_pos h]
      have e : scr0 V c (n + 1) hn = (k0_pay4 (iblk0 V c 1 ⟨n + 1, hn⟩) (iblk0 V c 0 ⟨n + 1, hn⟩) (k0_pay1 (F := Ideal)), k0_pay5 (iblk0 V c 1 ⟨n + 1, hn⟩) (k0_pay2 (F := Ideal))) := if_pos h
      rw [e]
      show k0_pay5 (wblk0 V c ⟨n + 1, hn⟩) (k0_pay2 (F := Ideal)) (ix2 s (0 : Fin 1)) = _
      rw [cnt_step, Cert.Pay0.pay2_apply]
    · rw [if_neg h]
      have e : scr0 V c (n + 1) hn = (k0_pay4 (iblk0 V c 1 ⟨n + 1, hn⟩) (iblk0 V c 0 ⟨n + 1, hn⟩) (scr0 V c n (Nat.lt_of_succ_lt hn)).1,
          k0_pay5 (iblk0 V c 1 ⟨n + 1, hn⟩) (scr0 V c n (Nat.lt_of_succ_lt hn)).2) := if_neg h
      rw [e]
      show k0_pay5 (wblk0 V c ⟨n + 1, hn⟩) (scr0 V c n (Nat.lt_of_succ_lt hn)).2 (ix2 s (0 : Fin 1)) = _
      rw [cnt_step, ih]

/-! ## The output arrays after the run -/

/-- What the sums' output array ends holding: row k is the running sum read at the last tile of half k. -/
def G0_2 (c : Dev nD) : S2x10x256.Idx → EReal :=
  fun i => Cert.Spec.runAcc (tileSum0 V c (i 1) (i 2)) (5 * (i 0).val + 4)

/-- What the counts' output array ends holding. -/
def G0_3 (c : Dev nD) : S2x10x1.Idx → EReal :=
  fun i => Cert.Spec.runAcc (tileCnt0 V c (i 1)) (5 * (i 0).val + 4)

/-- The sums' output block at point t sits at row t / 5 of the array, whole on the other two axes. -/
theorem emb0_2 (t : Fin cfg0.N) (k : Fin 2) (hk : k.val = t.val / 5) (s : Fin 10) (d : Fin 256) :
    ((cfg0.win 2).blk t).view.emb (ix3 (0 : Fin 1) s d) = ix3 k s d := by
  obtain ⟨e0, e1, e2⟩ := idx0_2 t
  funext a
  apply Fin.ext
  match a with
  | ⟨0, _⟩ => show win0_2.index t (0 : Fin 3) * 1 + 1 * 0 = k.val; rw [e0, hk]; omega
  | ⟨1, _⟩ => show win0_2.index t (1 : Fin 3) * 10 + 1 * s.val = s.val; rw [e1]; omega
  | ⟨2, _⟩ => show win0_2.index t (2 : Fin 3) * 256 + 1 * d.val = d.val; rw [e2]; omega

/-- The counts' output block at point t sits at row t / 5 of the array, whole on the other two axes. -/
theorem emb0_3 (t : Fin cfg0.N) (k : Fin 2) (hk : k.val = t.val / 5) (s : Fin 10) :
    ((cfg0.win 3).blk t).view.emb (ix3 (0 : Fin 1) s (0 : Fin 1)) = ix3 k s (0 : Fin 1) := by
  obtain ⟨e0, e1, e2⟩ := idx0_3 t
  funext a
  apply Fin.ext
  match a with
  | ⟨0, _⟩ => show win0_3.index t (0 : Fin 3) * 1 + 1 * 0 = k.val; rw [e0, hk]; omega
  | ⟨1, _⟩ => show win0_3.index t (1 : Fin 3) * 10 + 1 * s.val = s.val; rw [e1]; omega
  | ⟨2, _⟩ => show win0_3.index t (2 : Fin 3) * 1 + 1 * 0 = 0; rw [e2]

/-- What a point at the last tile of a half writes back is its block of G0_2. -/
theorem flushed0_2 (c : Dev nD) (t : Fin cfg0.N) (hf : (cfg0.win 2).flush t = true) :
    (dat0 V c).flushed 2 t = ((cfg0.win 2).blk t).view.read (Elt Ideal) (G0_2 V c) := by
  have h4 : t.val % 5 = 4 := (flush0_2 t).mp hf
  have hN : t.val < 10 := lt_of_lt_of_eq t.isLt (show cfg0.N = 10 from N_0)
  show (cfg0.win 2).cut (grid0.coords t) ((dat0 V c).after 2 t) = _
  rw [after0_2]
  funext y
  obtain ⟨s, d, rfl⟩ : ∃ (s : Fin 10) (d : Fin 256), y = ix3 (0 : Fin 1) s d :=
    ⟨y 1, y 2, funext fun a => by
      match a with
      | ⟨0, _⟩ => exact Subsingleton.elim (α := Fin 1) _ _
      | ⟨1, _⟩ => rfl
      | ⟨2, _⟩ => rfl⟩
  rw [View.read_apply, emb0_2 t ⟨t.val / 5, by omega⟩ rfl s d]
  show k0_pay6 (F := Ideal) (scr0 V c t.val t.isLt).1 (ix3 (0 : Fin 1) s d) = Cert.Spec.runAcc (tileSum0 V c s d) (5 * (t.val / 5) + 4)
  rw [Cert.Pay0.pay6_apply, scr0_sum_apply]
  congr 1
  omega

/-- What a point at the last tile of a half writes back is its block of G0_3. -/
theorem flushed0_3 (c : Dev nD) (t : Fin cfg0.N) (hf : (cfg0.win 3).flush t = true) :
    (dat0 V c).flushed 3 t = ((cfg0.win 3).blk t).view.read (Elt Ideal) (G0_3 V c) := by
  have h4 : t.val % 5 = 4 := (flush0_3 t).mp hf
  have hN : t.val < 10 := lt_of_lt_of_eq t.isLt (show cfg0.N = 10 from N_0)
  show (cfg0.win 3).cut (grid0.coords t) ((dat0 V c).after 3 t) = _
  rw [after0_3]
  funext y
  obtain ⟨s, rfl⟩ : ∃ (s : Fin 10), y = ix3 (0 : Fin 1) s (0 : Fin 1) :=
    ⟨y 1, funext fun a => by
      match a with
      | ⟨0, _⟩ => exact Subsingleton.elim (α := Fin 1) _ _
      | ⟨1, _⟩ => rfl
      | ⟨2, _⟩ => exact Subsingleton.elim (α := Fin 1) _ _⟩
  rw [View.read_apply, emb0_3 t ⟨t.val / 5, by omega⟩ rfl s]
  show k0_pay7 (F := Ideal) (scr0 V c t.val t.isLt).2 (ix3 (0 : Fin 1) s (0 : Fin 1)) = Cert.Spec.runAcc (tileCnt0 V c s) (5 * (t.val / 5) + 4)
  rw [Cert.Pay0.pay7_apply, scr0_cnt_apply]
  congr 1
  omega

/-- The sums' output array after the run: row k holds the running sums read at the last tile of half k, the point
    5 k + 4, whose block is that row. -/
theorem arrAt0_2 (c : Dev nD) (k : Fin 2) (s : Fin 10) (d : Fin 256) :
    (dat0 V c).arrAt 2 cfg0.N (ix3 k s d) = Cert.Spec.runAcc (tileSum0 V c s d) (5 * k.val + 4) := by
  have hN : cfg0.N = 10 := N_0
  have hk : k.val < 2 := k.isLt
  have hlt : 5 * k.val + 4 < cfg0.N := by omega
  have hf : (cfg0.win 2).flush ⟨5 * k.val + 4, hlt⟩ = true := (flush0_2 _).mpr (by show (5 * k.val + 4) % 5 = 4; omega)
  have hmem : ix3 k s d ∈ ((cfg0.win 2).blk ⟨5 * k.val + 4, hlt⟩).view.set := by
    rw [← emb0_2 ⟨5 * k.val + 4, hlt⟩ k (by show k.val = (5 * k.val + 4) / 5; omega) s d]
    exact View.emb_mem_set _ _
  exact (dat0 V c).arrAt_apply_of_mem 2 (G0_2 V c) (flushed0_2 V c) cfg0.N ⟨5 * k.val + 4, hlt⟩ (ix3 k s d) hlt hf hmem

/-- The counts' output array after the run: row k holds the running counts read at the point 5 k + 4. -/
theorem arrAt0_3 (c : Dev nD) (k : Fin 2) (s : Fin 10) :
    (dat0 V c).arrAt 3 cfg0.N (ix3 k s (0 : Fin 1)) = Cert.Spec.runAcc (tileCnt0 V c s) (5 * k.val + 4) := by
  have hN : cfg0.N = 10 := N_0
  have hk : k.val < 2 := k.isLt
  have hlt : 5 * k.val + 4 < cfg0.N := by omega
  have hf : (cfg0.win 3).flush ⟨5 * k.val + 4, hlt⟩ = true := (flush0_3 _).mpr (by show (5 * k.val + 4) % 5 = 4; omega)
  have hmem : ix3 k s (0 : Fin 1) ∈ ((cfg0.win 3).blk ⟨5 * k.val + 4, hlt⟩).view.set := by
    rw [← emb0_3 ⟨5 * k.val + 4, hlt⟩ k (by show k.val = (5 * k.val + 4) / 5; omega) s]
    exact View.emb_mem_set _ _
  exact (dat0 V c).arrAt_apply_of_mem 3 (G0_3 V c) (flushed0_3 V c) cfg0.N ⟨5 * k.val + 4, hlt⟩ (ix3 k s (0 : Fin 1)) hlt hf hmem

end Cert.KernelIdeal.Hand

end
-- ==== Proof.Pay1.lean ====
/-
  The pure payload terms of the distance kernel, read at an index, on the extended reals.

  The running sum is reset to zero; its last value is stored under a leading unit axis; the centres are the two
  halves' sums added, divided by the two halves' counts added; and one step of the sweep adds to the running sum the
  sum over a tile's 10000 rows of the Euclidean norm of  y[r, :] - centre(bucket r) + eps,  the centre of a row's
  bucket picked by the product of the indicator matrix of the buckets with the matrix of centres.
-/
import proofs.«409938_j78271484002324_3_alg».proof.Proof.Gen.KernelIdeal.Skeleton
import proofs.«409938_j78271484002324_3_alg».proof.Proof.Spec
import proofs.«409938_j78271484002324_3_alg».proof.Proof.LibContract
import Idealize.ShloMosaic.PureOps.Ideal.Laws
import Idealize.ShloMosaic.Lib.ValueIdx
import Idealize.ShloMosaic.Lib.ValueLayout
import Idealize.ShloMosaic.Lib.Pipeline.Value

set_option synthInstance.maxSize 4096

noncomputable section

namespace Cert.Pay1

open Cert.KernelIdeal Cert.KernelIdeal.Gen Idealize.ShloMosaic Idealize.ShloMosaic.ValueIdx

/-! ## Small readings shared by the terms -/

/-- The comparison bit of two words, zero-extended and read as a signed integer, is the indicator of their equality. -/
theorem onehot_eq (a b : BitVec 32) :
    ((((IntOp.cmpi .eq a b).setWidth 32).toInt : ℝ) : EReal) = Cert.Spec.hit a b := by
  unfold Cert.Spec.hit IntOp.cmpi
  by_cases h : a = b
  · rw [if_pos h]; subst h; simp
  · rw [if_neg h]
    have hb : (a == b) = false := by simpa using h
    simp [hb]

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the leading axis of a `[2, 10, 256]` array, at `(s, d)`: the two halves' entries added. -/
theorem sum_lead256 (v : FVec Ideal S2x10x256 .f32) (s : Fin 10) (d : Fin 256) :
    multiReduction .add [0] S10x256 v 0x00000000#32 reduces_S2x10x256_S10x256 (.inl rfl) rfl (ix2 s d)
      = ∑ k : Fin 2, v (ix3 k s d) := by
  refine (Ideal.multiReduction_add_single v 0x00000000#32 reduces_S2x10x256_S10x256 (.inl rfl) rfl (ix2 s d)).trans ?_
  refine Finset.sum_congr rfl fun k _ => congrArg v ?_
  funext c
  apply Fin.ext
  match c with
  | ⟨0, _⟩ => rfl
  | ⟨1, _⟩ => rfl
  | ⟨2, _⟩ => rfl

/-- The sum over the leading axis of a `[2, 10, 1]` array, at `(s, d)`. -/
theorem sum_lead1 (v : FVec Ideal S2x10x1 .f32) (s : Fin 10) (d : Fin 1) :
    multiReduction .add [0] S10x1 v 0x00000000#32 reduces_S2x10x1_S10x1 (.inl rfl) rfl (ix2 s d)
      = ∑ k : Fin 2, v (ix3 k s d) := by
  refine (Ideal.multiReduction_add_single v 0x00000000#32 reduces_S2x10x1_S10x1 (.inl rfl) rfl (ix2 s d)).trans ?_
  refine Finset.sum_congr rfl fun k _ => congrArg v ?_
  funext c
  apply Fin.ext
  match c with
  | ⟨0, _⟩ => rfl
  | ⟨1, _⟩ => rfl
  | ⟨2, _⟩ => rfl

/-! ## The reset value, the stored result and the centres -/

/-- The running sum's reset value is zero at every index. -/
theorem pay2_apply (i : S1x1.Idx) : k1_pay2 (F := Ideal) i = 0 := by
  show shapeCast S1x1 (broadcast S1x1 (Scalar.ofBits (F := Ideal) .f32 0x00000000#32)) shapeCasts_S1x1_S1x1 i = 0
  rw [shapeCast_self]
  exact Ideal.ofBits_zero_f32

/-- The stored result is the running sum's one entry under a leading unit axis. -/
theorem pay1_apply (v41 : Vec Ideal S1x1 .f32) : k1_pay1 (F := Ideal) v41 (ix3 0 0 0) = v41 (ix2 0 0) :=
  shapeCast_ab_1ab_apply v41 shapeCasts_S1x1_S1x1x1 (0 : Fin 1) (0 : Fin 1) (0 : Fin 1)

/-- The centre of sector `s`, column `d`: the two halves' sums added, divided by the two halves' counts added. -/
theorem pay3_apply (v45 : Vec Ideal S2x10x256 .f32) (v48 : Vec Ideal S2x10x1 .f32) (s : Fin 10) (d : Fin 256) :
    k1_pay3 (F := Ideal) v45 v48 (ix2 s d)
      = Ideal.div (∑ k : Fin 2, v45 (ix3 k s d)) (∑ k : Fin 2, v48 (ix3 k s 0)) := by
  show shapeCast S10x256 (divf
      (multiReduction (F := Ideal) .add [0] S10x256 (shapeCast S2x10x256 v45 shapeCasts_S2x10x256_S2x10x256) 0x00000000#32
        reduces_S2x10x256_S10x256 (.inl rfl) rfl)
      (broadcastTo S10x256
        (multiReduction (F := Ideal) .add [0] S10x1 (shapeCast S2x10x1 v48 shapeCasts_S2x10x1_S2x10x1) 0x00000000#32
          reduces_S2x10x1_S10x1 (.inl rfl) rfl) broadcasts_S10x1_S10x256)) shapeCasts_S10x256_S10x256 (ix2 s d) = _
  rw [shapeCast_self, shapeCast_self, shapeCast_self, divf_apply, broadcastTo_a1_ab_apply, sum_lead256, sum_lead1]

/-! ## One step of the sweep, stage by stage -/

/-- The column of buckets: each row's position divided by the width, floored, converted to a word and clamped into
    [0, 9]. -/
def bcol (v3 : Vec Ideal S10000x1 .f32) : IVec S10000x1 32 :=
  minsi (broadcast S10000x1 9#32) (maxsi (broadcast S10000x1 0#32)
    (fptosi 32 (floor (divf (F := Ideal) (shapeCast S10000x1 v3 shapeCasts_S10000x1_S10000x1)
      (broadcast S10000x1 (Scalar.ofBits (F := Ideal) .f32 0x3DCCCCCD#32))))))

/-- The bucket column at row `r` is the bucket of that row's position. -/
theorem bcol_apply (v3 : Vec Ideal S10000x1 .f32) (r : Fin 10000) :
    bcol v3 (ix2 r (0 : Fin 1)) = Cert.Spec.bucket (v3 (ix2 r 0)) := by
  unfold bcol Cert.Spec.bucket
  rw [shapeCast_self]
  rfl

/-- The indicator matrix of the buckets: entry `(r, s)` is one when row `r`'s bucket is sector `s`, else zero. -/
def onehot (v3 : Vec Ideal S10000x1 .f32) : FVec Ideal S10000x10 .f32 :=
  sitofp .f32 (extui 32 (cmpi .eq (broadcastTo S10000x10 (bcol v3) broadcasts_S10000x1_S10000x10)
    (iota .tc S10000x10 32 [1] iota_S10000x10_d1_w32)) natLt_1_32)

/-- The indicator matrix at `(r, s)` is the indicator of row `r`'s bucket being the word of sector `s`. -/
theorem onehot_apply (v3 : Vec Ideal S10000x1 .f32) (r : Fin 10000) (s : Fin 10) :
    onehot v3 (ix2 r s) = Cert.Spec.hit (Cert.Spec.bucket (v3 (ix2 r 0))) (Cert.Spec.sw s) := by
  show ((((IntOp.cmpi .eq (broadcastTo S10000x10 (bcol v3) broadcasts_S10000x1_S10000x10 (ix2 r s))
      (iota .tc S10000x10 32 [1] iota_S10000x10_d1_w32 (ix2 r s))).setWidth 32).toInt : ℝ) : EReal) = _
  rw [broadcastTo_a1_ab_apply, iota_single_apply, bcol_apply]
  exact onehot_eq _ _

/-- The offset difference of a target row from the centre of its bucket: the row, minus the indicator matrix times
    the centres, plus the offset. -/
def cdiff (v3 : Vec Ideal S10000x1 .f32) (v18 : Vec Ideal S10x256 .f32) (v20 : Vec Ideal S10000x256 .f32) :
    FVec Ideal S10000x256 .f32 :=
  addf (subf v20 (matmul (φ₂ := .f32) dot_S10000x10_S10x256_S10000x256_1_0_0_1_n_n (some .fp32) (onehot v3) v18
      (constant (F := Ideal) S10000x256 .f32 0x00000000#32)))
    (broadcast S10000x256 (Scalar.ofBits (F := Ideal) .f32 0x358637BD#32))

/-- The difference at `(r, d)`: the product with the indicator matrix is the sum over the ten sectors. -/
theorem cdiff_apply (v3 : Vec Ideal S10000x1 .f32) (v18 : Vec Ideal S10x256 .f32) (v20 : Vec Ideal S10000x256 .f32)
    (r : Fin 10000) (d : Fin 256) :
    cdiff v3 v18 v20 (ix2 r d)
      = v20 (ix2 r d) - (∑ s : Fin 10, Cert.Spec.hit (Cert.Spec.bucket (v3 (ix2 r 0))) (Cert.Spec.sw s) * v18 (ix2 s d))
          + Cert.Spec.epsW := by
  show v20 (ix2 r d) - matmul (φ₂ := .f32) (DotDims.plain 10000 10 256) (some .fp32) (onehot v3) v18
      (constant (F := Ideal) (⟨2, ![10000, 256]⟩ : Shape) .f32 0x00000000#32) (ix2 r d) + Cert.Spec.epsW = _
  rw [Cert.LibDense.matmul_plain_zero_apply]
  simp only [onehot_apply]

/-- The squared norms, one per row: the sum over the 256 columns of the squared differences. -/
def sqsum (v3 : Vec Ideal S10000x1 .f32) (v18 : Vec Ideal S10x256 .f32) (v20 : Vec Ideal S10000x256 .f32) :
    FVec Ideal S10000 .f32 :=
  multiReduction (F := Ideal) .add [1] S10000 (mulf (cdiff v3 v18 v20) (cdiff v3 v18 v20)) 0x00000000#32
    reduces_S10000x256_S10000 (.inl rfl) rfl

/-- The squared norm of row `r` is the sum over the columns. -/
theorem sqsum_apply (v3 : Vec Ideal S10000x1 .f32) (v18 : Vec Ideal S10x256 .f32) (v20 : Vec Ideal S10000x256 .f32)
    (r : Fin 10000) :
    sqsum v3 v18 v20 (ix1 r) = ∑ d : Fin 256, cdiff v3 v18 v20 (ix2 r d) * cdiff v3 v18 v20 (ix2 r d) := by
  unfold sqsum
  refine (Ideal.multiReduction_add_single _ 0x00000000#32 reduces_S10000x256_S10000 (.inl rfl) rfl (ix1 r)).trans ?_
  refine Finset.sum_congr rfl fun k _ => ?_
  have e : reduces_S10000x256_S10000.lift (ix1 r) k = ix2 r k := by
    funext c
    apply Fin.ext
    match c with
    | ⟨0, _⟩ => rfl
    | ⟨1, _⟩ => rfl
  rw [e]
  rfl

/-- The norms, as a column: the square roots of the squared norms. -/
def norms (v3 : Vec Ideal S10000x1 .f32) (v18 : Vec Ideal S10x256 .f32) (v20 : Vec Ideal S10000x256 .f32) :
    FVec Ideal S10000x1 .f32 :=
  sqrt (shapeCast S10000x1 (sqsum v3 v18 v20) shapeCasts_S10000_S10000x1)

/-- The norm of row `r`: a vector read as a column has the same entries. -/
theorem norms_apply (v3 : Vec Ideal S10000x1 .f32) (v18 : Vec Ideal S10x256 .f32) (v20 : Vec Ideal S10000x256 .f32)
    (r : Fin 10000) :
    norms v3 v18 v20 (ix2 r (0 : Fin 1)) = Ideal.sqrt (sqsum v3 v18 v20 (ix1 r)) := by
  show Ideal.sqrt (shapeCast S10000x1 (sqsum v3 v18 v20) shapeCasts_S10000_S10000x1 (ix2 r (0 : Fin 1))) = _
  refine congrArg Ideal.sqrt (shapeCast_apply _ shapeCasts_S10000_S10000x1 _ (ix1 r) ?_)
  rw [Shape.rowMajor_val_one, Shape.rowMajor_val_two]
  show r.val = r.val * 1 + 0
  omega

/-- A column summed over all its entries after a unit axis is put in front. -/
theorem total_apply (w : FVec Ideal S10000x1 .f32) (j : S1.Idx) :
    multiReduction (F := Ideal) .add [1, 2] S1 (shapeCast S1x10000x1 w shapeCasts_S10000x1_S1x10000x1) 0x00000000#32
        reduces_S1x10000x1_S1 (.inl rfl) rfl j
      = ∑ r : Fin 10000, w (ix2 r (0 : Fin 1)) := by
  refine (Ideal.multiReduction_add_total _ 0x00000000#32 reduces_S1x10000x1_S1 (fun b => ?_) (.inl rfl) rfl j).trans ?_
  · match b with
    | ⟨0, _⟩ => rfl
  · show ∑ i : S1x10000x1.Idx, w (Shape.reshapeEquiv shapeCasts_S10000x1_S1x10000x1 i) = _
    rw [Equiv.sum_comp (Shape.reshapeEquiv shapeCasts_S10000x1_S1x10000x1) w, sum_idx2]
    exact Finset.sum_congr rfl fun r _ => Fin.sum_univ_one _

/-- The step's term, written over the stages above: the running sum plus the total of the norms, the total read out of
    its one entry and spread over the running sum's one entry. -/
theorem k1_pay4_eq (v3 : Vec Ideal S10000x1 .f32) (v18 : Vec Ideal S10x256 .f32) (v20 : Vec Ideal S10000x256 .f32)
    (v28 : Vec Ideal S1x1 .f32) :
    k1_pay4 (F := Ideal) v3 v18 v20 v28
      = shapeCast S1x1 (addf (F := Ideal) v28 (broadcast S1x1 (extractAt ![0, 0, 0]
          (shapeCast S1x1x1 (multiReduction (F := Ideal) .add [1, 2] S1
            (shapeCast S1x10000x1 (norms v3 v18 v20) shapeCasts_S10000x1_S1x10000x1) 0x00000000#32
            reduces_S1x10000x1_S1 (.inl rfl) rfl) shapeCasts_S1_S1x1x1) inpos_S1x1x1_p0_0_0))) shapeCasts_S1x1_S1x1 :=
  rfl

/-- One step of the sweep: the running sum plus the sum over the tile's rows of the norm of the offset difference from
    the centre of the row's bucket. -/
theorem pay4_apply (v3 : Vec Ideal S10000x1 .f32) (v18 : Vec Ideal S10x256 .f32) (v20 : Vec Ideal S10000x256 .f32)
    (v28 : Vec Ideal S1x1 .f32) :
    k1_pay4 (F := Ideal) v3 v18 v20 v28 (ix2 0 0)
      = v28 (ix2 0 0) + ∑ r : Fin 10000, Ideal.sqrt (∑ d : Fin 256,
          (v20 (ix2 r d) - (∑ s : Fin 10, Cert.Spec.hit (Cert.Spec.bucket (v3 (ix2 r 0))) (Cert.Spec.sw s) * v18 (ix2 s d)) + Cert.Spec.epsW)
        * (v20 (ix2 r d) - (∑ s : Fin 10, Cert.Spec.hit (Cert.Spec.bucket (v3 (ix2 r 0))) (Cert.Spec.sw s) * v18 (ix2 s d)) + Cert.Spec.epsW)) := by
  rw [k1_pay4_eq, shapeCast_self]
  refine congrArg (fun z => v28 (ix2 0 0) + z) ((total_apply (norms v3 v18 v20) _).trans ?_)
  refine Finset.sum_congr rfl fun r _ => ?_
  rw [norms_apply, sqsum_apply]
  refine congrArg Ideal.sqrt (Finset.sum_congr rfl fun d _ => ?_)
  rw [cdiff_apply]

end Cert.Pay1

end
-- ==== Proof.KI.Value1.lean ====
/-
  The value of the second region's output array, on the extended reals.

  The region's first two windows are the whole arrays of the two halves' sector sums [2, 10, 256] and counts
  [2, 10, 1] at every point; its next two are, at point t, rows t·10000 … t·10000 + 9999 of the target rows
  [100000, 256] and of the column of positions [100000, 1]. The centres scratch holds, after every point, the two
  halves' sums added divided by the two halves' counts added (set at the first tile of a half, kept otherwise); the
  running-sum scratch holds the running sum of the tiles' sums of norms, restarted at the first tile of a half. The
  output block is written back at the last tile of a half, at row t / 5 of the array [2, 1, 1]: so row k of the array
  ends holding half k's sum of norms.
-/
import proofs.«409938_j78271484002324_3_alg».proof.Proof.KI.Region1
import proofs.«409938_j78271484002324_3_alg».proof.Proof.Pay1
import proofs.«409938_j78271484002324_3_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The centres as the second region finds them: from the two halves' sums and counts in its first two windows' arrays. -/
def cen1 (c : Dev nD) (s : Fin 10) (d : Fin 256) : EReal :=
  Ideal.div (∑ k : Fin 2, V c main_v1_0 (ix3 k s d)) (∑ k : Fin 2, V c main_v1_1 (ix3 k s (0 : Fin 1)))

/-- The positions as a flat array, read off the column the region finds. -/
def tt1 (c : Dev nD) : Cert.Spec.ST.Idx → EReal := fun i => V c main_v2 (ix2 (i 0) (0 : Fin 1))

theorem idx1_0 : ∀ t : Fin cfg1.N, win1_0.index t (0 : Fin 3) = 0 ∧ win1_0.index t (1 : Fin 3) = 0 ∧ win1_0.index t (2 : Fin 3) = 0 :=
  (by decide +kernel : ∀ t : Fin grid1.N, _)
theorem idx1_1 : ∀ t : Fin cfg1.N, win1_1.index t (0 : Fin 3) = 0 ∧ win1_1.index t (1 : Fin 3) = 0 ∧ win1_1.index t (2 : Fin 3) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 3) = t.val / 5 ∧ win1_4.index t (1 : Fin 3) = 0 ∧ win1_4.index t (2 : Fin 3) = 0 :=
  (by decide +kernel : ∀ t : Fin grid1.N, _)

theorem iblk1_0_eq (c : Dev nD) (t : Fin cfg1.N) :
    (iblk1 V c 0 t : Vec Ideal S2x10x256 .f32) = V c main_v1_0 := by
  obtain ⟨e0, e1, e2⟩ := idx1_0 t
  funext j
  unfold iblk1
  rw [View.read_apply]
  show V c main_v1_0 _ = V c main_v1_0 j
  congr 1
  funext a
  apply Fin.ext
  match a with
  | ⟨0, _⟩ => show win1_0.index t (0 : Fin 3) * 2 + 1 * (j 0).val = (j 0).val; rw [e0]; omega
  | ⟨1, _⟩ => show win1_0.index t (1 : Fin 3) * 10 + 1 * (j 1).val = (j 1).val; rw [e1]; omega
  | ⟨2, _⟩ => show win1_0.index t (2 : Fin 3) * 256 + 1 * (j 2).val = (j 2).val; rw [e2]; omega

theorem iblk1_1_eq (c : Dev nD) (t : Fin cfg1.N) :
    (iblk1 V c 1 t : Vec Ideal S2x10x1 .f32) = V c main_v1_1 := by
  obtain ⟨e0, e1, e2⟩ := idx1_1 t
  funext j
  unfold iblk1
  rw [View.read_apply]
  show V c main_v1_1 _ = V c main_v1_1 j
  congr 1
  funext a
  apply Fin.ext
  match a with
  | ⟨0, _⟩ => show win1_1.index t (0 : Fin 3) * 2 + 1 * (j 0).val = (j 0).val; rw [e0]; omega
  | ⟨1, _⟩ => show win1_1.index t (1 : Fin 3) * 10 + 1 * (j 1).val = (j 1).val; rw [e1]; omega
  | ⟨2, _⟩ => show win1_1.index t (2 : Fin 3) * 1 + 1 * (j 2).val = (j 2).val; rw [e2]; omega

theorem iblk1_2_apply (c : Dev nD) (t : Fin cfg1.N) (r : Fin 10000) (d : Fin 256) :
    (iblk1 V c 2 t : Vec Ideal S10000x256 .f32) (ix2 r d) = V c main_arg2 (ix2 (Cert.Spec.trow t.val r) d) := by
  obtain ⟨e0, e1⟩ := idx1_2 t
  have hN : t.val < 10 := lt_of_lt_of_eq t.isLt (show cfg1.N = 10 from N_1)
  unfold iblk1
  rw [View.read_apply]
  show V c main_arg2 _ = V c main_arg2 _
  congr 1
  funext a
  apply Fin.ext
  match a with
  | ⟨0, _⟩ => show win1_2.index t (0 : Fin 2) * 10000 + 1 * r.val = (t.val % 10) * 10000 + r.val; rw [e0, Nat.mod_eq_of_lt hN]; omega
  | ⟨1, _⟩ => show win1_2.index t (1 : Fin 2) * 256 + 1 * d.val = d.val; rw [e1]; omega

theorem iblk1_3_apply (c : Dev nD) (t : Fin cfg1.N) (r : Fin 10000) :
    (iblk1 V c 3 t : Vec Ideal S10000x1 .f32) (ix2 r (0 : Fin 1)) = V c main_v2 (ix2 (Cert.Spec.trow t.val r) (0 : Fin 1)) := by
  obtain ⟨e0, e1⟩ := idx1_3 t
  have hN : t.val < 10 := lt_of_lt_of_eq t.isLt (show cfg1.N = 10 from N_1)
  unfold iblk1
  rw [View.read_apply]
  show V c main_v2 _ = V c main_v2 _
  congr 1
  funext a
  apply Fin.ext
  match a with
  | ⟨0, _⟩ => show win1_3.index t (0 : Fin 2) * 10000 + 1 * r.val = (t.val % 10) * 10000 + r.val; rw [e0, Nat.mod_eq_of_lt hN]; omega
  | ⟨1, _⟩ => show win1_3.index t (1 : Fin 2) * 1 + 1 * 0 = 0; rw [e1]

/-- The centres' term of arrays that are the two halves' sums and counts. -/
theorem cen_of (c : Dev nD) (v45 : Vec Ideal S2x10x256 .f32) (v48 : Vec Ideal S2x10x1 .f32)
    (h45 : v45 = V c main_v1_0) (h48 : v48 = V c main_v1_1) (s : Fin 10) (d : Fin 256) :
    k1_pay3 (F := Ideal) v45 v48 (ix2 s d) = cen1 V c s d := by
  subst h45 h48
  exact Cert.Pay1.pay3_apply _ _ s d

/-- One step of the sweep at tile p, over blocks that are the tile's rows and positions and centres that are the region's. -/
theorem acc_step (c : Dev nD) (v3 : Vec Ideal S10000x1 .f32) (v18 : Vec Ideal S10x256 .f32) (v20 : Vec Ideal S10000x256 .f32)
    (v28 : Vec Ideal S1x1 .f32) (p : ℕ)
    (h3 : ∀ r : Fin 10000, v3 (ix2 r (0 : Fin 1)) = V c main_v2 (ix2 (Cert.Spec.trow p r) (0 : Fin 1)))
    (h18 : ∀ (s : Fin 10) (d : Fin 256), v18 (ix2 s d) = cen1 V c s d)
    (h20 : ∀ (r : Fin 10000) (d : Fin 256), v20 (ix2 r d) = V c main_arg2 (ix2 (Cert.Spec.trow p r) d)) :
    k1_pay4 (F := Ideal) v3 v18 v20 v28 (ix2 0 0)
      = v28 (ix2 0 0) + Cert.Spec.tileNorm (cen1 V c) (V c main_arg2) (tt1 V c) p := by
  rw [Cert.Pay1.pay4_apply]
  simp only [h3, h18, h20]
  rfl

/-- The centres scratch holds the region's centres after every point: set at the first tile of a half, kept otherwise. -/
theorem scr1_cen_apply (c : Dev nD) : ∀ (n : ℕ) (hn : n < cfg1.N) (s : Fin 10) (d : Fin 256),
    (scr1 V c n hn).1 (ix2 s d) = cen1 V c s d
  | 0, hn, s, d =>
    cen_of V c (iblk1 V c 0 ⟨0, hn⟩) (iblk1 V c 1 ⟨0, hn⟩) (iblk1_0_eq V c ⟨0, hn⟩) (iblk1_1_eq V c ⟨0, hn⟩) s d
  | n + 1, hn, s, d => by
    by_cases h : (n + 1) % 5 = 0
    · have e := scr1_first V c ⟨n + 1, hn⟩ h
      rw [show scr1 V c (n + 1) hn = _ from e]
      dsimp only
      exact cen_of V c (iblk1 V c 0 ⟨n + 1, hn⟩) (iblk1 V c 1 ⟨n + 1, hn⟩) (iblk1_0_eq V c ⟨n + 1, hn⟩) (iblk1_1_eq V c ⟨n + 1, hn⟩) s d
    · have e := scr1_next V c ⟨n + 1, hn⟩ h
      rw [show scr1 V c (n + 1) hn = _ from e]
      dsimp only
      exact scr1_cen_apply c n _ s d

/-- The running-sum scratch after point n is the running sum of the tiles' sums of norms. -/
theorem scr1_acc_apply (c : Dev nD) : ∀ (n : ℕ) (hn : n < cfg1.N),
    (scr1 V c n hn).2 (ix2 (0 : Fin 1) (0 : Fin 1)) = Cert.Spec.runAcc (Cert.Spec.tileNorm (cen1 V c) (V c main_arg2) (tt1 V c)) n
  | 0, hn => by
    show k1_pay4 (F := Ideal) (iblk1 V c 3 ⟨0, hn⟩) (k1_pay3 (iblk1 V c 0 ⟨0, hn⟩) (iblk1 V c 1 ⟨0, hn⟩)) (iblk1 V c 2 ⟨0, hn⟩) (k1_pay2 (F := Ideal)) (ix2 0 0) = _
    refine (acc_step V c (iblk1 V c 3 ⟨0, hn⟩) (k1_pay3 (iblk1 V c 0 ⟨0, hn⟩) (iblk1 V c 1 ⟨0, hn⟩)) (iblk1 V c 2 ⟨0, hn⟩) (k1_pay2 (F := Ideal)) 0
      (fun r => iblk1_3_apply V c ⟨0, hn⟩ r)
      (fun s d => cen_of V c (iblk1 V c 0 ⟨0, hn⟩) (iblk1 V c 1 ⟨0, hn⟩) (iblk1_0_eq V c ⟨0, hn⟩) (iblk1_1_eq V c ⟨0, hn⟩) s d)
      (fun r d => iblk1_2_apply V c ⟨0, hn⟩ r d)).trans ?_
    rw [Cert.Pay1.pay2_apply]
    rfl
  | n + 1, hn => by
    by_cases h : (n + 1) % 5 = 0
    · have e := scr1_first V c ⟨n + 1, hn⟩ h
      rw [show scr1 V c (n + 1) hn = _ from e]
      dsimp only
      refine (acc_step V c (iblk1 V c 3 ⟨n + 1, hn⟩) (k1_pay3 (iblk1 V c 0 ⟨n + 1, hn⟩) (iblk1 V c 1 ⟨n + 1, hn⟩)) (iblk1 V c 2 ⟨n + 1, hn⟩) (k1_pay2 (F := Ideal)) (n + 1)
        (fun r => iblk1_3_apply V c ⟨n + 1, hn⟩ r)
        (fun s d => cen_of V c (iblk1 V c 0 ⟨n + 1, hn⟩) (iblk1 V c 1 ⟨n + 1, hn⟩) (iblk1_0_eq V c ⟨n + 1, hn⟩) (iblk1_1_eq V c ⟨n + 1, hn⟩) s d)
        (fun r d => iblk1_2_apply V c ⟨n + 1, hn⟩ r d)).trans ?_
      rw [Cert.Pay1.pay2_apply]
      show _ = (if (n + 1) % 5 = 0 then 0 else _) + _
      rw [if_pos h]
    · have e := scr1_next V c ⟨n + 1, hn⟩ h
      rw [show scr1 V c (n + 1) hn = _ from e]
      dsimp only
      refine (acc_step V c (iblk1 V c 3 ⟨n + 1, hn⟩) (scr1 V c n (Nat.lt_of_succ_lt hn)).1 (iblk1 V c 2 ⟨n + 1, hn⟩) (scr1 V c n (Nat.lt_of_succ_lt hn)).2 (n + 1)
        (fun r => iblk1_3_apply V c ⟨n + 1, hn⟩ r)
        (fun s d => scr1_cen_apply V c n (Nat.lt_of_succ_lt hn) s d)
        (fun r d => iblk1_2_apply V c ⟨n + 1, hn⟩ r d)).trans ?_
      rw [scr1_acc_apply c n (Nat.lt_of_succ_lt hn)]
      show _ = (if (n + 1) % 5 = 0 then 0 else _) + _
      rw [if_neg h]

/-- What the output array ends holding: row k is half k's sum of norms. -/
def G1_4 (c : Dev nD) : S2x1x1.Idx → EReal :=
  fun i => Cert.Spec.runAcc (Cert.Spec.tileNorm (cen1 V c) (V c main_arg2) (tt1 V c)) (5 * (i 0).val + 4)

/-- The stored result at the one index of its block. -/
theorem pay1_at (v41 : Vec Ideal S1x1 .f32) (j : S1x1x1.Idx) : k1_pay1 (F := Ideal) v41 j = v41 (ix2 0 0) := by
  have hj : j = ix3 0 0 0 := by
    funext a
    apply Fin.ext
    match a with
    | ⟨0, _⟩ => have : (j 0).val < 1 := (j 0).isLt; show (j 0).val = 0; omega
    | ⟨1, _⟩ => have : (j 1).val < 1 := (j 1).isLt; show (j 1).val = 0; omega
    | ⟨2, _⟩ => have : (j 2).val < 1 := (j 2).isLt; show (j 2).val = 0; omega
  rw [hj]
  exact Cert.Pay1.pay1_apply v41

/-- What a flushing point writes back is its block of the array of the halves' sums of norms. -/
theorem flushed1_4_eq (c : Dev nD) (t : Fin cfg1.N) (hf : (cfg1.win 4).flush t = true) :
    (dat1 V c).flushed 4 t = ((cfg1.win 4).blk t).view.read (Elt Ideal) (G1_4 V c) := by
  have h4 : t.val % 5 = 4 := (flush1_4 t).mp hf
  obtain ⟨e0, e1, e2⟩ := idx1_4 t
  show (cfg1.win 4).cut (grid1.coords t) ((dat1 V c).after 4 t) = _
  rw [after1_4]
  funext j
  rw [View.read_apply]
  show k1_pay1 (F := Ideal) (scr1 V c t.val t.isLt).2 j = G1_4 V c _
  rw [pay1_at, scr1_acc_apply V c t.val t.isLt]
  unfold G1_4
  congr 1
  show t.val = 5 * (win1_4.index t (0 : Fin 3) * 1 + 1 * (j 0).val) + 4
  have hj : (j 0).val < 1 := (j 0).isLt
  rw [e0]
  omega

/-- An index of the array is in point t's block iff each coordinate is in the block's range on its axis. -/
theorem mem_blk1_4 (t : Fin cfg1.N) (i : S2x1x1.Idx) :
    i ∈ ((cfg1.win 4).blk t).view.set ↔ ∀ a : Fin 3, win1_4.index t a * S1x1x1.size a ≤ (i a).val ∧ (i a).val < win1_4.index t a * S1x1x1.size a + S1x1x1.size a := by
  show i ∈ ((View.whole main_v3).slice (win1_4.rect t)).set ↔ _
  rw [View.set_slice_whole, Rect.mem_set_unit]
  exact Iff.rfl

theorem arrAt1_4 (c : Dev nD) (k : Fin 2) :
    (dat1 V c).arrAt 4 cfg1.N (ix3 k (0 : Fin 1) (0 : Fin 1)) = Cert.Spec.halfNorm (cen1 V c) (V c main_arg2) (tt1 V c) k := by
  have hN : cfg1.N = 10 := N_1
  have hk : k.val < 2 := k.isLt
  have ht : 5 * k.val + 4 < cfg1.N := by omega
  have hf : (cfg1.win 4).flush ⟨5 * k.val + 4, ht⟩ = true := (flush1_4 _).mpr (by show (5 * k.val + 4) % 5 = 4; omega)
  obtain ⟨e0, e1, e2⟩ := idx1_4 ⟨5 * k.val + 4, ht⟩
  refine ((dat1 V c).arrAt_apply_of_mem 4 (G1_4 V c) (flushed1_4_eq V c) cfg1.N ⟨5 * k.val + 4, ht⟩ (ix3 k (0 : Fin 1) (0 : Fin 1)) ht hf ?_).trans rfl
  rw [mem_blk1_4]
  intro a
  match a with
  | ⟨0, _⟩ => show win1_4.index ⟨5 * k.val + 4, ht⟩ (0 : Fin 3) * 1 ≤ k.val ∧ k.val < win1_4.index ⟨5 * k.val + 4, ht⟩ (0 : Fin 3) * 1 + 1; rw [e0]; show (5 * k.val + 4) / 5 * 1 ≤ k.val ∧ k.val < (5 * k.val + 4) / 5 * 1 + 1; omega
  | ⟨1, _⟩ => show win1_4.index ⟨5 * k.val + 4, ht⟩ (1 : Fin 3) * 1 ≤ 0 ∧ 0 < win1_4.index ⟨5 * k.val + 4, ht⟩ (1 : Fin 3) * 1 + 1; rw [e1]; omega
  | ⟨2, _⟩ => show win1_4.index ⟨5 * k.val + 4, ht⟩ (2 : Fin 3) * 1 ≤ 0 ∧ 0 < win1_4.index ⟨5 * k.val + 4, ht⟩ (2 : Fin 3) * 1 + 1; rw [e2]; omega

end Cert.KernelIdeal.Hand

end
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.Tiles.lean ====
/-
  The tiled spelling of the sector-mean distance loss equals the closed one.

  The extended reals are an additive commutative monoid, so finite sums regroup freely. A sweep over ten tiles
  in two halves of five keeps a running sum that starts again from zero at tiles 0 and 5; read at tiles 4 and 9
  it is the sum of the five tiles of a half. The two halves together are the ten tiles, and the ten tiles of
  equal length together are all the rows. Hence the halves' sector sums and counts add up to the closed sums and
  counts, the centres agree, and the halves' sums of norms add up to the sum of all norms.
-/
import proofs.«409938_j78271484002324_3_alg».proof.Proof.Spec
import proofs.«409938_j78271484002324_3_alg».proof.Proof.LibTiles
import Mathlib.Algebra.BigOperators.Fin
import Mathlib.Data.EReal.Basic

noncomputable section

namespace Cert.Tiles

open Idealize.ShloMosaic Idealize.ShloMosaic.ValueIdx Cert.Spec

/-! ## The running sum over one half -/

/-- At a tile whose number is a multiple of five the running sum starts again: it is zero plus that tile. -/
theorem runAcc_reset (tile : ℕ → EReal) (m : ℕ) (hm : m % 5 = 0) : runAcc tile m = 0 + tile m := by
  cases m with
  | zero => rfl
  | succ n =>
    show (if (n + 1) % 5 = 0 then 0 else runAcc tile n) + tile (n + 1) = 0 + tile (n + 1)
    rw [if_pos hm]

/-- At any other tile the running sum is the previous running sum plus that tile. -/
theorem runAcc_step (tile : ℕ → EReal) (n : ℕ) (hn : (n + 1) % 5 ≠ 0) :
    runAcc tile (n + 1) = runAcc tile n + tile (n + 1) := by
  show (if (n + 1) % 5 = 0 then 0 else runAcc tile n) + tile (n + 1) = runAcc tile n + tile (n + 1)
  rw [if_neg hn]

/-- Four tiles after a multiple of five, the running sum is the sum of the five tiles from that multiple on:
    the tiles m + 1, …, m + 4 leave the remainders 1, …, 4, so none of them resets. -/
theorem runAcc_block (tile : ℕ → EReal) (m : ℕ) (hm : m % 5 = 0) :
    runAcc tile (m + 4) = tile m + tile (m + 1) + tile (m + 2) + tile (m + 3) + tile (m + 4) := by
  have h4 : runAcc tile (m + 4) = runAcc tile (m + 3) + tile (m + 4) := runAcc_step tile (m + 3) (by omega)
  have h3 : runAcc tile (m + 3) = runAcc tile (m + 2) + tile (m + 3) := runAcc_step tile (m + 2) (by omega)
  have h2 : runAcc tile (m + 2) = runAcc tile (m + 1) + tile (m + 2) := runAcc_step tile (m + 1) (by omega)
  have h1 : runAcc tile (m + 1) = runAcc tile m + tile (m + 1) := runAcc_step tile m (by omega)
  rw [h4, h3, h2, h1, runAcc_reset tile m hm, zero_add]

/-- The running sum read at the last tile of half k is the sum of that half's five tiles. -/
theorem runAcc_half (tile : ℕ → EReal) (k : Fin 2) :
    runAcc tile (5 * k.val + 4) = ∑ t : Fin 5, tile (5 * k.val + t.val) := by
  rw [runAcc_block tile (5 * k.val) (Nat.mul_mod_right 5 k.val), Fin.sum_univ_five]
  rfl

/-! ## Halves into tiles, tiles into rows -/

/-- Two halves of five tiles are the ten tiles: (k, t) ↦ 5 k + t runs through 0, …, 9. -/
theorem sum_halves_tiles (g : ℕ → EReal) :
    ∑ k : Fin 2, ∑ t : Fin 5, g (5 * k.val + t.val) = ∑ p : Fin 10, g p.val := by
  have h := Cert.LibTiles.tile_sum 2 5 (fun p : Fin (2 * 5) => g p.val)
  refine Eq.trans ?_ h.symm
  refine Finset.sum_congr rfl fun k _ => Finset.sum_congr rfl fun t _ => ?_
  rw [Nat.mul_comm]

/-- The sums read at the ends of the two halves add up to the sum over the ten tiles. -/
theorem sum_runAcc (g : ℕ → EReal) :
    ∑ k : Fin 2, runAcc g (5 * k.val + 4) = ∑ p : Fin 10, g p.val := by
  rw [← sum_halves_tiles g]
  exact Finset.sum_congr rfl fun k _ => runAcc_half g k

/-- A sum over n = a · b indices is the sum over the a tiles of the sums over each tile's b indices. -/
theorem tile_sum_of {a b n : ℕ} (hn : a * b = n) (f : Fin n → EReal) :
    ∑ i : Fin n, f i
      = ∑ j : Fin a, ∑ k : Fin b, f ⟨j.val * b + k.val, hn ▸ Cert.LibTiles.tile_lt j k⟩ := by
  subst hn
  exact Cert.LibTiles.tile_sum a b f

/-- Ten source tiles of 20000 rows are the 200000 source rows: for p < 10 row j of tile p is row
    p · 20000 + j. -/
theorem sum_tiles_src (f : Fin 200000 → EReal) :
    ∑ p : Fin 10, ∑ j : Fin 20000, f (srow p.val j) = ∑ i : Fin 200000, f i := by
  rw [tile_sum_of (a := 10) (b := 20000) (by norm_num) f]
  refine Finset.sum_congr rfl fun p _ => Finset.sum_congr rfl fun j _ => ?_
  refine congrArg f (Fin.ext ?_)
  show (p.val % 10) * 20000 + j.val = p.val * 20000 + j.val
  rw [Nat.mod_eq_of_lt p.isLt]

/-- Ten target tiles of 10000 rows are the 100000 target rows. -/
theorem sum_tiles_tgt (f : Fin 100000 → EReal) :
    ∑ p : Fin 10, ∑ r : Fin 10000, f (trow p.val r) = ∑ n : Fin 100000, f n := by
  rw [tile_sum_of (a := 10) (b := 10000) (by norm_num) f]
  refine Finset.sum_congr rfl fun p _ => Finset.sum_congr rfl fun r _ => ?_
  refine congrArg f (Fin.ext ?_)
  show (p.val % 10) * 10000 + r.val = p.val * 10000 + r.val
  rw [Nat.mod_eq_of_lt p.isLt]

/-! ## Sector sums, counts and centres -/

/-- The two halves' sums of sector s, column d, add up to the closed sum. -/
theorem sum_halfSum (x : SX.Idx → EReal) (sec : SSec.Idx → BitVec 32) (s : Fin 10) (d : Fin 256) :
    ∑ k : Fin 2, halfSum x sec k s d = sums x sec s d := by
  have h := sum_runAcc (tileSum x sec s d)
  have h' := sum_tiles_src (fun i => hit (sw s) (sec (ix1 i)) * x (ix2 i d))
  exact h.trans h'

/-- The two halves' counts of sector s add up to the closed count. -/
theorem sum_halfCnt (sec : SSec.Idx → BitVec 32) (s : Fin 10) :
    ∑ k : Fin 2, halfCnt sec k s = counts sec s := by
  have h := sum_runAcc (tileCnt sec s)
  have h' := sum_tiles_src (fun i => hit (sw s) (sec (ix1 i)))
  exact h.trans h'

/-- The centres from the halves are the closed centres. -/
theorem centerT_eq (x : SX.Idx → EReal) (sec : SSec.Idx → BitVec 32) :
    centerT (halfSum x sec) (halfCnt sec) = center x sec := by
  funext s d
  show Ideal.div (∑ k : Fin 2, halfSum x sec k s d) (∑ k : Fin 2, halfCnt sec k s)
      = Ideal.div (sums x sec s d) (counts sec s)
  rw [sum_halfSum, sum_halfCnt]

/-! ## Norms and the loss -/

/-- The two halves' sums of norms add up to the sum of the norms of all target rows. -/
theorem sum_halfNorm (cen : Fin 10 → Fin 256 → EReal) (y : SY.Idx → EReal) (tt : ST.Idx → EReal) :
    ∑ k : Fin 2, halfNorm cen y tt k = ∑ n : Fin 100000, norm cen y tt n := by
  have h := sum_runAcc (tileNorm cen y tt)
  have h' := sum_tiles_tgt (fun n => norm cen y tt n)
  exact h.trans h'

/-- The loss from the tiled sums is the closed loss. -/
theorem lossT_eq_loss (x : SX.Idx → EReal) (sec : SSec.Idx → BitVec 32) (y : SY.Idx → EReal)
    (tt : ST.Idx → EReal) : lossT x sec y tt = loss x sec y tt := by
  show Ideal.div (0 + ∑ k : Fin 2, halfNorm (centerT (halfSum x sec) (halfCnt sec)) y tt k) countW
      = Ideal.div (∑ n : Fin 100000, norm (center x sec) y tt n) countW
  rw [centerT_eq, sum_halfNorm, zero_add]

end Cert.Tiles

end
-- ==== Proof.KI.KernelValue.lean ====
/-
  The idealized program's result as a function of its four arguments. The fold of buffer contents through the program
  is read at the result: the first region finds the source rows and the sector words reshaped into ten rows of 20000,
  and leaves the two halves' sector sums and counts; the second region finds those, the target rows and the positions
  as a column, and leaves the two halves' sums of norms; the closing operations add the two and divide by 100000.
  That is the tiled spelling of the loss, which equals the closed one.
-/
import proofs.«409938_j78271484002324_3_alg».proof.Proof.KI.Launch
import proofs.«409938_j78271484002324_3_alg».proof.Proof.KI.Value0
import proofs.«409938_j78271484002324_3_alg».proof.Proof.KI.Value1
import proofs.«409938_j78271484002324_3_alg».proof.Proof.Tiles
import Idealize.ShloMosaic.Lib.StableHlo.Run
import Idealize.ShloMosaic.PureOps.Ideal.Laws
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The four arguments as the specification reads them. -/
abbrev argX (c : Dev nD) : Cert.Spec.SX.Idx → EReal := m ((c : Thread nD τ).loc main_arg0)
abbrev argSec (c : Dev nD) : Cert.Spec.SSec.Idx → BitVec 32 := m ((c : Thread nD τ).loc main_arg1)
abbrev argY (c : Dev nD) : Cert.Spec.SY.Idx → EReal := m ((c : Thread nD τ).loc main_arg2)
abbrev argT (c : Dev nD) : Cert.Spec.ST.Idx → EReal := m ((c : Thread nD τ).loc main_arg3)

/-! ## What the first region finds -/

/-- The source rows reach the first region as launched. -/
theorem V1_arg0 (c : Dev nD) : V1 m ρ c main_arg0 = m ((c : Thread nD τ).loc main_arg0) :=
  (W1_of m ρ c main_arg0 (by decide)).trans rfl

/-- The reshaped sector words: row p, lane j is word p · 20000 + j. -/
theorem V1_v0_apply (c : Dev nD) (p : ℕ) (j : Fin 20000) :
    (V1 m ρ c main_v0 : S10x1x20000.Idx → BitVec 32) (ix3 (secRow p) (0 : Fin 1) j) = argSec m c (ix1 (Cert.Spec.srow p j)) := by
  have e : W1 m ρ c (Proc.devRef .tc main_v0)
      = fun i => shapeCast S10x1x20000 (W0 m ρ c (Proc.devRef .tc main_arg1)) Facts₀.shapeCasts_S200000_S10x1x20000 i := by
    show StableHlo.after hostOps0 _ (Proc.devRef .tc main_v0) = _
    after_results
    all_goals rfl
  show W1 m ρ c (Proc.devRef .tc main_v0) (ix3 (secRow p) (0 : Fin 1) j) = _
  rw [e]
  refine (shapeCast_apply _ _ _ (ix1 (Cert.Spec.srow p j)) ?_).trans rfl
  rw [Shape.rowMajor_val_one, Shape.rowMajor_val_three]
  show (p % 10) * 20000 + j.val = ((p % 10) * 1 + 0) * 20000 + j.val
  omega

theorem tileSum0_eq (c : Dev nD) (s : Fin 10) (d : Fin 256) :
    tileSum0 (V1 m ρ) c s d = Cert.Spec.tileSum (argX m c) (argSec m c) s d := by
  funext p
  unfold tileSum0 Cert.Spec.tileSum
  refine Finset.sum_congr rfl fun j _ => ?_
  rw [V1_v0_apply, V1_arg0]

theorem tileCnt0_eq (c : Dev nD) (s : Fin 10) :
    tileCnt0 (V1 m ρ) c s = Cert.Spec.tileCnt (argSec m c) s := by
  funext p
  unfold tileCnt0 Cert.Spec.tileCnt
  refine Finset.sum_congr rfl fun j _ => ?_
  rw [V1_v0_apply]

/-! ## What the second region finds -/

/-- The two halves' sums and counts as the second region finds them. -/
abbrev sumsArr (c : Dev nD) : S2x10x256.Idx → EReal := V3 m ρ c main_v1_0
abbrev cntsArr (c : Dev nD) : S2x10x1.Idx → EReal := V3 m ρ c main_v1_1

/-- The halves' sector sums. -/
theorem V3_sums (c : Dev nD) (k : Fin 2) (s : Fin 10) (d : Fin 256) :
    sumsArr m ρ c (ix3 k s d) = Cert.Spec.halfSum (argX m c) (argSec m c) k s d := by
  show W3 m ρ c main_v1_0 (ix3 k s d) = _
  rw [W3_of m ρ c main_v1_0 (by decide)]
  show W2 m ρ c (Proc.devRef .tc (Pipeline.arrRef spec0 2)) (ix3 k s d) = _
  rw [W2_arr m ρ c 2, arrAt0_2, tileSum0_eq]
  rfl

/-- The halves' sector counts. -/
theorem V3_cnts (c : Dev nD) (k : Fin 2) (s : Fin 10) :
    cntsArr m ρ c (ix3 k s (0 : Fin 1)) = Cert.Spec.halfCnt (argSec m c) k s := by
  show W3 m ρ c main_v1_1 (ix3 k s (0 : Fin 1)) = _
  rw [W3_of m ρ c main_v1_1 (by decide)]
  show W2 m ρ c (Proc.devRef .tc (Pipeline.arrRef spec0 3)) (ix3 k s (0 : Fin 1)) = _
  rw [W2_arr m ρ c 3, arrAt0_3, tileCnt0_eq]
  rfl

/-- The centres the second region computes are the tiled centres. -/
theorem cen1_eq (c : Dev nD) :
    cen1 (V3 m ρ) c = Cert.Spec.centerT (Cert.Spec.halfSum (argX m c) (argSec m c)) (Cert.Spec.halfCnt (argSec m c)) := by
  funext s d
  have hs : (∑ k : Fin 2, sumsArr m ρ c (ix3 k s d)) = ∑ k : Fin 2, Cert.Spec.halfSum (argX m c) (argSec m c) k s d :=
    Finset.sum_congr rfl fun k _ => V3_sums m ρ c k s d
  have hc : (∑ k : Fin 2, cntsArr m ρ c (ix3 k s (0 : Fin 1))) = ∑ k : Fin 2, Cert.Spec.halfCnt (argSec m c) k s :=
    Finset.sum_congr rfl fun k _ => V3_cnts m ρ c k s
  show Ideal.div (∑ k : Fin 2, sumsArr m ρ c (ix3 k s d)) (∑ k : Fin 2, cntsArr m ρ c (ix3 k s (0 : Fin 1))) = _
  rw [hs, hc]
  rfl

/-- The target rows reach the second region as launched. -/
theorem V3_arg2 (c : Dev nD) : V3 m ρ c main_arg2 = m ((c : Thread nD τ).loc main_arg2) :=
  (W3_of m ρ c main_arg2 (by decide)).trans <| (W2_of_ne m ρ c main_arg2 (by decide)).trans <| (W1_of m ρ c main_arg2 (by decide)).trans rfl

/-- The positions as a column: entry (n, 0) is position n. -/
theorem tt1_eq (c : Dev nD) : tt1 (V3 m ρ) c = argT m c := by
  funext i
  have e : W3 m ρ c (Proc.devRef .tc main_v2)
      = fun i => shapeCast S100000x1 (W2 m ρ c (Proc.devRef .tc main_arg3)) Facts₀.shapeCasts_S100000_S100000x1 i := by
    show StableHlo.after hostOps1 _ (Proc.devRef .tc main_v2) = _
    after_results
    all_goals rfl
  show W3 m ρ c (Proc.devRef .tc main_v2) (ix2 (i 0) (0 : Fin 1)) = _
  rw [e]
  refine (shapeCast_apply _ _ _ i ?_).trans ?_
  · rw [Shape.rowMajor_val_one, Shape.rowMajor_val_two]
    show (i 0).val = (i 0).val * 1 + 0
    omega
  · exact congrFun ((W2_of_ne m ρ c main_arg3 (by decide)).trans <| (W1_of m ρ c main_arg3 (by decide)).trans rfl) i

/-- The halves' sums of norms. -/
theorem W4_v3 (c : Dev nD) (k : Fin 2) :
    (W4 m ρ c (Proc.devRef .tc main_v3) : S2x1x1.Idx → EReal) (ix3 k (0 : Fin 1) (0 : Fin 1))
      = Cert.Spec.halfNorm (Cert.Spec.centerT (Cert.Spec.halfSum (argX m c) (argSec m c)) (Cert.Spec.halfCnt (argSec m c))) (argY m c) (argT m c) k := by
  show W4 m ρ c (Proc.devRef .tc (Pipeline.arrRef spec1 4)) (ix3 k (0 : Fin 1) (0 : Fin 1)) = _
  rw [W4_arr m ρ c 4, arrAt1_4, cen1_eq, tt1_eq, V3_arg2]

/-! ## The result -/

/-- The index set of a [2, 1, 1] array is its two rows. -/
def idx211 : S2x1x1.Idx ≃ Fin 2 where
  toFun i := i 0
  invFun k := ix3 k (0 : Fin 1) (0 : Fin 1)
  left_inv i := by
    funext a
    refine Fin.ext ?_
    match a with
    | ⟨0, _⟩ => rfl
    | ⟨1, _⟩ => exact (Nat.lt_one_iff.mp (i 1).isLt).symm
    | ⟨2, _⟩ => exact (Nat.lt_one_iff.mp (i 2).isLt).symm
  right_inv _ := rfl

/-- THE KERNEL'S VALUE: the result buffer ends at the closed loss of the four arguments. -/
theorem W5_v5 (c : Dev nD) :
    W5 m ρ c (Proc.devRef .tc main_v5) = fun _ => Cert.Spec.loss (argX m c) (argSec m c) (argY m c) (argT m c) := by
  have e : W5 m ρ c (Proc.devRef .tc main_v5)
      = Host.divf (Host.reduceAdd (W4 m ρ c (Proc.devRef .tc main_v3)) (constant (F := Ideal) S_ .f32 0x00000000#32)
          Facts₀.reducesTo_S2x1x1_S_d0_1_2 Facts₀.h_S_) (constant (F := Ideal) S_ .f32 0x47C35000#32) := by
    show StableHlo.after hostOps2 _ (Proc.devRef .tc main_v5) = _
    after_results
    all_goals rfl
  rw [e, ← Cert.Tiles.lossT_eq_loss]
  funext i
  obtain ⟨y0, hy⟩ : ∃ y0 : S2x1x1.Idx → EReal, y0 = W4 m ρ c (Proc.devRef .tc main_v3) := ⟨_, rfl⟩
  rw [← hy]
  simp only [Host.divf, Host.reduceAdd, Ideal.hostReduceAdd_def]
  rw [Ideal.hostReduceAdd_total Facts₀.reducesTo_S2x1x1_S_d0_1_2 (fun b => b.elim0)]
  show Ideal.div (Ideal.ofBits .f32 0x00000000#32 + ∑ j : S2x1x1.Idx, y0 j) (Ideal.ofBits .f32 0x47C35000#32) = _
  rw [Ideal.ofBits_zero_f32, ← Equiv.sum_comp idx211.symm y0]
  unfold Cert.Spec.lossT
  refine congrArg (fun z : EReal => Ideal.div (0 + z) Cert.Spec.countW) (Finset.sum_congr rfl fun k _ => ?_)
  rw [hy]
  exact W4_v3 m ρ c k

end Cert.KernelIdeal.Hand

end
-- ==== Proof.LibGatherRows.lean ====
/-
  A gather of whole rows read at an index. For an operand [N, C] (or a flat operand [N]) and a column [R, 1] of start
  indices, the gather that collapses the row axis and keeps the columns reads, at (r, c), the operand's row at the start
  index idx[r, 0] taken as a signed integer and clamped into [0, N - 1], column c.
-/
import Idealize.ShloMosaic.PureOps.Ideal
import Idealize.ShloMosaic.Lib.ValueIdx

noncomputable section

namespace Idealize.ShloMosaic.GatherRows

open Idealize.ShloMosaic Idealize.ShloMosaic.ValueIdx

/-- A natural number clamped at `N - 1` is below a positive `N`. -/
theorem clamp_lt {N : Nat} (hN : 0 < N) (k : Nat) : min k (N - 1) < N := by omega

/-! ## Rows of a matrix at a column of start indices -/

section Rows
variable {α : Type}

/-- The dimension numbers of `x[idx[:, 0], :]` for an operand `[N, C]`, a column `[R, 1]` of start indices and a result
    `[R, C]`: the row axis collapsed and mapped by the start index, the column axis kept whole as the result's offset
    axis; their conditions `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The conditions hold only for an operand with at least one row: a slice of one row fits. -/
theorem rows_pos {N R C : Nat} (wf : GatherDims.WF ⟨2, ![N, C]⟩ ⟨2, ![R, 1]⟩ ⟨2, ![R, C]⟩ [1] [0] [] [0] [] 1 ![1, C]) :
    0 < N :=
  (rowDims N R C wf).slice_le 0

/-- THE ROW GATHER READ AT `(r, c)`: the operand's row at the start index `idx[r, 0]`, read signed and clamped into
    `[0, N − 1]`, at column `c`. -/
theorem gather_rows_apply {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r 0)).toInt.toNat (N - 1), clamp_lt (rows_pos wf) _⟩ c) := by
  unfold Host.gather
  congr 1
  funext a
  refine Fin.ext ?_
  match a with
  | ⟨0, _⟩ =>
    show (rowDims N R C wf).start (ix2 r c) idx 0 + (rowDims N R C wf).batchCoord (ix2 r c) 0
      + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
      + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ ([0] : List (Fin 2))))]
    simp only [Nat.add_zero, Nat.zero_add]
    rfl

end Rows

/-! ## A flat array at a column of start indices -/

section Flat
variable {α : Type}

/-- The dimension numbers of `x[idx[:, 0]]` for a flat operand `[N]`, a column `[R, 1]` of start indices and a result
    `[R]`: the operand's one axis collapsed and mapped by the start index, no offset axis; their conditions `wf` are
    decided on a program's literal shapes. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The conditions hold only for a non-empty operand: a slice of one element fits. -/
theorem flat_pos {N R : Nat} (wf : GatherDims.WF ⟨1, ![N]⟩ ⟨2, ![R, 1]⟩ ⟨1, ![R]⟩ [] [0] [] [0] [] 1 ![1]) : 0 < N :=
  (flatDims N R wf).slice_le 0

/-- THE FLAT GATHER READ AT `r`: the operand at the start index `idx[r, 0]`, read signed and clamped into
    `[0, N − 1]`. -/
theorem gather_flat_apply {N R w : Nat} (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatDims N R wf) x idx (ix1 r)
      = x (ix1 ⟨min (idx (ix2 r 0)).toInt.toNat (N - 1), clamp_lt (flat_pos wf) _⟩) := by
  unfold Host.gather
  congr 1
  funext a
  obtain rfl : a = 0 := Subsingleton.elim _ _
  refine Fin.ext ?_
  show (flatDims N R wf).start (ix1 r) idx 0 + (flatDims N R wf).batchCoord (ix1 r) 0
    + (flatDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 r) ⟨List.idxOf (0 : Fin 1) (flatDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

end Flat

/-! ## Two gathers in a row -/

section Compose
variable {α : Type}

/-- Rows of gathered rows are gathered rows: taking the rows of `x[zc[:, 0], :]` at the start indices `idx` is taking the
    rows of `x` at any column `zr` of start indices that reads, at every `r`, the column `zc` at `idx[r, 0]` read signed
    and clamped into `[0, N − 1]` (for instance an elementwise function of a flat array gathered at `idx`, when `zc` is
    the same function of the flat array). -/
theorem gather_rows_rows {M N R C w w' : Nat}
    (wf₁ : GatherDims.WF ⟨2, ![M, C]⟩ ⟨2, ![N, 1]⟩ ⟨2, ![N, C]⟩ [1] [0] [] [0] [] 1 ![1, C])
    (wf₂ : GatherDims.WF ⟨2, ![N, C]⟩ ⟨2, ![R, 1]⟩ ⟨2, ![R, C]⟩ [1] [0] [] [0] [] 1 ![1, C])
    (wf₃ : GatherDims.WF ⟨2, ![M, C]⟩ ⟨2, ![R, 1]⟩ ⟨2, ![R, C]⟩ [1] [0] [] [0] [] 1 ![1, C])
    (x : (⟨2, ![M, C]⟩ : Shape).Idx → α) (zc : IVec ⟨2, ![N, 1]⟩ w') (idx : IVec ⟨2, ![R, 1]⟩ w)
    (zr : IVec ⟨2, ![R, 1]⟩ w')
    (h : ∀ r : Fin R, zr (ix2 r 0) = zc (ix2 ⟨min (idx (ix2 r 0)).toInt.toNat (N - 1), clamp_lt (rows_pos wf₂) _⟩ 0)) :
    Host.gather (rowDims N R C wf₂) (Host.gather (rowDims M N C wf₁) x zc) idx
      = Host.gather (rowDims M R C wf₃) x zr := by
  funext i
  obtain ⟨r, c, rfl⟩ : ∃ (r : Fin R) (c : Fin C), i = ix2 r c := ⟨i 0, i 1, eq_ix2 i⟩
  rw [gather_rows_apply, gather_rows_apply, gather_rows_apply, h r]

end Compose

end Idealize.ShloMosaic.GatherRows

end
-- ==== Proof.RefValue.lean ====
/-
  The reference program's result, read at the ideal values, is the closed specification of the sector-mean distance loss.

  The program has three operations whose result element depends on the VALUES of an integer operand, and each is read at
  an index here.
  * The two accumulating scatters. With one start index per update row, read as a signed integer and not clamped, and
    the operand's row axis the only axis the start index moves, update element (i, c) lands on operand element (s, d)
    exactly when c = d and the sector word of row i is the word of s; an update whose word is no sector's lands nowhere.
    So the scatter into zeros, at (s, d), is the sum over all rows i of the indicator "word of row i = word of s" times
    x[i, d]: the sector's sum; and the scatter of ones is the same sum of indicators: the sector's count.
  * The gather of rows. The start index of target row n is the bucket of its position, which is a signed word clamped
    from below at 0 and then from above at 9, hence in [0, 9]: the program's wrap of a negative index leaves it as it
    is, the gather's own clamp into [0, 9] leaves it as it is, and the row read is the centre of that bucket. The
    specification picks the same centre by the sum over the ten sectors of the indicator "bucket = word of s" times the
    centre of s, of which exactly one term is not zero.
  Everything else is elementwise or a plain sum: the quotient of sums by counts, the difference with the offset added,
  its square, the sum over the 256 columns from a zero start, the square root, the sum over the 100000 rows from a zero
  start, and the quotient by the number of rows.
-/
import proofs.«409938_j78271484002324_3_alg».proof.Proof.Gen.ReferenceIdeal.Read
import proofs.«409938_j78271484002324_3_alg».proof.Proof.Spec
import proofs.«409938_j78271484002324_3_alg».proof.Proof.LibGatherRows
import Idealize.ShloMosaic.Lib.IdealHost

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-! ## The scatter of rows: where an update element lands -/

/-- The dimension numbers of the scatter of rows [200000, 256] into [10, 256] by a column [200000, 1] of start indices. -/
abbrev D2 : ScatterDims S10x256 S200000x1 S200000x256 := scatter_S10x256_S200000x1_S200000x256_1_0_0_1

/-- On the row axis the window of update element (i, c) starts at the start index of row i, read signed. -/
theorem D2_start0 (idx : IVec S200000x1 32) (i : Fin 200000) (c : Fin 256) :
    D2.start (ix2 i c) idx 0 = (idx (ix2 i 0)).toInt := by
  unfold ScatterDims.start
  rw [dif_pos (show (0 : Fin 2) ∈ D2.scatterDimsToOperandDims from List.mem_singleton.mpr rfl)]
  congr 2
  funext b; refine Fin.ext ?_
  match b with
  | ⟨0, _⟩ => rfl
  | ⟨1, _⟩ => rfl

/-- On the column axis, which the start index does not move, it starts at 0. -/
theorem D2_start1 (idx : IVec S200000x1 32) (i : Fin 200000) (c : Fin 256) :
    D2.start (ix2 i c) idx 1 = 0 := by
  unfold ScatterDims.start
  rw [dif_neg (show (1 : Fin 2) ∉ D2.scatterDimsToOperandDims from (by decide : (1 : Fin 2) ∉ ([0] : List (Fin 2))))]

/-- The row axis is inserted: no window coordinate. -/
theorem D2_window0 (i : Fin 200000) (c : Fin 256) : D2.window (ix2 i c) 0 = 0 := rfl
/-- The column axis carries the update's column. -/
theorem D2_window1 (i : Fin 200000) (c : Fin 256) : D2.window (ix2 i c) 1 = c.val := rfl

/-- The word of sector s, read signed, is s. -/
theorem sw_toInt (s : Fin 10) : (Cert.Spec.sw s).toInt = (s.val : ℤ) := by
  revert s; decide

/-- A word is the word of sector s exactly when it reads, signed, as s. -/
theorem sw_eq_iff (s : Fin 10) (w : BitVec 32) : Cert.Spec.sw s = w ↔ w.toInt = (s.val : ℤ) := by
  rw [← BitVec.toInt_inj, sw_toInt]; exact eq_comm

/-- Update element (i, c) lands on (s, d) exactly when c = d and row i's word is the word of s. -/
theorem D2_resultIdx_iff (idx : IVec S200000x1 32) (i : Fin 200000) (c : Fin 256) (s : Fin 10) (d : Fin 256) :
    D2.resultIdx? (ix2 i c) idx = some (ix2 s d) ↔ c = d ∧ Cert.Spec.sw s = idx (ix2 i 0) := by
  rw [sw_eq_iff]
  unfold ScatterDims.resultIdx?
  split
  · rename_i h
    rw [Option.some.injEq]
    constructor
    · intro hf
      have h0 : (D2.start (ix2 i c) idx 0 + D2.window (ix2 i c) 0).toNat = s.val :=
        congrArg (fun f => (f 0).val) hf
      have h1 : (D2.start (ix2 i c) idx 1 + D2.window (ix2 i c) 1).toNat = d.val :=
        congrArg (fun f => (f 1).val) hf
      have hh := (h 0).1
      rw [D2_start0, D2_window0] at hh h0
      rw [D2_start1, D2_window1] at h1
      refine ⟨Fin.ext ?_, ?_⟩
      · omega
      · omega
    · rintro ⟨rfl, hs⟩
      funext a; refine Fin.ext ?_
      match a with
      | ⟨0, _⟩ =>
        show (D2.start (ix2 i c) idx 0 + D2.window (ix2 i c) 0).toNat = s.val
        rw [D2_start0, D2_window0, hs]; simp
      | ⟨1, _⟩ =>
        show (D2.start (ix2 i c) idx 1 + D2.window (ix2 i c) 1).toNat = c.val
        rw [D2_start1, D2_window1]; simp
  · rename_i h
    constructor
    · intro hf; exact absurd hf (by simp)
    · rintro ⟨rfl, hs⟩
      exfalso; apply h
      intro a
      match a with
      | ⟨0, _⟩ =>
        show 0 ≤ D2.start (ix2 i c) idx 0 + D2.window (ix2 i c) 0 ∧ D2.start (ix2 i c) idx 0 + D2.window (ix2 i c) 0 < (10 : ℕ)
        rw [D2_start0, D2_window0, hs]; have := s.isLt; omega
      | ⟨1, _⟩ =>
        show 0 ≤ D2.start (ix2 i c) idx 1 + D2.window (ix2 i c) 1 ∧ D2.start (ix2 i c) idx 1 + D2.window (ix2 i c) 1 < (256 : ℕ)
        rw [D2_start1, D2_window1]; have := c.isLt; omega

/-- A rank-1 index set is its coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

/-- The sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The accumulating scatter of rows by a column of sector words, read at (s, d): the operand there plus the sum of
    column d over the rows whose word is the word of s. -/
theorem scatter2_apply (x : S10x256.Idx → EReal) (idx : IVec S200000x1 32) (upd : S200000x256.Idx → EReal)
    (s : Fin 10) (d : Fin 256) :
    Host.scatterAdd (F := Ideal) (φ := .f32) D2 x idx upd (ix2 s d)
      = x (ix2 s d) + ∑ i : Fin 200000, Cert.Spec.hit (Cert.Spec.sw s) (idx (ix2 i 0)) * upd (ix2 i d) := by
  show Ideal.hostScatterAdd D2 x idx upd (ix2 s d) = _
  unfold Ideal.hostScatterAdd
  refine congrArg (x (ix2 s d) + ·) ?_
  rw [Finset.sum_filter, sum_idx2]
  refine Finset.sum_congr rfl fun i _ => ?_
  simp only [D2_resultIdx_iff]
  unfold Cert.Spec.hit
  by_cases h : Cert.Spec.sw s = idx (ix2 i 0)
  · simp [h]
  · simp [h]

/-! ## The scatter of a flat array -/

/-- The dimension numbers of the scatter of [200000] into [10] by a column [200000, 1] of start indices. -/
abbrev D1 : ScatterDims S10 S200000x1 S200000 := scatter_S10_S200000x1_S200000_n_0_0_1

/-- The window of update element i starts at the start index of row i, read signed. -/
theorem D1_start0 (idx : IVec S200000x1 32) (i : Fin 200000) :
    D1.start (ix1 i) idx 0 = (idx (ix2 i 0)).toInt := by
  unfold ScatterDims.start
  rw [dif_pos (show (0 : Fin 1) ∈ D1.scatterDimsToOperandDims from List.mem_singleton.mpr rfl)]
  congr 2
  funext b; refine Fin.ext ?_
  match b with
  | ⟨0, _⟩ => rfl
  | ⟨1, _⟩ => rfl

/-- The one operand axis is inserted: no window coordinate. -/
theorem D1_window0 (i : Fin 200000) : D1.window (ix1 i) 0 = 0 := rfl

/-- Update element i lands on s exactly when row i's word is the word of s. -/
theorem D1_resultIdx_iff (idx : IVec S200000x1 32) (i : Fin 200000) (s : Fin 10) :
    D1.resultIdx? (ix1 i) idx = some (ix1 s) ↔ Cert.Spec.sw s = idx (ix2 i 0) := by
  rw [sw_eq_iff]
  unfold ScatterDims.resultIdx?
  split
  · rename_i h
    rw [Option.some.injEq]
    constructor
    · intro hf
      have h0 : (D1.start (ix1 i) idx 0 + D1.window (ix1 i) 0).toNat = s.val :=
        congrArg (fun f => (f 0).val) hf
      have hh := (h 0).1
      rw [D1_start0, D1_window0] at hh h0
      omega
    · intro hs
      funext a; refine Fin.ext ?_
      match a with
      | ⟨0, _⟩ =>
        show (D1.start (ix1 i) idx 0 + D1.window (ix1 i) 0).toNat = s.val
        rw [D1_start0, D1_window0, hs]; simp
  · rename_i h
    constructor
    · intro hf; exact absurd hf (by simp)
    · intro hs
      exfalso; apply h
      intro a
      match a with
      | ⟨0, _⟩ =>
        show 0 ≤ D1.start (ix1 i) idx 0 + D1.window (ix1 i) 0 ∧ D1.start (ix1 i) idx 0 + D1.window (ix1 i) 0 < (10 : ℕ)
        rw [D1_start0, D1_window0, hs]; have := s.isLt; omega

/-- The accumulating scatter of a flat array by a column of sector words, read at s: the operand there plus the sum
    over the rows whose word is the word of s. -/
theorem scatter1_apply (x : S10.Idx → EReal) (idx : IVec S200000x1 32) (upd : S200000.Idx → EReal) (s : Fin 10) :
    Host.scatterAdd (F := Ideal) (φ := .f32) D1 x idx upd (ix1 s)
      = x (ix1 s) + ∑ i : Fin 200000, Cert.Spec.hit (Cert.Spec.sw s) (idx (ix2 i 0)) * upd (ix1 i) := by
  show Ideal.hostScatterAdd D1 x idx upd (ix1 s) = _
  unfold Ideal.hostScatterAdd
  refine congrArg (x (ix1 s) + ·) ?_
  rw [Finset.sum_filter, sum_idx1]
  refine Finset.sum_congr rfl fun i _ => ?_
  simp only [D1_resultIdx_iff]
  unfold Cert.Spec.hit
  by_cases h : Cert.Spec.sw s = idx (ix2 i 0)
  · simp [h]
  · simp [h]

/-! ## The program's stages at an index -/

section Stages

variable (x0 : (⟨S200000x256, .f32⟩ : BufTy).Contents (Elt Ideal)) (x1 : (⟨S200000, .i32⟩ : BufTy).Contents (Elt Ideal))
  (x2 : (⟨S100000x256, .f32⟩ : BufTy).Contents (Elt Ideal)) (x3 : (⟨S100000, .f32⟩ : BufTy).Contents (Elt Ideal))

/-- The column of start indices reads the sector words: (i, 0) reads word i. -/
theorem idx_v1_ix (i : Fin 200000) : idx_main_v1 (ix2 i (0 : Fin 1)) = ix1 i := by
  funext a; match a with | ⟨0, _⟩ => rfl

/-- The same for the second scatter's column. -/
theorem idx_v5_ix (i : Fin 200000) : idx_main_v5 (ix2 i (0 : Fin 1)) = ix1 i := by
  funext a; match a with | ⟨0, _⟩ => rfl

/-- The first scatter, into zeros: the sums of the rows of each sector. -/
theorem v2_apply (s : Fin 10) (d : Fin 256) :
    val_main_v2 (F := Ideal) x0 x1 (ix2 s d) = Cert.Spec.sums x0 x1 s d := by
  unfold val_main_v2
  rw [scatter2_apply, val_main_v0_apply, val_main_cst_apply, Ideal.ofBits_def, Ideal.ofBits_zero_f32, zero_add]
  unfold Cert.Spec.sums
  refine Finset.sum_congr rfl fun i _ => ?_
  rw [val_main_v1_apply, idx_v1_ix]

/-- The second scatter, of ones into zeros: the number of rows of each sector. -/
theorem v6_apply (s : Fin 10) :
    val_main_v6 (F := Ideal) x1 (ix1 s) = Cert.Spec.counts x1 s := by
  unfold val_main_v6
  rw [scatter1_apply, val_main_v4_apply, val_main_cst_1_apply, Ideal.ofBits_def, Ideal.ofBits_zero_f32, zero_add]
  unfold Cert.Spec.counts
  refine Finset.sum_congr rfl fun i _ => ?_
  rw [val_main_v5_apply, idx_v5_ix, val_main_v3_apply, val_main_cst_0_apply, Ideal.ofBits_def,
    Ideal.ofBits_one_f32, mul_one]

/-- The counts broadcast along the columns: (s, d) reads count s. -/
theorem idx_v78_ix (s : Fin 10) (d : Fin 256) : idx_main_v7 (idx_main_v8 (ix2 s d)) = ix1 s := by
  funext a; match a with | ⟨0, _⟩ => rfl

/-- The quotient: the centre of each sector. -/
theorem v9_apply (s : Fin 10) (d : Fin 256) :
    val_main_v9 (F := Ideal) x0 x1 (ix2 s d) = Cert.Spec.center x0 x1 s d := by
  rw [val_main_v9_apply, v2_apply, val_main_v8_apply, val_main_v7_apply, idx_v78_ix, v6_apply]
  rfl

/-- A signed word clamped from below at 0 and then from above at 9 lies in [0, 9]. -/
theorem clamp_bounds (z : BitVec 32) :
    0 ≤ (IntOp.minsi 9#32 (IntOp.maxsi 0#32 z)).toInt ∧ (IntOp.minsi 9#32 (IntOp.maxsi 0#32 z)).toInt ≤ 9 := by
  have h9 : (9#32 : BitVec 32).toInt = 9 := by decide
  have h0 : (0#32 : BitVec 32).toInt = 0 := by decide
  unfold IntOp.minsi IntOp.maxsi
  by_cases h1 : z.slt 0#32 = true
  · rw [if_pos h1]
    have : ¬ ((9#32 : BitVec 32).slt 0#32 = true) := by decide
    rw [if_neg this, h0]; omega
  · rw [if_neg h1]
    have h1' : 0 ≤ z.toInt := by
      simp only [BitVec.slt, decide_eq_true_eq, h0] at h1; omega
    by_cases h2 : (9#32 : BitVec 32).slt z = true
    · rw [if_pos h2, h9]; omega
    · rw [if_neg h2]
      simp only [BitVec.slt, decide_eq_true_eq, h9] at h2; omega

/-- A bucket is at least 0 … -/
theorem bucket_nonneg (t : EReal) : 0 ≤ (Cert.Spec.bucket t).toInt := by
  unfold Cert.Spec.bucket; exact (clamp_bounds _).1

/-- … and at most 9. -/
theorem bucket_le (t : EReal) : (Cert.Spec.bucket t).toInt ≤ 9 := by
  unfold Cert.Spec.bucket; exact (clamp_bounds _).2

/-- The bucket of a position as a row number of the table of centres. -/
def bk (t : EReal) : Fin 10 :=
  ⟨(Cert.Spec.bucket t).toInt.toNat, by have := bucket_nonneg t; have := bucket_le t; omega⟩

/-- The clamped bucket of each target row. -/
theorem v14_apply (n : Fin 100000) :
    val_main_v14 (F := Ideal) x3 (ix1 n) = Cert.Spec.bucket (x3 (ix1 n)) := by
  rw [val_main_v14_apply, val_main_call0_v4_apply, val_main_call0_v3_apply, val_main_c_3_apply,
    val_main_call0_v2_apply, val_main_call0_v1_apply, val_main_call0_v0_apply, val_main_c_apply,
    val_main_v13_apply, val_main_v12_apply, val_main_v11_apply, val_main_v10_apply, val_main_cst_2_apply]
  rfl

/-- A bucket is never negative, so the wrap of a negative index leaves it as it is. -/
theorem v19_apply (n : Fin 100000) :
    val_main_v19 (F := Ideal) x3 (ix1 n) = Cert.Spec.bucket (x3 (ix1 n)) := by
  rw [val_main_v19_apply, val_main_v16_apply, val_main_v15_apply, val_main_c_4_apply, v14_apply]
  have h0 : (0#32 : BitVec 32).toInt = 0 := by decide
  have hlt : (Cert.Spec.bucket (x3 (ix1 n))).slt 0#32 = false := by
    simp only [BitVec.slt, h0]
    exact decide_eq_false (by have := bucket_nonneg (x3 (ix1 n)); omega)
  have hc : IntOp.cmpi .slt (Cert.Spec.bucket (x3 (ix1 n))) 0#32 = 0#1 := by
    show BitVec.ofBool ((Cert.Spec.bucket (x3 (ix1 n))).slt 0#32) = 0#1
    rw [hlt]; rfl
  rw [hc, select_zero]

/-- The column of the gather's start indices reads the buckets: (n, 0) reads bucket n. -/
theorem idx_v20_ix (n : Fin 100000) : idx_main_v20 (ix2 n (0 : Fin 1)) = ix1 n := by
  funext a; match a with | ⟨0, _⟩ => rfl

/-- The gather reads the centre of the row's bucket. -/
theorem v21_apply (n : Fin 100000) (d : Fin 256) :
    val_main_v21 (F := Ideal) x0 x1 x3 (ix2 n d) = Cert.Spec.center x0 x1 (bk (x3 (ix1 n))) d := by
  unfold val_main_v21
  show Host.gather (GatherRows.rowDims 10 100000 256 Facts₀.gather_S10x256_S100000x1_S100000x256_1_0_n_n_0_1_1256_wf)
    (val_main_v9 (F := Ideal) x0 x1) (val_main_v20 (F := Ideal) x3) (ix2 n d) = _
  rw [GatherRows.gather_rows_apply, val_main_v20_apply, idx_v20_ix, v19_apply]
  have hrow : (⟨min (Cert.Spec.bucket (x3 (ix1 n))).toInt.toNat (10 - 1),
      GatherRows.clamp_lt (GatherRows.rows_pos Facts₀.gather_S10x256_S100000x1_S100000x256_1_0_n_n_0_1_1256_wf) _⟩ : Fin 10)
      = bk (x3 (ix1 n)) :=
    Fin.ext (by
      show min (Cert.Spec.bucket (x3 (ix1 n))).toInt.toNat (10 - 1) = (Cert.Spec.bucket (x3 (ix1 n))).toInt.toNat
      have := bucket_le (x3 (ix1 n)); omega)
  rw [hrow, v9_apply]

/-- Exactly one sector word equals the bucket: the indicator sum picks that sector's centre. -/
theorem pick_eq (cen : Fin 10 → Fin 256 → EReal) (t : EReal) (d : Fin 256) :
    Cert.Spec.pick cen t d = cen (bk t) d := by
  unfold Cert.Spec.pick Cert.Spec.hit
  have hk : ∀ s : Fin 10, (Cert.Spec.bucket t = Cert.Spec.sw s) ↔ s = bk t := by
    intro s
    rw [eq_comm, sw_eq_iff]
    have h0 := bucket_nonneg t
    constructor
    · intro h; apply Fin.ext; show s.val = (Cert.Spec.bucket t).toInt.toNat; omega
    · intro h; subst h; show (Cert.Spec.bucket t).toInt = (((Cert.Spec.bucket t).toInt.toNat : ℕ) : ℤ); omega
  simp only [hk, ite_mul, one_mul, zero_mul, Finset.sum_ite_eq', Finset.mem_univ, if_true]

/-- The sum over the columns of row n runs over the elements (n, k). -/
theorem idx_v26_ix (n : Fin 100000) (k : Fin 256) : idx_main_v26 (ix1 n) k = ix2 n k := by
  funext a; match a with | ⟨0, _⟩ => rfl | ⟨1, _⟩ => rfl

/-- The norm of a target row's offset difference from its bucket's centre. -/
theorem v27_apply (n : Fin 100000) :
    val_main_v27 (F := Ideal) x0 x1 x2 x3 (ix1 n) = Cert.Spec.norm (Cert.Spec.center x0 x1) x2 x3 n := by
  rw [val_main_v27_apply, val_main_v26_apply, val_main_cst_7_apply, Ideal.hostUnary_sqrt_def, Ideal.ofBits_def,
    Ideal.ofBits_zero_f32, zero_add]
  unfold Cert.Spec.norm
  refine congrArg Ideal.sqrt (Finset.sum_congr rfl fun k _ => ?_)
  rw [idx_v26_ix, val_main_v25_apply, val_main_v24_apply, val_main_v22_apply, v21_apply, val_main_v23_apply,
    val_main_cst_6_apply, pick_eq]
  rfl

/-- The mean of the norms. -/
theorem v29_apply (i : S_.Idx) :
    val_main_v29 (F := Ideal) x0 x1 x2 x3 i = Cert.Spec.loss x0 x1 x2 x3 := by
  rw [val_main_v29_apply, val_main_v28_apply, val_main_cst_8_apply, val_main_cst_9_apply, sum_idx1,
    Ideal.hostDivf_def, Ideal.ofBits_def, Ideal.ofBits_def, Ideal.ofBits_zero_f32, zero_add]
  unfold Cert.Spec.loss
  exact congrArg (fun z : EReal => Ideal.div z Cert.Spec.countW)
    (Finset.sum_congr rfl fun n _ => v27_apply x0 x1 x2 x3 n)

end Stages

/-! ## The result -/

/-- The reference program's result at the ideal values is the closed specification of the loss. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v29 (F := Ideal) m c
      = fun _ => Cert.Spec.loss (m ((c.tc : Thread nD τ).loc main_arg0)) (m ((c.tc : Thread nD τ).loc main_arg1))
          (m ((c.tc : Thread nD τ).loc main_arg2)) (m ((c.tc : Thread nD τ).loc main_arg3)) := by
  rw [val_main_v29_eq]
  funext i
  exact v29_apply _ _ _ _ i

end Cert.RefValue
end
-- ==== Proof.lean ====
/-
  The certificate of the sector-mean distance loss.

  Both programs compute, from 200000 source rows with sector words and 100000 target rows with positions, the mean over
  the target rows of the norm of a row's offset difference from the centre of its bucket's sector; the centre of a
  sector is the sum of its source rows divided by their number. The reference sums by scatter and picks the centre by
  a gather. The kernel program sweeps the source rows in ten tiles, two halves of five, adding each tile's one-hot
  product to a running sum that restarts at the first tile of a half; a second sweep over ten tiles of target rows
  computes the centres once per half from the two halves' sums and adds each tile's norms to a running sum; the two
  halves' sums of norms are added and divided by 100000. On the extended reals a finite sum may be regrouped freely,
  a product with the indicator 0 or 1 is 0 or the other factor for every extended real, and both programs divide by
  the same words: so the two results are one function of the arguments, with no finiteness needed.

  The frames: each program runs to the end from any memory, faults nowhere and leaves its arguments unchanged. For the
  kernel program (read at the word level and at the ideal level alike) the run goes segment by segment — host
  operations, a pallas_call, host operations, a pallas_call, host operations — each pallas_call's region invariant
  carrying its two scratch accumulators from grid point to grid point.
-/
import proofs.«409938_j78271484002324_3_alg».proof.Proof.K.Launch
import proofs.«409938_j78271484002324_3_alg».proof.Proof.KI.KernelValue
import proofs.«409938_j78271484002324_3_alg».proof.Proof.RefValue
import proofs.«409938_j78271484002324_3_alg».proof.Proof.Gen.ReferenceIdeal
import proofs.«409938_j78271484002324_3_alg».proof.Proof.Gen.Pre_finite_inputs
import proofs.«409938_j78271484002324_3_alg».proof.Proof.Gen.ReferenceIdeal.Run
import proofs.«409938_j78271484002324_3_alg».proof.Proof.Gen.ReferenceIdeal.Read
import proofs.«409938_j78271484002324_3_alg».proof.Defs

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- The idealized kernel program runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The idealized reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealized kernel program and the idealized reference, from memories that agree on the arguments, both end
    with the closed loss of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Spec.loss (Cert.KernelIdeal.Hand.argX m c) (Cert.KernelIdeal.Hand.argSec m c)
    (Cert.KernelIdeal.Hand.argY m c) (Cert.KernelIdeal.Hand.argT m c), ?_, ?_⟩
  · refine (θ_run Cert.KernelIdeal.defs _ _).mono (fun r h c => ?_) (Cert.KernelIdeal.Hand.run_main (F := Ideal) m ρ)
    exact ⟨(h c _ (Cert.KernelIdeal.Hand.mem_uc Cert.KernelIdeal.main_v5 (by decide))).trans (Cert.KernelIdeal.Hand.W5_v5 m ρ c),
      (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c)⟩
  · refine (θ_run Cert.ReferenceIdeal.defs _ _).mono (fun _ h c => ⟨(h c).1.trans ?_, (h c).2⟩)
      (Cert.ReferenceIdeal.Value.run (F := Ideal) m' ρ')
    rw [Cert.RefValue.ref_eq m' c, (hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
